-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨3, ![1, 256, 2048]⟩ ⟨3, ![8, 256, 2048]⟩ 0 8 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![256, 256]⟩ ⟨2, ![256, 2048]⟩ 1 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S1x256x2048 : Shape := ⟨3, ![1, 256, 2048]⟩
abbrev S_ : Shape := ⟨0, ![]⟩

class Facts : Prop where
  bcast_S_S1x256x2048 : S_.BroadcastsInDim S1x256x2048 (![] : Fin 0 → Fin S1x256x2048.rank)
  reducesTo_S1x256x2048_S_d0_1_2 : S1x256x2048.ReducesTo [0, 1, 2] S_
  h_S_ : 0 < S_.numel

variable [Facts]

def fn {F : FTy → Type} [FloatOps F] (main_arg0 : FVec F S1x256x2048 .f32) : IVec S_ 1 :=
  let main_v0 : FVec F S1x256x2048 .f32 := Host.absf main_arg0
  let main_cst : FVec F S_ .f32 := constant S_ .f32 0x7F800000#32
  let main_v1 : FVec F S1x256x2048 .f32 := broadcastInDim S1x256x2048 ![] bcast_S_S1x256x2048 main_cst
  let main_v2 : IVec S1x256x2048 1 := cmpf .olt main_v0 main_v1
  let main_c : IVec S_ 1 := constantI S_ 1 1#1
  let main_v3 : IVec S_ 1 := (fun x v => Host.reduce IntOp.andi x v reducesTo_S1x256x2048_S_d0_1_2 h_S_) main_v2 main_c
  main_v3
-- ==== Pre_finite_inputs_ReferenceIdeal.lean ====
abbrev S8x256x2048 : Shape := ⟨3, ![8, 256, 2048]⟩
abbrev S_ : Shape := ⟨0, ![]⟩

class Facts : Prop where
  bcast_S_S8x256x2048 : S_.BroadcastsInDim S8x256x2048 (![] : Fin 0 → Fin S8x256x2048.rank)
  reducesTo_S8x256x2048_S_d0_1_2 : S8x256x2048.ReducesTo [0, 1, 2] S_
  h_S_ : 0 < S_.numel

variable [Facts]

def fn {F : FTy → Type} [FloatOps F] (main_arg0 : FVec F S8x256x2048 .f32) : IVec S_ 1 :=
  let main_v0 : FVec F S8x256x2048 .f32 := Host.absf main_arg0
  let main_cst : FVec F S_ .f32 := constant S_ .f32 0x7F800000#32
  let main_v1 : FVec F S8x256x2048 .f32 := broadcastInDim S8x256x2048 ![] bcast_S_S8x256x2048 main_cst
  let main_v2 : IVec S8x256x2048 1 := cmpf .olt main_v0 main_v1
  let main_c : IVec S_ 1 := constantI S_ 1 1#1
  let main_v3 : IVec S_ 1 := (fun x v => Host.reduce IntOp.andi x v reducesTo_S8x256x2048_S_d0_1_2 h_S_) main_v2 main_c
  main_v3
-- ==== Kernel.lean ====
abbrev S1x256x2048 : Shape := ⟨3, ![1, 256, 2048]⟩
abbrev S256x256 : Shape := ⟨2, ![256, 256]⟩
abbrev S256x2048 : Shape := ⟨2, ![256, 2048]⟩
abbrev S8x256x256 : Shape := ⟨3, ![8, 256, 256]⟩
abbrev S8 : Shape := ⟨1, ![8]⟩
abbrev S_ : Shape := ⟨0, ![]⟩
abbrev S1x256x256 : Shape := ⟨3, ![1, 256, 256]⟩
abbrev S1 : Shape := ⟨1, ![1]⟩

abbrev nBuf : Space → Nat
  | .hbm => 2
  | .vmem => 5
  | .smem => 0
  | _ => 0

abbrev bufTy : (tb : Table) → Fin (tcTables nBuf tb) → BufTy
  | .hbm, ⟨0, _⟩ => ⟨S1x256x2048, .f32⟩
  | .hbm, ⟨1, _⟩ => ⟨S256x256, .f32⟩
  | .local _ .vmem, ⟨0, _⟩ => ⟨S1x256x2048, .f32⟩
  | .local _ .vmem, ⟨1, _⟩ => ⟨S256x256, .f32⟩
  | .local _ .vmem, ⟨2, _⟩ => ⟨S256x2048, .bf16⟩
  | .local _ .vmem, ⟨3, _⟩ => ⟨S8x256x256, .bf16⟩
  | .local _ .vmem, ⟨4, _⟩ => ⟨S256x256, .f32⟩
  | _, _ => ⟨S1x256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  (ofTc nBuf bufTy 1 19 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_sem0_0 : DmaSem sig := 0
abbrev cc0_sem1_0 : DmaSem sig := 1
abbrev barrier0 : Sem sig := 0

abbrev nD : Nat := 8
abbrev τ : Topo := Topo.v7x

variable {F : FTy → Type} [FloatOps F]

abbrev grid0 : Pipeline.Grid := .none

def k0_off1 (d0 : Dev nD) : Fin 3 → Nat :=
  let c0_i32 : BitVec 32 := 0#32
  let c0_i32_0 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c256_i32 : BitVec 32 := 256#32
  let v3 : BitVec 32 := Scalar.muli v2 c256_i32
  ![0, 0, v3.toNat]
def k0_dev1 (d0 : Dev nD) : Nat :=
  let c0_i32_5 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v7 : BitVec 32 := Scalar.addi v2 c1_i32_1
  let c8_i32_2 : BitVec 32 := 8#32
  let v8 : BitVec 32 := Scalar.remsi v7 c8_i32_2
  let c1_i32_4 : BitVec 32 := 1#32
  let v9 : BitVec 32 := Scalar.muli v8 c1_i32_4
  let v10 : BitVec 32 := Scalar.addi c0_i32_5 v9
  v10.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v11 : BitVec 32 := Scalar.addi v2 c2_i32
  let c8_i32_6 : BitVec 32 := 8#32
  let v12 : BitVec 32 := Scalar.remsi v11 c8_i32_6
  let c1_i32_8 : BitVec 32 := 1#32
  let v13 : BitVec 32 := Scalar.muli v12 c1_i32_8
  let v14 : BitVec 32 := Scalar.addi c0_i32_9 v13
  v14.toNat
def k0_dev3 (d0 : Dev nD) : Nat :=
  let c0_i32_13 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v15 : BitVec 32 := Scalar.addi v2 c3_i32
  let c8_i32_10 : BitVec 32 := 8#32
  let v16 : BitVec 32 := Scalar.remsi v15 c8_i32_10
  let c1_i32_12 : BitVec 32 := 1#32
  let v17 : BitVec 32 := Scalar.muli v16 c1_i32_12
  let v18 : BitVec 32 := Scalar.addi c0_i32_13 v17
  v18.toNat
def k0_dev4 (d0 : Dev nD) : Nat :=
  let c0_i32_17 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v19 : BitVec 32 := Scalar.addi v2 c4_i32
  let c8_i32_14 : BitVec 32 := 8#32
  let v20 : BitVec 32 := Scalar.remsi v19 c8_i32_14
  let c1_i32_16 : BitVec 32 := 1#32
  let v21 : BitVec 32 := Scalar.muli v20 c1_i32_16
  let v22 : BitVec 32 := Scalar.addi c0_i32_17 v21
  v22.toNat
def k0_dev5 (d0 : Dev nD) : Nat :=
  let c0_i32_21 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v23 : BitVec 32 := Scalar.addi v2 c5_i32
  let c8_i32_18 : BitVec 32 := 8#32
  let v24 : BitVec 32 := Scalar.remsi v23 c8_i32_18
  let c1_i32_20 : BitVec 32 := 1#32
  let v25 : BitVec 32 := Scalar.muli v24 c1_i32_20
  let v26 : BitVec 32 := Scalar.addi c0_i32_21 v25
  v26.toNat
def k0_dev6 (d0 : Dev nD) : Nat :=
  let c0_i32_25 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v27 : BitVec 32 := Scalar.addi v2 c6_i32
  let c8_i32_22 : BitVec 32 := 8#32
  let v28 : BitVec 32 := Scalar.remsi v27 c8_i32_22
  let c1_i32_24 : BitVec 32 := 1#32
  let v29 : BitVec 32 := Scalar.muli v28 c1_i32_24
  let v30 : BitVec 32 := Scalar.addi c0_i32_25 v29
  v30.toNat
def k0_dev7 (d0 : Dev nD) : Nat :=
  let c0_i32_29 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v31 : BitVec 32 := Scalar.addi v2 c7_i32
  let c8_i32_26 : BitVec 32 := 8#32
  let v32 : BitVec 32 := Scalar.remsi v31 c8_i32_26
  let c1_i32_28 : BitVec 32 := 1#32
  let v33 : BitVec 32 := Scalar.muli v32 c1_i32_28
  let v34 : BitVec 32 := Scalar.addi c0_i32_29 v33
  v34.toNat
def k0_off2 (d0 : Dev nD) (c1_i32_35 : BitVec 32) : Fin 2 → Nat :=
  let c0_i32_45 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v41 : BitVec 32 := Scalar.addi v2 c1_i32_35
  let c8_i32_36 : BitVec 32 := 8#32
  let v42 : BitVec 32 := Scalar.remsi v41 c8_i32_36
  let c256_i32_37 : BitVec 32 := 256#32
  let v43 : BitVec 32 := Scalar.muli v42 c256_i32_37
  ![0, v43.toNat]
def k0_dev8 (d0 : Dev nD) : Nat :=
  let c0_i32_42 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_35 : BitVec 32 := 1#32
  let v41 : BitVec 32 := Scalar.addi v2 c1_i32_35
  let c8_i32_36 : BitVec 32 := 8#32
  let v42 : BitVec 32 := Scalar.remsi v41 c8_i32_36
  let c1_i32_41 : BitVec 32 := 1#32
  let v44 : BitVec 32 := Scalar.muli v42 c1_i32_41
  let v45 : BitVec 32 := Scalar.addi c0_i32_42 v44
  v45.toNat
def k0_dev9 (d0 : Dev nD) : Nat :=
  let c0_i32_53 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_46 : BitVec 32 := 4#32
  let v53 : BitVec 32 := Scalar.addi v2 c4_i32_46
  let c8_i32_47 : BitVec 32 := 8#32
  let v54 : BitVec 32 := Scalar.remsi v53 c8_i32_47
  let c1_i32_52 : BitVec 32 := 1#32
  let v56 : BitVec 32 := Scalar.muli v54 c1_i32_52
  let v57 : BitVec 32 := Scalar.addi c0_i32_53 v56
  v57.toNat
def k0_dev10 (d0 : Dev nD) : Nat :=
  let c0_i32_64 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_57 : BitVec 32 := 7#32
  let v65 : BitVec 32 := Scalar.addi v2 c7_i32_57
  let c8_i32_58 : BitVec 32 := 8#32
  let v66 : BitVec 32 := Scalar.remsi v65 c8_i32_58
  let c1_i32_63 : BitVec 32 := 1#32
  let v68 : BitVec 32 := Scalar.muli v66 c1_i32_63
  let v69 : BitVec 32 := Scalar.addi c0_i32_64 v68
  v69.toNat
def k0_dev11 (d0 : Dev nD) : Nat :=
  let c0_i32_75 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_68 : BitVec 32 := 2#32
  let v77 : BitVec 32 := Scalar.addi v2 c2_i32_68
  let c8_i32_69 : BitVec 32 := 8#32
  let v78 : BitVec 32 := Scalar.remsi v77 c8_i32_69
  let c1_i32_74 : BitVec 32 := 1#32
  let v80 : BitVec 32 := Scalar.muli v78 c1_i32_74
  let v81 : BitVec 32 := Scalar.addi c0_i32_75 v80
  v81.toNat
def k0_dev12 (d0 : Dev nD) : Nat :=
  let c0_i32_86 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_79 : BitVec 32 := 3#32
  let v89 : BitVec 32 := Scalar.addi v2 c3_i32_79
  let c8_i32_80 : BitVec 32 := 8#32
  let v90 : BitVec 32 := Scalar.remsi v89 c8_i32_80
  let c1_i32_85 : BitVec 32 := 1#32
  let v92 : BitVec 32 := Scalar.muli v90 c1_i32_85
  let v93 : BitVec 32 := Scalar.addi c0_i32_86 v92
  v93.toNat
def k0_dev13 (d0 : Dev nD) : Nat :=
  let c0_i32_97 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_90 : BitVec 32 := 5#32
  let v101 : BitVec 32 := Scalar.addi v2 c5_i32_90
  let c8_i32_91 : BitVec 32 := 8#32
  let v102 : BitVec 32 := Scalar.remsi v101 c8_i32_91
  let c1_i32_96 : BitVec 32 := 1#32
  let v104 : BitVec 32 := Scalar.muli v102 c1_i32_96
  let v105 : BitVec 32 := Scalar.addi c0_i32_97 v104
  v105.toNat
def k0_dev14 (d0 : Dev nD) : Nat :=
  let c0_i32_108 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_101 : BitVec 32 := 6#32
  let v113 : BitVec 32 := Scalar.addi v2 c6_i32_101
  let c8_i32_102 : BitVec 32 := 8#32
  let v114 : BitVec 32 := Scalar.remsi v113 c8_i32_102
  let c1_i32_107 : BitVec 32 := 1#32
  let v116 : BitVec 32 := Scalar.muli v114 c1_i32_107
  let v117 : BitVec 32 := Scalar.addi c0_i32_108 v116
  v117.toNat
abbrev stage0_0 : Fin 1 → Memref sig .tc .vmem S1x256x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

class Facts₀ : Prop where
  squeezes_S1x256x256_S256x256 : S1x256x256.Squeezes S256x256
  hamt_1 : (1#32 : BitVec 32).msb = false
  inb_S1x256x2048_S1x256x2048_0_0_0 : ∀ a, (![0, 0, 0] : Fin 3 → Nat) a + S1x256x2048.size a ≤ S1x256x2048.size a
  h_S1x256x2048 : 0 < S1x256x2048.numel
  shapeCasts_S1x256x2048_S256x2048 : S1x256x2048.ShapeCasts S256x2048
  bitsLt_bf16_f32 : FTy.bits .bf16 < FTy.bits .f32
  inb_S256x2048_S256x2048_0_0 : ∀ a, (![0, 0] : Fin 2 → Nat) a + S256x2048.size a ≤ S256x2048.size a
  h_S256x2048 : 0 < S256x2048.numel
  shapeCasts_S256x2048_S256x2048 : S256x2048.ShapeCasts S256x2048
  packedbf16_S256x2048_S256x2048_0_0 : (Rect.unit (s := S256x2048) ![0, 0] S256x2048.size inb_S256x2048_S256x2048_0_0).PackedRows (EltTy.packing .bf16)
  hamt_7 : (7#32 : BitVec 32).msb = false
  inb_S8_S1_1 : ∀ a, (![1] : Fin 1 → Nat) a + S1.size a ≤ S8.size a
  squeezes_S1_S_ : S1.Squeezes S_
  inb_S8_S1_7 : ∀ a, (![7] : Fin 1 → Nat) a + S1.size a ≤ S8.size a
  inb_S8x256x256_S1x256x256_7_0_0 : ∀ a, (![7, 0, 0] : Fin 3 → Nat) a + S1x256x256.size a ≤ S8x256x256.size a
  wordsbf16_S8x256x256_S1x256x256_7_0_0 : (Rect.unit (s := S8x256x256) ![7, 0, 0] S1x256x256.size inb_S8x256x256_S1x256x256_7_0_0).WholeWords (EltTy.packing .bf16)
  inb_S8_S1_4 : ∀ a, (![4] : Fin 1 → Nat) a + S1.size a ≤ S8.size a
  inb_S8x256x256_S1x256x256_4_0_0 : ∀ a, (![4, 0, 0] : Fin 3 → Nat) a + S1x256x256.size a ≤ S8x256x256.size a
  wordsbf16_S8x256x256_S1x256x256_4_0_0 : (Rect.unit (s := S8x256x256) ![4, 0, 0] S1x256x256.size inb_S8x256x256_S1x256x256_4_0_0).WholeWords (EltTy.packing .bf16)
  inb_S8x256x256_S1x256x256_1_0_0 : ∀ a, (![1, 0, 0] : Fin 3 → Nat) a + S1x256x256.size a ≤ S8x256x256.size a
  wordsbf16_S8x256x256_S1x256x256_1_0_0 : (Rect.unit (s := S8x256x256) ![1, 0, 0] S1x256x256.size inb_S8x256x256_S1x256x256_1_0_0).WholeWords (EltTy.packing .bf16)
  inb_S8_S1_2 : ∀ a, (![2] : Fin 1 → Nat) a + S1.size a ≤ S8.size a
  inb_S8_S1_6 : ∀ a, (![6] : Fin 1 → Nat) a + S1.size a ≤ S8.size a
  inb_S8x256x256_S1x256x256_6_0_0 : ∀ a, (![6, 0, 0] : Fin 3 → Nat) a + S1x256x256.size a ≤ S8x256x256.size a
  wordsbf16_S8x256x256_S1x256x256_6_0_0 : (Rect.unit (s := S8x256x256) ![6, 0, 0] S1x256x256.size inb_S8x256x256_S1x256x256_6_0_0).WholeWords (EltTy.packing .bf16)
  inb_S8_S1_3 : ∀ a, (![3] : Fin 1 → Nat) a + S1.size a ≤ S8.size a
  inb_S8_S1_5 : ∀ a, (![5] : Fin 1 → Nat) a + S1.size a ≤ S8.size a
  inb_S8x256x256_S1x256x256_5_0_0 : ∀ a, (![5, 0, 0] : Fin 3 → Nat) a + S1x256x256.size a ≤ S8x256x256.size a
  wordsbf16_S8x256x256_S1x256x256_5_0_0 : (Rect.unit (s := S8x256x256) ![5, 0, 0] S1x256x256.size inb_S8x256x256_S1x256x256_5_0_0).WholeWords (EltTy.packing .bf16)
  inb_S8x256x256_S1x256x256_3_0_0 : ∀ a, (![3, 0, 0] : Fin 3 → Nat) a + S1x256x256.size a ≤ S8x256x256.size a
  wordsbf16_S8x256x256_S1x256x256_3_0_0 : (Rect.unit (s := S8x256x256) ![3, 0, 0] S1x256x256.size inb_S8x256x256_S1x256x256_3_0_0).WholeWords (EltTy.packing .bf16)
  inb_S8x256x256_S1x256x256_2_0_0 : ∀ a, (![2, 0, 0] : Fin 3 → Nat) a + S1x256x256.size a ≤ S8x256x256.size a
  wordsbf16_S8x256x256_S1x256x256_2_0_0 : (Rect.unit (s := S8x256x256) ![2, 0, 0] S1x256x256.size inb_S8x256x256_S1x256x256_2_0_0).WholeWords (EltTy.packing .bf16)
  inb_S256x256_S256x256_0_0 : ∀ a, (![0, 0] : Fin 2 → Nat) a + S256x256.size a ≤ S256x256.size a
  h_S256x256 : 0 < S256x256.numel
  h_S1x256x256 : 0 < S1x256x256.numel
  shapeCasts_S1x256x256_S256x256 : S1x256x256.ShapeCasts S256x256
  hcc0_scratch3 : 2 + S8.numel ≤ 19
  hcc0_scratch4 : 10 + S8.numel ≤ 19
  hcc0_scratch5 : 18 + S_.numel ≤ 19
  k0_off1_inb : ∀ d0 : Dev nD, ∀ a, (k0_off1 d0) a + S1x256x256.size a ≤ S1x256x2048.size a
  k0_dev1_lt : ∀ d0 : Dev nD, (k0_dev1 d0) < nD
  k0_dev2_lt : ∀ d0 : Dev nD, (k0_dev2 d0) < nD
  k0_dev3_lt : ∀ d0 : Dev nD, (k0_dev3 d0) < nD
  k0_dev4_lt : ∀ d0 : Dev nD, (k0_dev4 d0) < nD
  k0_dev5_lt : ∀ d0 : Dev nD, (k0_dev5 d0) < nD
  k0_dev6_lt : ∀ d0 : Dev nD, (k0_dev6 d0) < nD
  k0_dev7_lt : ∀ d0 : Dev nD, (k0_dev7 d0) < nD
  k0_off2_inb : ∀ d0 : Dev nD, ∀ (r : Fin 7), ∀ a, (k0_off2 d0 (BitVec.ofNat 32 (1 + r.val))) a + S256x256.size a ≤ S256x2048.size a
  k0_off2_wordsbf16 : ∀ d0 : Dev nD, ∀ (r : Fin 7), (Rect.unit (s := S256x2048) (k0_off2 d0 (BitVec.ofNat 32 (1 + r.val))) S256x256.size (k0_off2_inb d0 r)).WholeWords (EltTy.packing .bf16)
  k0_dev8_lt : ∀ d0 : Dev nD, (k0_dev8 d0) < nD
  k0_dev9_lt : ∀ d0 : Dev nD, (k0_dev9 d0) < nD
  k0_dev10_lt : ∀ d0 : Dev nD, (k0_dev10 d0) < nD
  k0_dev11_lt : ∀ d0 : Dev nD, (k0_dev11 d0) < nD
  k0_dev12_lt : ∀ d0 : Dev nD, (k0_dev12 d0) < nD
  k0_dev13_lt : ∀ d0 : Dev nD, (k0_dev13 d0) < nD
  k0_dev14_lt : ∀ d0 : Dev nD, (k0_dev14 d0) < nD
  hstage0_0 : ∀ j, (stage0_0 j).IsWhole
  hstage0_1 : ∀ j, (stage0_1 j).IsWhole

variable [Facts₀]

abbrev cc0_scratch3 : DmaSems sig S8 := SemArray.consecutive 2 S8 hcc0_scratch3
abbrev cc0_scratch4 : DmaSems sig S8 := SemArray.consecutive 10 S8 hcc0_scratch4
abbrev cc0_scratch5 : DmaSems sig S_ := SemArray.consecutive 18 S_ hcc0_scratch5

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_v1) true false (stage0_1 0) (sem0_1 0) (Memref.isWhole_whole _) (hstage0_1 0)

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S8x256x2048 : Shape := ⟨3, ![8, 256, 2048]⟩
abbrev S_ : Shape := ⟨0, ![]⟩
abbrev S256x2048 : Shape := ⟨2, ![256, 2048]⟩

abbrev nBuf : Space → Nat
  | .hbm => 3
  | .vmem => 0
  | .smem => 0
  | _ => 0

abbrev bufTy : (tb : Table) → Fin (tcTables nBuf tb) → BufTy
  | .hbm, ⟨0, _⟩ => ⟨S8x256x2048, .f32⟩
  | .hbm, ⟨1, _⟩ => ⟨S_, .f32⟩
  | .hbm, ⟨2, _⟩ => ⟨S256x2048, .f32⟩
  | _, _ => ⟨S8x256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]

class Facts₀ : Prop where
  reducesTo_S8x256x2048_S256x2048_d0 : S8x256x2048.ReducesTo [0] S256x2048
  h_S_ : 0 < S_.numel

variable [Facts₀]

class Facts : Prop extends Facts₀ where

variable [Facts]
-- ==== Proof.KernelIdealSpec.lean ====
/-
  The contents the reduce-scatter kernel moves, named once for every module of the proof: device `c`'s
  staged block of `x`, its bf16 image, the chunk views a copy reads and the slot views a copy lands in,
  what each copy delivers, and the accumulated result — the own chunk plus the seven received chunks,
  added in the order of the receive slots.
-/
import proofs.«900588_g7700000000000589_dist_rs_v7x_i8_i_m256_n256_f32_1_alg».proof.Proof.Gen.KernelIdeal
import proofs.«900588_g7700000000000589_dist_rs_v7x_i8_i_m256_n256_f32_1_alg».proof.Proof.Gen.KernelIdeal.Skeleton

noncomputable section

namespace Cert.KernelIdealProof

open Cert.KernelIdeal Cert.KernelIdeal.Gen
open Idealize.ShloMosaic Idealize.ShloMosaic.TcCoe Idealize.SL.Sem

variable {F : FTy → Type} [FloatOps F]

/-! ## Positions on the ring of eight devices -/

/-- The device `k` places after `c`. -/
def shift (c : Dev nD) (k : Fin 8) : Dev nD := ⟨(c.val + k.val) % 8, Nat.mod_lt _ (by decide)⟩
/-- The offset that undoes `k`: `8 - k` modulo 8. -/
def opp (k : Fin 8) : Fin 8 := ⟨(8 - k.val) % 8, Nat.mod_lt _ (by decide)⟩

theorem shift_opp (c : Dev nD) (k : Fin 8) : shift (shift c k) (opp k) = c := by revert c k; decide
theorem shift_opp' (c : Dev nD) (k : Fin 8) : shift (shift c (opp k)) k = c := by revert c k; decide
theorem opp_opp (k : Fin 8) : opp (opp k) = k := by revert k; decide
theorem shift_zero (c : Dev nD) : shift c 0 = c := by revert c; decide
theorem shift_injective (c : Dev nD) : Function.Injective (shift c) := by revert c; decide
theorem shift_left_injective (k : Fin 8) : Function.Injective (fun c => shift c k) := by revert k; decide
theorem opp_ne_zero {k : Fin 8} (h : k ≠ 0) : opp k ≠ 0 := by revert k; decide

/-- The offset `1 + r` of the `r`-th of the seven peers. -/
def off (r : Fin 7) : Fin 8 := ⟨1 + r.val, by omega⟩
theorem off_ne_zero (r : Fin 7) : off r ≠ 0 := by revert r; decide
/-- The row of the peer table whose offset undoes `off r`. -/
def rev (r : Fin 7) : Fin 7 := ⟨6 - r.val, by omega⟩
theorem off_rev (r : Fin 7) : off (rev r) = opp (off r) := by revert r; decide
theorem rev_rev (r : Fin 7) : rev (rev r) = r := by revert r; decide

/-! ## The buffers and their views -/

abbrev xM : Memref sig .tc .vmem S1x256x2048 .f32 := Memref.whole cc0_stg0_0
abbrev oM : Memref sig .tc .vmem S256x256 .f32 := Memref.whole cc0_stg1_0
/-- The bf16 image of the staged block. -/
abbrev bM : Memref sig .tc .vmem S256x2048 .bf16 := Memref.whole cc0_scratch0
/-- The eight receive slots. -/
abbrev rM : Memref sig .tc .vmem S8x256x256 .bf16 := Memref.whole cc0_scratch1
/-- The device's own chunk, copied aside. -/
abbrev aM : Memref sig .tc .vmem S256x256 .f32 := Memref.whole cc0_scratch2

abbrev rX : Rect S1x256x2048 := Rect.unit (s := S1x256x2048) ![0, 0, 0] S1x256x2048.size inb_S1x256x2048_S1x256x2048_0_0_0
abbrev rB : Rect S256x2048 := Rect.unit (s := S256x2048) ![0, 0] S256x2048.size inb_S256x2048_S256x2048_0_0
abbrev rO : Rect S256x256 := Rect.unit (s := S256x256) ![0, 0] S256x256.size inb_S256x256_S256x256_0_0

/-- Columns `[256 c, 256 c + 256)` of the staged block: device `c`'s own chunk. -/
abbrev xChunk (c : Dev nD) : Memref sig .tc .vmem S256x256 .f32 :=
  (xM.slice (Rect.unit (s := S1x256x2048) (k0_off1 c) S1x256x256.size (k0_off1_inb c)) (fun _ => rfl)).squeeze S256x256 squeezes_S1x256x256_S256x256

/-- Columns `[256 p, 256 p + 256)` of the bf16 image, `p` the device `1 + r` places after `c`: the chunk `c` sends there. -/
abbrev bChunk (c : Dev nD) (r : Fin 7) : Memref sig .tc .vmem S256x256 .bf16 :=
  bM.slice (Rect.unit (s := S256x2048) (k0_off2 c (BitVec.ofNat 32 (1 + r.val))) S256x256.size (k0_off2_inb c r)) (fun _ => rfl)

theorem slot_inb (s : Fin 8) : ∀ a, (![s.val, 0, 0] : Fin 3 → Nat) a + S1x256x256.size a ≤ S8x256x256.size a := by
  revert s; decide
/-- Receive slot `s`, as a box of the slot buffer; -/
abbrev slotRect (s : Fin 8) : Rect S8x256x256 := Rect.unit (s := S8x256x256) ![s.val, 0, 0] S1x256x256.size (slot_inb s)
/-- and as the view a copy lands in. -/
abbrev slot (s : Fin 8) : Memref sig .tc .vmem S256x256 .bf16 :=
  (rM.slice (slotRect s) (fun _ => rfl)).squeeze S256x256 squeezes_S1x256x256_S256x256

/-! ## Contents -/

variable (m : (ℓ : Loc nD τ sig) → Buf (Elt F) ℓ)

/-- Device `c`'s block of `x`, as staged. -/
def xstg (c : Dev nD) : (cc0_stg0_0 : Ref sig .tc).ty.Contents (Elt F) :=
  (win0_0.blk (0 : Fin 1)).view.read (Elt F) (m ((c : Thread nD τ).loc main_arg0))

/-- Its bf16 image: what the kernel stores before it sends. -/
def xbBuf (c : Dev nD) : (cc0_scratch0 : Ref sig .tc).ty.Contents (Elt F) := k0_pay1 (xstg m c)

/-- The device's own chunk, as the local copy delivers it. -/
def ownVal (c : Dev nD) : (cc0_scratch2 : Ref sig .tc).ty.Contents (Elt F) := (xChunk c).view.read (Elt F) (xstg m c)

/-- What lands in receive slot `off r` of device `c`: chunk `c` of the image of the device `off r` places after it
    (which sends it with its copy number `rev r`). -/
def landVal (c : Dev nD) (r : Fin 7) : S256x256.Idx → Elt F .bf16 :=
  (bChunk (shift c (off r)) (rev r)).view.read (Elt F) (xbBuf m (shift c (off r)))

/-- The slot buffer with that landed in slot `off r` (elsewhere as launched: only the slot's elements are ever held at it). -/
def landedBuf (c : Dev nD) (r : Fin 7) : (cc0_scratch1 : Ref sig .tc).ty.Contents (Elt F) :=
  (slot (off r)).view.write (Elt F) (m ((c : Thread nD τ).loc cc0_scratch1)) (landVal m c r) Finset.univ

/-- Slot `off r` read back as the kernel reads it. -/
def landRead (c : Dev nD) (r : Fin 7) : Vec F S1x256x256 .bf16 :=
  rM.view.readAt (Elt F) (slotRect (off r)).toLoadRect (landedBuf m c r)

/-- The kernel's result on device `c`: its own chunk plus the received ones, slot 1 to slot 7. -/
def outAt (c : Dev nD) : (cc0_stg1_0 : Ref sig .tc).ty.Contents (Elt F) :=
  k0_pay5 (k0_pay4 (k0_pay3 (k0_pay2 (ownVal m c) (landRead m c 0) (landRead m c 1)) (landRead m c 2) (landRead m c 3))
    (landRead m c 4) (landRead m c 5)) (landRead m c 6)

end Cert.KernelIdealProof

end
-- ==== Proof.Value.lean ====
/-
  The value side of the reduce-scatter at the ideal instance. Device `c` ends holding, at `(r, j)`, its own entry
  `x[c][0, r, 256 c + j]` plus the seven received entries `x[c + s][0, r, 256 c + j]`, `s = 1 … 7` (device indices modulo 8),
  added one after another. The one-device reference holds at `(r, 256 c + j)` the initial value `0` plus the sum over all
  eight `d` of `x[d][r, 256 c + j]`. The eight summands are the same, read starting from `c` and going round, and a sum of
  extended reals does not depend on the order or the grouping of its terms; nothing here needs the entries to be finite.
-/
import proofs.«900588_g7700000000000589_dist_rs_v7x_i8_i_m256_n256_f32_1_alg».proof.Defs
import proofs.«900588_g7700000000000589_dist_rs_v7x_i8_i_m256_n256_f32_1_alg».proof.Proof.KernelIdealSpec
import proofs.«900588_g7700000000000589_dist_rs_v7x_i8_i_m256_n256_f32_1_alg».proof.Proof.Gen.ReferenceIdeal.Run
import proofs.«900588_g7700000000000589_dist_rs_v7x_i8_i_m256_n256_f32_1_alg».proof.Proof.Gen.ReferenceIdeal.Read
import proofs.«900588_g7700000000000589_dist_rs_v7x_i8_i_m256_n256_f32_1_alg».proof.Proof.Gen.Pre_finite_inputs_ReferenceIdeal
import Idealize.ShloMosaic.Lib.Layout
import Idealize.ShloMosaic.Lib.ValueIdx
import Idealize.ShloMosaic.Lib.Pipeline.Value
import Idealize.ShloMosaic.PureOps.Ideal.Laws
import Mathlib.Algebra.BigOperators.Fin
import Mathlib.Data.ZMod.Defs

noncomputable section

namespace Cert.KernelIdealProof.Value

open Cert.KernelIdeal Cert.KernelIdeal.Gen Cert.KernelIdealProof
open Idealize.ShloMosaic Idealize.ShloMosaic.TcCoe Idealize.ShloMosaic.ValueIdx Idealize.SL.Sem
open scoped BigOperators

/-! ## A sum over the ring of eight, read from any starting point -/

/-- The eight terms of a sum over eight positions, read starting at `c` and going once round, add up to the sum:
    `k ↦ c + k` is a bijection of the positions, and addition in a commutative monoid takes its terms in any order. -/
theorem sum_from {M : Type} [AddCommMonoid M] (f : Fin 8 → M) (c : Fin 8) :
    f c + f (c + 1) + f (c + 2) + f (c + 3) + f (c + 4) + f (c + 5) + f (c + 6) + f (c + 7) = ∑ d, f d := by
  rw [← Equiv.sum_comp (Equiv.addLeft c) f, Fin.sum_univ_eight]
  simp only [Equiv.coe_addLeft, add_zero]

/-- The same over the devices, the device `k` places after `c` being `c + k` modulo 8. -/
theorem sum_round {M : Type} [AddCommMonoid M] (f : Dev nD → M) (c : Dev nD) :
    f c + f (shift c 1) + f (shift c 2) + f (shift c 3) + f (shift c 4) + f (shift c 5) + f (shift c 6) + f (shift c 7)
      = ∑ d : Fin 8, f d :=
  sum_from f c

/-! ## What the kernel's buffers hold, index by index -/
section AnyInstance
variable {F : FTy → Type} [FloatOps F] (m : (ℓ : Loc nD τ sig) → Buf (Elt F) ℓ)

/-- A receive slot read back as the kernel reads it, with the unit axis dropped, is what landed in it. -/
theorem landRead_cast (c : Dev nD) (r : Fin 7) :
    (shapeCast S256x256 (landRead m c r) shapeCasts_S1x256x256_S256x256 : FVec F S256x256 .bf16) = landVal m c r := by
  unfold landRead landedBuf
  exact (Memref.read_squeeze_slice rM (slotRect (off r)) (fun _ => rfl) squeezes_S1x256x256_S256x256
    shapeCasts_S1x256x256_S256x256 _).symm.trans (View.read_write_univ _ _)

/-- The staged block is the device's slab of `x`, index by index. -/
theorem xstg_apply (c : Dev nD) (z : Fin 1) (a : Fin 256) (q : Fin 2048) :
    xstg m c (ix3 z a q) = (m ((c : Thread nD τ).loc main_arg0) : S1x256x2048.Idx → Elt F .f32) (ix3 z a q) := by
  unfold xstg
  rw [View.read_apply]
  show (m ((c : Thread nD τ).loc main_arg0) : S1x256x2048.Idx → Elt F .f32) ((win0_0.blk (0 : Fin 1)).view.emb (ix3 z a q)) = _
  refine congrArg _ (funext fun b => Fin.ext ?_)
  match b with
  | ⟨0, _⟩ => show 0 * 1 + 1 * z.val = z.val; omega
  | ⟨1, _⟩ => show 0 * 256 + 1 * a.val = a.val; omega
  | ⟨2, _⟩ => show 0 * 2048 + 1 * q.val = q.val; omega

/-- Column `256 c + j` of a row of 2048: where column `j` of device `c`'s chunk sits. -/
def col (c : Dev nD) (j : Fin 256) : Fin 2048 := ⟨256 * c.val + j.val, by have hc : c.val < 8 := c.isLt; have := j.isLt; omega⟩

/-- The own chunk is columns `256 c …` of the device's slab. -/
theorem ownVal_apply (c : Dev nD) (a : Fin 256) (b : Fin 256) :
    ownVal m c (ix2 a b) = (m ((c : Thread nD τ).loc main_arg0) : S1x256x2048.Idx → Elt F .f32) (ix3 (0 : Fin 1) a (col c b)) := by
  refine Eq.trans ?_ (xstg_apply m c 0 a (col c b))
  unfold ownVal
  refine (congrFun (Memref.read_squeeze_slice (Val := Elt F) xM (Rect.unit (s := S1x256x2048) (k0_off1 c) S1x256x256.size (k0_off1_inb c))
    (fun _ => rfl) squeezes_S1x256x256_S256x256 shapeCasts_S1x256x256_S256x256 (xstg m c)) (ix2 a b)).trans ?_
  refine (shapeCast_dropUnit_apply ![256, 256] _ _ (ix2 a b)).trans ?_
  show xstg m c ((Rect.unit (s := S1x256x2048) (k0_off1 c) S1x256x256.size (k0_off1_inb c)).toLoadRect.idx (Fin.cons ⟨0, Nat.one_pos⟩ (ix2 a b))) = _
  refine congrArg _ (funext fun d => Fin.ext ?_)
  have h0 : k0_off1 c 0 = 0 := by rw [k0_off1_eq]; rfl
  have h1 : k0_off1 c 1 = 0 := by rw [k0_off1_eq]; rfl
  have h2 : k0_off1 c 2 = 256 * c.val := by rw [k0_off1_eq]; rfl
  match d with
  | ⟨0, _⟩ => show k0_off1 c 0 + 1 * 0 = 0; omega
  | ⟨1, _⟩ => show k0_off1 c 1 + 1 * a.val = a.val; omega
  | ⟨2, _⟩ => show k0_off1 c 2 + 1 * b.val = 256 * c.val + b.val; omega

end AnyInstance

section AtIdeal
variable (m : (ℓ : Loc nD τ sig) → Buf (Elt Ideal) ℓ)

/-- The bf16 image holds the slab's entries unchanged: a change of float format is the identity on extended reals, and
    the casts only re-index. -/
theorem xbBuf_apply (p : Dev nD) (a : Fin 256) (q : Fin 2048) :
    xbBuf (F := Ideal) m p (ix2 a q) = (m ((p : Thread nD τ).loc main_arg0) : S1x256x2048.Idx → EReal) (ix3 (0 : Fin 1) a q) := by
  refine Eq.trans ?_ (xstg_apply m p 0 a q)
  unfold xbBuf k0_pay1
  simp only [shapeCast_self]
  show shapeCast S256x2048 (xstg m p) shapeCasts_S1x256x2048_S256x2048 (ix2 a q) = _
  refine (shapeCast_dropUnit_apply ![256, 2048] _ _ (ix2 a q)).trans ?_
  refine congrArg _ (funext fun d => ?_)
  match d with
  | ⟨0, _⟩ => rfl
  | ⟨1, _⟩ => rfl
  | ⟨2, _⟩ => rfl

/-- The device `1 + r` places after `c` sends, with its copy number `6 - r`, its columns `256 c …`: chunk `c`. -/
theorem off2_shift (c : Dev nD) (r : Fin 7) :
    k0_off2 (shift c (off r)) (BitVec.ofNat 32 (1 + (rev r).val)) = ![0, 256 * c.val] := by
  rw [k0_off2_eq]
  have h : ((shift c (off r)).val + (rev r).val + 1) % 8 = c.val := by revert c r; decide
  rw [h]

/-- What lands in slot `1 + r` of device `c` is columns `256 c …` of the slab of the device `1 + r` places after it. -/
theorem landVal_apply (c : Dev nD) (r : Fin 7) (a : Fin 256) (b : Fin 256) :
    landVal (F := Ideal) m c r (ix2 a b)
      = (m ((shift c (off r) : Thread nD τ).loc main_arg0) : S1x256x2048.Idx → EReal) (ix3 (0 : Fin 1) a (col c b)) := by
  refine Eq.trans ?_ (xbBuf_apply m (shift c (off r)) a (col c b))
  unfold landVal
  rw [View.read_apply]
  show xbBuf (F := Ideal) m (shift c (off r)) ((bChunk (shift c (off r)) (rev r)).view.emb (ix2 a b)) = _
  refine congrArg _ (funext fun d => Fin.ext ?_)
  have h0 : k0_off2 (shift c (off r)) (BitVec.ofNat 32 (1 + (rev r).val)) 0 = 0 := by rw [off2_shift]; rfl
  have h1 : k0_off2 (shift c (off r)) (BitVec.ofNat 32 (1 + (rev r).val)) 1 = 256 * c.val := by rw [off2_shift]; rfl
  match d with
  | ⟨0, _⟩ => show k0_off2 (shift c (off r)) (BitVec.ofNat 32 (1 + (rev r).val)) 0 + 1 * a.val = a.val; omega
  | ⟨1, _⟩ => show k0_off2 (shift c (off r)) (BitVec.ofNat 32 (1 + (rev r).val)) 1 + 1 * b.val = 256 * c.val + b.val; omega

end AtIdeal

/-! ## The kernel's result at an index -/

section AtIdeal
variable (m : (ℓ : Loc nD τ sig) → Buf (Elt Ideal) ℓ)

/-- The entry of device `d`'s slab of `x` at row `a` and column `q`. -/
def xAt (d : Dev nD) (a : Fin 256) (q : Fin 2048) : EReal :=
  (m ((d : Thread nD τ).loc main_arg0) : S1x256x2048.Idx → EReal) (ix3 (0 : Fin 1) a q)

/-- The accumulated result is the own chunk plus what landed in slots 1 to 7, in that order: at the ideal instance the
    widening of a received entry is the identity and the vector sum is the sum of the entries. -/
theorem outAt_eq (c : Dev nD) (i : S256x256.Idx) :
    outAt (F := Ideal) m c i
      = (show EReal from ownVal (F := Ideal) m c i) + (show EReal from landVal (F := Ideal) m c 0 i)
        + (show EReal from landVal (F := Ideal) m c 1 i) + (show EReal from landVal (F := Ideal) m c 2 i)
        + (show EReal from landVal (F := Ideal) m c 3 i) + (show EReal from landVal (F := Ideal) m c 4 i)
        + (show EReal from landVal (F := Ideal) m c 5 i) + (show EReal from landVal (F := Ideal) m c 6 i) := by
  unfold outAt k0_pay5 k0_pay4 k0_pay3 k0_pay2
  simp only [landRead_cast]
  rfl

/-- Device `c`'s result at `(r, j)`: the entries at row `r`, column `256 c + j` of the slabs of `c`, of the device after
    it, and so on once round the ring, added in that order. -/
theorem outAt_apply (m : (ℓ : Loc Cert.KernelIdeal.nD Cert.KernelIdeal.τ Cert.KernelIdeal.sig) → Buf (Elt Ideal) ℓ)
    (c : Dev Cert.KernelIdeal.nD) (i : Cert.KernelIdeal.S256x256.Idx) :
    outAt (F := Ideal) m c i
      = xAt m c (i 0) (col c (i 1)) + xAt m (shift c 1) (i 0) (col c (i 1)) + xAt m (shift c 2) (i 0) (col c (i 1))
        + xAt m (shift c 3) (i 0) (col c (i 1)) + xAt m (shift c 4) (i 0) (col c (i 1)) + xAt m (shift c 5) (i 0) (col c (i 1))
        + xAt m (shift c 6) (i 0) (col c (i 1)) + xAt m (shift c 7) (i 0) (col c (i 1)) := by
  obtain ⟨a, b, rfl⟩ : ∃ (a : Fin 256) (b : Fin 256), i = ix2 a b := ⟨i 0, i 1, eq_ix2 i⟩
  rw [outAt_eq, ownVal_apply, landVal_apply, landVal_apply, landVal_apply, landVal_apply, landVal_apply, landVal_apply,
    landVal_apply]
  rfl

end AtIdeal

/-! ## The reference's result, and the two results joined -/

/-- The one-device reference's result as a function of its whole argument: at `(r, q)` the constant `0` plus the sum over
    the eight slabs `d` of `x[d][r, q]`. -/
def refVal (m' : (ℓ : Loc Cert.ReferenceIdeal.nD Cert.ReferenceIdeal.τ Cert.ReferenceIdeal.sig) → Buf (Elt Ideal) ℓ) :
    Buf (Elt Ideal) (((0 : Dev Cert.ReferenceIdeal.nD).tc : Thread Cert.ReferenceIdeal.nD Cert.ReferenceIdeal.τ).loc Cert.ReferenceIdeal.main_v0) :=
  Cert.ReferenceIdeal.Read.val_main_v0 (F := Ideal)
    (m' (((0 : Dev Cert.ReferenceIdeal.nD).tc : Thread Cert.ReferenceIdeal.nD Cert.ReferenceIdeal.τ).loc Cert.ReferenceIdeal.main_arg0))

section Reference
variable (m' : (ℓ : Loc Cert.ReferenceIdeal.nD Cert.ReferenceIdeal.τ Cert.ReferenceIdeal.sig) → Buf (Elt Ideal) ℓ)

/-- The reference's whole argument at slab `d`, row `a`, column `q`. -/
def wAt (d : Fin 8) (a : Fin 256) (q : Fin 2048) : EReal :=
  m' (((0 : Dev Cert.ReferenceIdeal.nD).tc : Thread Cert.ReferenceIdeal.nD Cert.ReferenceIdeal.τ).loc Cert.ReferenceIdeal.main_arg0) (ix3 d a q)

/-- The reference's result at row `a`, column `q`. -/
def refAt (a : Fin 256) (q : Fin 2048) : EReal := refVal m' (ix2 a q)

/-- It is the sum over the eight slabs of their entries at `(a, q)`: the initial value is the real `0`. -/
theorem refAt_eq (a : Fin 256) (q : Fin 2048) : refAt m' a q = ∑ d : Fin 8, wAt m' d a q := by
  unfold refAt refVal
  rw [Cert.ReferenceIdeal.Read.val_main_v0_apply]
  refine Eq.trans (congrArg (· + _) (show (Cert.ReferenceIdeal.Read.val_main_cst (F := Ideal)) (Shape.Idx.first Cert.ReferenceIdeal.Facts₀.h_S_) = (0 : EReal) from
    Ideal.ofBits_zero_f32)) ?_
  refine (zero_add _).trans ?_
  refine Finset.sum_congr rfl fun d _ => ?_
  unfold wAt
  refine congrArg _ (funext fun b => ?_)
  match b with
  | ⟨0, _⟩ => rfl
  | ⟨1, _⟩ => rfl
  | ⟨2, _⟩ => rfl

end Reference

/-- Device `d`'s slab is block `d` of the whole argument along its first axis: its entry at `(0, a, q)` is the whole
    array's at `(d, a, q)`. -/
theorem slab_apply (X : (⟨3, ![8, 256, 2048]⟩ : Shape).Idx → EReal) (d : Fin 8) (a : Fin 256) (q : Fin 2048) :
    (Layout.block ⟨3, ![1, 256, 2048]⟩ ⟨3, ![8, 256, 2048]⟩ 0 8 d X) (ix3 (0 : Fin 1) a q) = X (ix3 d a q) := by
  rw [Layout.block_apply]
  refine congrArg X (funext fun b => Fin.ext ?_)
  match b with
  | ⟨0, _⟩ => show d.val * 1 + 0 = d.val; omega
  | ⟨1, _⟩ => rfl
  | ⟨2, _⟩ => rfl

/-- Block `c` of a `256 × 2048` array along its columns reads, at `(a, b)`, the array at `(a, 256 c + b)`. -/
theorem colBlock_apply (Y : (⟨2, ![256, 2048]⟩ : Shape).Idx → EReal) (c : Fin 8) (a : Fin 256) (b : Fin 256) :
    (Layout.block ⟨2, ![256, 256]⟩ ⟨2, ![256, 2048]⟩ 1 8 c Y) (ix2 a b) = Y (ix2 a (col c b)) := by
  rw [Layout.block_apply]
  refine congrArg Y (funext fun d => Fin.ext ?_)
  match d with
  | ⟨0, _⟩ => rfl
  | ⟨1, _⟩ => show c.val * 256 + b.val = 256 * c.val + b.val; omega

/-- THE VALUE: when every device's argument buffer holds its slab of the reference's whole argument, device `c`'s result
    is block `c`, along the columns, of the reference's result. At `(a, b)` both are the sum over the eight slabs of their
    entries at `(a, 256 c + b)`: the kernel's taken from `c` once round the ring, the reference's from slab `0` up. -/
theorem result_block (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hagree : ∀ c : Dev Cert.KernelIdeal.nD,
      m ((c.tc : Thread Cert.KernelIdeal.nD Cert.KernelIdeal.τ).loc Cert.KernelIdeal.main_arg0) = Layout.block ⟨3, ![1, 256, 2048]⟩ ⟨3, ![8, 256, 2048]⟩ 0 8 c (m' (((0 : Dev Cert.ReferenceIdeal.nD).tc : Thread Cert.ReferenceIdeal.nD Cert.ReferenceIdeal.τ).loc Cert.ReferenceIdeal.main_arg0)))
    (c : Dev Cert.KernelIdeal.nD) :
    outAt (F := Ideal) m c = Layout.block ⟨2, ![256, 256]⟩ ⟨2, ![256, 2048]⟩ 1 8 c (refVal m') := by
  funext i
  obtain ⟨a, b, rfl⟩ : ∃ (a : Fin 256) (b : Fin 256), i = ix2 a b := ⟨i 0, i 1, eq_ix2 i⟩
  have hx : ∀ d : Dev nD, xAt m d a (col c b) = wAt m' d a (col c b) := fun d =>
    (congrFun (hagree d) (ix3 (0 : Fin 1) a (col c b))).trans (slab_apply _ d a (col c b))
  refine (outAt_apply m c (ix2 a b)).trans ?_
  refine Eq.trans ?_ (colBlock_apply (refVal m') c a b).symm
  refine Eq.trans ?_ (refAt_eq m' a (col c b)).symm
  show xAt m c a (col c b) + xAt m (shift c 1) a (col c b) + xAt m (shift c 2) a (col c b) + xAt m (shift c 3) a (col c b)
    + xAt m (shift c 4) a (col c b) + xAt m (shift c 5) a (col c b) + xAt m (shift c 6) a (col c b) + xAt m (shift c 7) a (col c b)
      = ∑ d : Fin 8, wAt m' d a (col c b)
  simp only [hx]
  exact sum_round (fun d => wAt m' d a (col c b)) c

/-! ## The reference's run -/

/-- Every fair execution of the reference ends with its result at `refVal` of its argument, the argument unchanged. -/
theorem ref_run (m' : (ℓ : Loc Cert.ReferenceIdeal.nD Cert.ReferenceIdeal.τ Cert.ReferenceIdeal.sig) → Buf (Elt Ideal) ℓ)
    (ρ' : Dev Cert.ReferenceIdeal.nD → PrngReg) :
    θ_run (Cert.ReferenceIdeal.defs (F := Ideal)) (onTc (τ := Cert.ReferenceIdeal.τ) (Cert.ReferenceIdeal.main (F := Ideal))) ⟨m', fun _ => 0, ρ'⟩ (fun r =>
      r.2.mem (((0 : Dev Cert.ReferenceIdeal.nD).tc : Thread Cert.ReferenceIdeal.nD Cert.ReferenceIdeal.τ).loc Cert.ReferenceIdeal.main_v0) = refVal m'
      ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)) :=
  (θ_run (Cert.ReferenceIdeal.defs (F := Ideal)) _ _).mono
    (fun _ h => ⟨(h 0).1.trans (Cert.ReferenceIdeal.Read.val_main_v0_eq _), (h 0).2⟩)
    (Cert.ReferenceIdeal.Value.run (F := Ideal) m' ρ')

/-- The reference's frame: its run with the result dropped. -/
theorem ref_frame : Cert.frame_ReferenceIdeal := fun m ρ _ =>
  (θ_run (Cert.ReferenceIdeal.defs (F := Ideal)) _ _).mono (fun _ h c => (h c).2) (Cert.ReferenceIdeal.Value.run (F := Ideal) m ρ)

/-- info: 'Cert.KernelIdealProof.Value.result_block' depends on axioms: [propext, Classical.choice, Quot.sound] -/
#guard_msgs in #print axioms result_block
/-- info: 'Cert.KernelIdealProof.Value.ref_run' depends on axioms: [propext, Classical.choice, Quot.sound] -/
#guard_msgs in #print axioms ref_run

end Cert.KernelIdealProof.Value

end
-- ==== Proof.KernelIdealProto.lean ====
/-
  The cross-device protocol of the reduce-scatter kernel under the rounds discipline.

  Every device has sixteen cells. Its barrier cell (the runtime's barrier semaphore) has one round of seven duties of
  one unit: duty `off r` is paid by the device `off r` places BEFORE it, whose signal hands over that device's receive
  slot `off r` and the fact that its receive cell `off r` is at round 0 — what a copy into that slot needs. Each of its
  seven receive cells has one duty: the copy from the device `off r` places AFTER it, which lands that device's image of
  this device's column chunk in slot `off r`. Each of its seven send cells has one duty, paid by its own copy, which
  gives the sent chunk of the image back. The cell of the local copy has one duty, paid by the copy itself, which
  delivers the own chunk and gives back the share of the staged block it read.
-/
import proofs.«900588_g7700000000000589_dist_rs_v7x_i8_i_m256_n256_f32_1_alg».proof.Proof.KernelIdealSpec
import proofs.«900588_g7700000000000589_dist_rs_v7x_i8_i_m256_n256_f32_1_alg».proof.Proof.Gen.KernelIdeal.Launch
import Idealize.ShloMosaic.Lib.Pipeline.Launch
import Idealize.ShloMosaic.Lib.Pipeline.Kit
import Idealize.ShloMosaic.Lib.Tactic

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's copy (duties `Unit`) and the protocol's (duties `Fin 8`) -/

abbrev UB : Type := URounds (GSem nD τ sig) (Fin 8)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## The semaphores and the cells -/

/-- The runtime's barrier semaphore of collective id 0 (unscoped). -/
abbrev barS : Sem sig := (SemArray.scalar (sig.barrier 0 rfl) : Sems sig S_).sem
/-- Send semaphore `k`, receive semaphore `s` (scoped scratch, eight each; index 0 of either is never used), the local copy's. -/
def sendSem (k : Fin 8) : DmaSem sig := (⟨2 + k.val, by have := k.isLt; omega⟩ : Fin 19)
def recvSem (s : Fin 8) : DmaSem sig := (⟨10 + s.val, by have := s.isLt; omega⟩ : Fin 19)
abbrev locSem : DmaSem sig := (18 : Fin 19)

theorem sendSem_val (k : Fin 8) : (sendSem k).val = 2 + k.val := rfl
theorem recvSem_val (s : Fin 8) : (recvSem s).val = 10 + s.val := rfl

abbrev barCell (c : Dev nD) : GSem nD τ sig := ((c : Thread nD τ), .reg barS)
abbrev sendCell (c : Dev nD) (k : Fin 8) : GSem nD τ sig := ((c : Thread nD τ), .dma (sendSem k))
abbrev recvCell (c : Dev nD) (s : Fin 8) : GSem nD τ sig := ((c : Thread nD τ), .dma (recvSem s))
abbrev locCell (c : Dev nD) : GSem nD τ sig := ((c : Thread nD τ), .dma locSem)

/-- What a cell is for. -/
inductive Role where
  | bar | send (r : Fin 7) | recv (r : Fin 7) | loc | none
deriving DecidableEq

def role : SemLoc sig → Role
  | .reg _ => .bar
  | .dma q =>
    if h : 3 ≤ q.val ∧ q.val < 10 then .send ⟨q.val - 3, by omega⟩
    else if h' : 11 ≤ q.val ∧ q.val < 18 then .recv ⟨q.val - 11, by omega⟩
    else if q.val = 18 then .loc else .none

theorem role_bar (s : Sem sig) : role (.reg s) = .bar := rfl
theorem role_send (r : Fin 7) : role (.dma (sendSem (off r))) = .send r := by revert r; decide
theorem role_recv (r : Fin 7) : role (.dma (recvSem (off r))) = .recv r := by revert r; decide
theorem role_loc : role (.dma locSem) = .loc := by decide

/-- The credit of one chunk's copy (a [256, 256] bf16 view), and of the local copy (a [256, 256] f32 view). -/
abbrev NB : ℕ := (slot 1).view.dmaCredit
abbrev NL : ℕ := (aM : Memref sig .tc .vmem S256x256 .f32).view.dmaCredit
theorem NB_pos : 0 < NB := View.dmaCredit_pos _ (by decide)
theorem NL_pos : 0 < NL := View.dmaCredit_pos _ (by decide)

/-! ## Points-to shorthands -/

/-- Receive slot `s` of device `c`, held by its own elements at contents `f`. -/
def slotPts (c : Dev nD) (s : Fin 8) (f : Buf (Elt F) ((slot s).view.loc (c : Thread nD τ))) : sProp 𝕄 :=
  (slot s).view.loc (c : Thread nD τ) ↦[(slot s).view.set]{fullShare} f
/-- The chunk of its image device `c` sends with copy `r`, held by its own elements. -/
def chunkPts (c : Dev nD) (r : Fin 7) : sProp 𝕄 :=
  (bChunk c r).view.loc (c : Thread nD τ) ↦[(bChunk c r).view.set]{fullShare} xbBuf m c
/-- The own chunk of the staged block, at the share the local copy reads it with. -/
def ownSrcPts (c : Dev nD) : sProp 𝕄 :=
  (xChunk c).view.loc (c : Thread nD τ) ↦[(xChunk c).view.set]{fullShare.left} xstg m c
/-- The buffer the local copy fills. -/
def ownDstPts (c : Dev nD) (f : Buf (Elt F) ((aM : Memref sig .tc .vmem S256x256 .f32).view.loc (c : Thread nD τ))) : sProp 𝕄 :=
  (aM : Memref sig .tc .vmem S256x256 .f32).view.loc (c : Thread nD τ) ↦[(aM : Memref sig .tc .vmem S256x256 .f32).view.set]{fullShare} f

omit [FloatOps F] in
instance slotPts_storable (c : Dev nD) (s : Fin 8) (f) : BI.Storable (upEmb : UEmb _ 𝕄) (slotPts (F := F) c s f) := by unfold slotPts; infer_instance
omit [FloatOps F] in
instance chunkPts_storable (c : Dev nD) (r : Fin 7) : BI.Storable (upEmb : UEmb _ 𝕄) (chunkPts (F := F) m c r) := by unfold chunkPts; infer_instance
omit [FloatOps F] in
instance ownSrcPts_storable (c : Dev nD) : BI.Storable (upEmb : UEmb _ 𝕄) (ownSrcPts (F := F) m c) := by unfold ownSrcPts; infer_instance
omit [FloatOps F] in
instance ownDstPts_storable (c : Dev nD) (f) : BI.Storable (upEmb : UEmb _ 𝕄) (ownDstPts (F := F) c f) := by unfold ownDstPts; infer_instance

/-! ## The schedule -/

/-- What the signal of the device `off r` places before `c` (duty `off r` of `c`'s barrier cell) hands `c`: that device's
    receive slot `off r` and that its receive cell `off r` is at round 0. -/
def barPay (c : Dev nD) (d : Fin 8) : sProp 𝕄 :=
  iprop((∃ f, slotPts (shift c (opp d)) d f) ∗ reached ER (recvCell (shift c (opp d)) d) 0)
def recvPay (c : Dev nD) (r : Fin 7) : sProp 𝕄 := slotPts c (off r) (landedBuf m c r)
def sendPay (c : Dev nD) (r : Fin 7) : sProp 𝕄 := chunkPts m c r
def locPay (c : Dev nD) : sProp 𝕄 := iprop(ownDstPts c (ownVal m c) ∗ ownSrcPts m c)

/-- One round, round 0: a barrier cell has the seven duties `1 … 7` of one unit each; a send, receive or local-copy
    cell the duty `0` of its copy's credit. -/
def rsRd : Rounds.Schedule (GSem nD τ sig) (Fin 8) 𝕄 where
  duties g r := if r = 0 ∧ g.1.2 = .tc then
      (match role g.2 with
        | .bar => Finset.univ.erase 0
        | .send _ => {0}
        | .recv _ => {0}
        | .loc => {0}
        | .none => ∅)
    else ∅
  unitless _ := False
  amount g _ _ := match role g.2 with
    | .bar => 1
    | .loc => NL
    | _ => NB
  payload g _ d := match role g.2 with
    | .bar => barPay g.1.1 d
    | .send r => sendPay m g.1.1 r
    | .recv r => recvPay m g.1.1 r
    | .loc => locPay m g.1.1
    | .none => iprop(emp)
  amount_pos g _ _ _ := by
    cases role g.2 <;> first | exact Nat.one_pos | exact NB_pos | exact NL_pos

instance rsRd_payload_storable (g : GSem nD τ sig) (r : ℕ) (d : Fin 8) :
    BI.Storable (upEmb : UEmb _ 𝕄) ((rsRd (F := F) m).payload g r d) := by
  show BI.Storable upEmb (match role g.2 with
    | .bar => barPay g.1.1 d
    | .send r => sendPay m g.1.1 r
    | .recv r => recvPay m g.1.1 r
    | .loc => locPay m g.1.1
    | .none => iprop(emp))
  unfold barPay recvPay sendPay locPay
  cases role g.2 <;> infer_instance

/-! ### The schedule's tables, the entry on the left -/

section Sched
variable (c : Dev nD)

theorem duties_bar : (rsRd (F := F) m).duties (barCell c) 0 = Finset.univ.erase 0 := by dsimp only [rsRd]; exact if_pos ⟨rfl, rfl⟩
theorem duties_send (r : Fin 7) : (rsRd (F := F) m).duties (sendCell c (off r)) 0 = {0} := by
  dsimp only [rsRd]; rw [if_pos ⟨rfl, rfl⟩, role_send]
theorem duties_recv (r : Fin 7) : (rsRd (F := F) m).duties (recvCell c (off r)) 0 = {0} := by
  dsimp only [rsRd]; rw [if_pos ⟨rfl, rfl⟩, role_recv]
theorem duties_loc : (rsRd (F := F) m).duties (locCell c) 0 = {0} := by
  dsimp only [rsRd]; rw [if_pos ⟨rfl, rfl⟩, role_loc]
theorem duties_later (g : GSem nD τ sig) : ∀ r, 1 ≤ r → (rsRd (F := F) m).duties g r = ∅ :=
  fun r hr => by dsimp only [rsRd]; rw [if_neg fun h => by omega]

theorem amount_bar (d : Fin 8) : (rsRd (F := F) m).amount (barCell c) 0 d = 1 := rfl
theorem amount_send (r : Fin 7) (d : Fin 8) : (rsRd (F := F) m).amount (sendCell c (off r)) 0 d = NB := by
  dsimp only [rsRd]; rw [role_send]
theorem amount_recv (r : Fin 7) (d : Fin 8) : (rsRd (F := F) m).amount (recvCell c (off r)) 0 d = NB := by
  dsimp only [rsRd]; rw [role_recv]
theorem amount_loc (d : Fin 8) : (rsRd (F := F) m).amount (locCell c) 0 d = NL := by
  dsimp only [rsRd]; rw [role_loc]

theorem expect_bar : (rsRd (F := F) m).expect (barCell c) 0 = 7 := by
  unfold Schedule.expect Schedule.amountOf
  rw [duties_bar, Finset.sum_congr rfl fun d _ => amount_bar m c d, Finset.sum_const, smul_eq_mul, Nat.mul_one]
  decide
theorem expect_send (r : Fin 7) : (rsRd (F := F) m).expect (sendCell c (off r)) 0 = NB := by
  unfold Schedule.expect Schedule.amountOf; rw [duties_send, Finset.sum_singleton, amount_send]
theorem expect_recv (r : Fin 7) : (rsRd (F := F) m).expect (recvCell c (off r)) 0 = NB := by
  unfold Schedule.expect Schedule.amountOf; rw [duties_recv, Finset.sum_singleton, amount_recv]
theorem expect_loc : (rsRd (F := F) m).expect (locCell c) 0 = NL := by
  unfold Schedule.expect Schedule.amountOf; rw [duties_loc, Finset.sum_singleton, amount_loc]

theorem payload_bar (d : Fin 8) : (rsRd (F := F) m).payload (barCell c) 0 d = barPay c d := rfl
theorem payload_send (r : Fin 7) (d : Fin 8) : (rsRd (F := F) m).payload (sendCell c (off r)) 0 d = sendPay m c r := by
  dsimp only [rsRd]; rw [role_send]
theorem payload_recv (r : Fin 7) (d : Fin 8) : (rsRd (F := F) m).payload (recvCell c (off r)) 0 d = recvPay m c r := by
  dsimp only [rsRd]; rw [role_recv]
theorem payload_loc (d : Fin 8) : (rsRd (F := F) m).payload (locCell c) 0 d = locPay m c := by
  dsimp only [rsRd]; rw [role_loc]

/-- The rest of the barrier cell's round, no duty taken: the seven peers' payloads, duty 1 to duty 7. -/
theorem rest_bar : bigSep ((rsRd (F := F) m).duties (barCell c) 0 \ ∅) (fun d => (rsRd (F := F) m).payload (barCell c) 0 d)
    = iprop(barPay c 1 ∗ barPay c 2 ∗ barPay c 3 ∗ barPay c 4 ∗ barPay c 5 ∗ barPay c 6 ∗ barPay c 7) := by
  rw [Finset.sdiff_empty, duties_bar, bigSep_eq_bigSepL_of_eq [1, 2, 3, 4, 5, 6, 7] (by decide) (by decide)]
  rfl
theorem rest_send (r : Fin 7) : bigSep ((rsRd (F := F) m).duties (sendCell c (off r)) 0 \ ∅) (fun d => (rsRd (F := F) m).payload (sendCell c (off r)) 0 d) = sendPay m c r := by
  rw [Finset.sdiff_empty, duties_send, bigSep_singleton, payload_send]
theorem rest_recv (r : Fin 7) : bigSep ((rsRd (F := F) m).duties (recvCell c (off r)) 0 \ ∅) (fun d => (rsRd (F := F) m).payload (recvCell c (off r)) 0 d) = recvPay m c r := by
  rw [Finset.sdiff_empty, duties_recv, bigSep_singleton, payload_recv]
theorem rest_loc : bigSep ((rsRd (F := F) m).duties (locCell c) 0 \ ∅) (fun d => (rsRd (F := F) m).payload (locCell c) 0 d) = locPay m c := by
  rw [Finset.sdiff_empty, duties_loc, bigSep_singleton, payload_loc]

end Sched

/-! ## What each device owes at launch; the levels -/

/-- The unit device `c`'s signal number `off r` pays: to the barrier cell of the device `off r` places after it. -/
def sigTally (c : Dev nD) (r : Fin 7) : CellTallies nD τ sig Unit := tallyAt (barCell (shift c (off r))) () 1
/-- The credit its copy number `r` pays: to receive cell `off (rev r)` of that device. -/
def sndTally (c : Dev nD) (r : Fin 7) : CellTallies nD τ sig Unit := tallyAt (recvCell (shift c (off r)) (off (rev r))) () NB

/-- The copies still to start, summed so that the next one peels the last summand. -/
def owedS (c : Dev nD) : List (Fin 7) → CellTallies nD τ sig Unit
  | [] => 0
  | r :: rs => owedS c rs + sndTally c r
/-- The order the kernel starts its copies in: offsets 1, 4, 7, 2, 3, 5, 6. -/
def sendOrder : List (Fin 7) := [0, 3, 6, 1, 2, 4, 5]
/-- The signals still to send, over all the copies, summed the same way. -/
def owedG (c : Dev nD) : List (Fin 7) → CellTallies nD τ sig Unit
  | [] => owedS c sendOrder
  | r :: rs => owedG c rs + sigTally c r
/-- What device `c` owes at launch: the seven signals (offsets 1 to 7 in order), then the seven copies. -/
def O₀ (c : Dev nD) : CellTallies nD τ sig Unit := owedG c [0, 1, 2, 3, 4, 5, 6]

def L (g : GSem nD τ sig) : Finset Unit := if g.1.2 = .tc then {()} else ∅
/-- Barrier cells at 1, receive cells at 2, everything else (staging, send, local copy) at 0. -/
def lv (g : GSem nD τ sig) (_ : Unit) : ℕ := match role g.2 with
  | .bar => 1
  | .recv _ => 2
  | _ => 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) (u : Unit) : lv (barCell c) u = 1 := rfl
theorem lv_recv (c : Dev nD) (r : Fin 7) (u : Unit) : lv (recvCell c (off r)) u = 2 := by
  show (match role (.dma (recvSem (off r))) with | .bar => 1 | .recv _ => 2 | _ => 0) = 2
  rw [role_recv]

theorem sndTally_pos {c : Dev nD} {r : Fin 7} {g : GSem nD τ sig} {u : Unit} (h : 0 < sndTally c r g u) :
    g = recvCell (shift c (off r)) (off (rev r)) := by
  unfold sndTally at h; rw [tallyAt_apply] at h
  by_contra hn
  rw [if_neg (fun h' => hn h'.1)] at h; exact Nat.lt_irrefl 0 h
theorem sigTally_pos {c : Dev nD} {r : Fin 7} {g : GSem nD τ sig} {u : Unit} (h : 0 < sigTally c r g u) :
    g = barCell (shift c (off r)) := by
  unfold sigTally at h; rw [tallyAt_apply] at h
  by_contra hn
  rw [if_neg (fun h' => hn h'.1)] at h; exact Nat.lt_irrefl 0 h

/-- Whatever is still owed among the copies is owed to a receive cell; -/
theorem owedS_pos {c : Dev nD} {g : GSem nD τ sig} {u : Unit} : ∀ {l : List (Fin 7)}, 0 < owedS c l g u →
    ∃ (p : Dev nD) (r : Fin 7), g = recvCell p (off r)
  | [], h => by exact absurd h (Nat.lt_irrefl 0)
  | r :: rs, h => by
    rcases Pipeline.add_pos_cases h with h | h
    · exact owedS_pos h
    · exact ⟨_, _, sndTally_pos h⟩
/-- and among the signals and the copies, to a barrier cell or a receive cell. -/
theorem owedG_pos {c : Dev nD} {g : GSem nD τ sig} {u : Unit} : ∀ {l : List (Fin 7)}, 0 < owedG c l g u →
    (∃ p : Dev nD, g = barCell p) ∨ ∃ (p : Dev nD) (r : Fin 7), g = recvCell p (off r)
  | [], h => Or.inr (owedS_pos h)
  | r :: rs, h => by
    rcases Pipeline.add_pos_cases h with h | h
    · exact owedG_pos h
    · exact Or.inl ⟨_, sigTally_pos h⟩

omit [FloatOps F] in
/-- A wait on a cell of level 0 (a staging cell, a send cell, the local copy's) is below everything a device ever owes. -/
theorem mayWait_low (c : Dev nD) (sm : SemLoc sig) (hq : lv ((c : Thread nD τ), sm) () = 0) (l : List (Fin 7)) :
    (levAts L lv : sProp 𝕄) ⊢ MayWait (c : Thread nD τ) sm () (owedG c l) :=
  Pipeline.mayWait_of_levAts (by rw [L_tc]; exact Finset.mem_singleton_self _) fun g i hg => by
    rcases owedG_pos hg with ⟨p, rfl⟩ | ⟨p, r, rfl⟩
    · exact ⟨by rw [L_tc]; exact Finset.mem_singleton_self _, by rw [hq, lv_bar]; decide⟩
    · exact ⟨by rw [L_tc]; exact Finset.mem_singleton_self _, by rw [hq, lv_recv]; decide⟩

omit [FloatOps F] in
/-- At its barrier wait a device owes receive credit only: receive cells lie above its barrier cell. -/
theorem mayWait_bar (c : Dev nD) :
    (levAts L lv : sProp 𝕄) ⊢ MayWait (c : Thread nD τ) (.reg barS) () (owedS c sendOrder) :=
  Pipeline.mayWait_of_levAts (by rw [L_tc]; exact Finset.mem_singleton_self _) fun g i hg => by
    obtain ⟨p, r, rfl⟩ := owedS_pos hg
    exact ⟨by rw [L_tc]; exact Finset.mem_singleton_self _, by rw [lv_bar, lv_recv]; decide⟩

/-! ## The cells enumerated; the ghost state -/

/-- A device's sixteen cells: 0 the barrier's, 1 … 7 send 1 … 7, 8 … 14 receive 1 … 7, 15 the local copy's. -/
def csem (j : Fin 16) : SemLoc sig :=
  if j.val = 0 then .reg barS
  else if h : j.val < 8 then .dma (sendSem ⟨j.val, h⟩)
  else if h' : j.val < 15 then .dma (recvSem ⟨j.val - 7, by omega⟩)
  else .dma locSem
abbrev kcell (ck : Dev nD × Fin 16) : GSem nD τ sig := ((ck.1 : Thread nD τ), csem ck.2)
def jS (r : Fin 7) : Fin 16 := ⟨1 + r.val, by omega⟩
def jR (r : Fin 7) : Fin 16 := ⟨8 + r.val, by omega⟩
theorem csem_zero : csem 0 = .reg barS := rfl
theorem csem_jS (r : Fin 7) : csem (jS r) = .dma (sendSem (off r)) := by revert r; decide
theorem csem_jR (r : Fin 7) : csem (jR r) = .dma (recvSem (off r)) := by revert r; decide
theorem csem_last : csem 15 = .dma locSem := by decide

/-- Every cell's invariant, under the names `K` the launch allocated them at, and that every cell is at round 0: what
    all devices share. -/
def records (K : Dev nD × Fin 16 → ℕ) : sProp 𝕄 :=
  iprop((bigSep Finset.univ fun ck : Dev nD × Fin 16 => cellInv ER (rsRd m) (K ck) (kcell ck))
    ∗ bigSep Finset.univ fun ck : Dev nD × Fin 16 => reached ER (kcell ck) 0)

instance records_persistent (K : Dev nD × Fin 16 → ℕ) : BI.Persistent (records m K) := by unfold records; infer_instance

/-- Device `c`'s positions: round 0 of each of its sixteen cells, nothing taken. -/
def positions (c : Dev nD) : sProp 𝕄 :=
  iprop(atPos ER (barCell c) 0 ∅ 0 ∗ (bigSep Finset.univ fun r : Fin 7 => atPos ER (sendCell c (off r)) 0 ∅ 0)
    ∗ (bigSep Finset.univ fun r : Fin 7 => atPos ER (recvCell c (off r)) 0 ∅ 0) ∗ atPos ER (locCell c) 0 ∅ 0)

/-- The tokens of the duties device `c` pays: duty `off r` of the barrier cell of the device `off r` places after it
    (its signal number `off r`), the duty of that device's receive cell `off (rev r)` (its copy number `r`), the duties of
    its own seven send cells and of its local copy's cell. -/
def payToks (c : Dev nD) : sProp 𝕄 :=
  iprop((bigSep Finset.univ fun r : Fin 7 => dutyTok ER (barCell (shift c (off r))) 0 (off r))
    ∗ (bigSep Finset.univ fun r : Fin 7 => dutyTok ER (recvCell (shift c (off r)) (off (rev r))) 0 (0 : Fin 8))
    ∗ (bigSep Finset.univ fun r : Fin 7 => dutyTok ER (sendCell c (off r)) 0 (0 : Fin 8))
    ∗ dutyTok ER (locCell c) 0 (0 : Fin 8))

def ghost (K : Dev nD × Fin 16 → ℕ) (c : Dev nD) : sProp 𝕄 := iprop(records m K ∗ positions c ∗ payToks c)

/-- The two semaphores of the send and receive arrays the kernel never uses, at zero from launch to exit. -/
def idle (c : Dev nD) : sProp 𝕄 := iprop(semVal (sendCell c 0) 0 ∗ semVal (recvCell c 0) 0)

/-- The launch credit: the barrier's seven units, each receive cell's copy. -/
def creds (c : Dev nD) : sProp 𝕄 :=
  iprop(cred (tallyAt (barCell c) () 7) ∗ bigSep Finset.univ fun r : Fin 7 => cred (tallyAt (recvCell c (off r)) () NB))

/-- What device `c`'s body starts from, beside its buffers. -/
def start (c : Dev nD) : sProp 𝕄 := iprop((∃ K, ghost m K c) ∗ creds c ∗ idle c ∗ levAts L lv)

/-- The three scratch buffers, each whole at some contents. -/
def scr (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f))

/-- The kernel's fifteen used own semaphores closed, the two idle ones untouched: all seventeen at zero. -/
def ownZero (c : Dev nD) : sProp 𝕄 :=
  iprop(idle c ∗ (bigSep Finset.univ fun r : Fin 7 => semVal (sendCell c (off r)) 0)
    ∗ (bigSep Finset.univ fun r : Fin 7 => semVal (recvCell c (off r)) 0) ∗ semVal (locCell c) 0)

def Φ₀ (c : Dev nD) : sProp 𝕄 := iprop(start m c ∗ scr c)
def Φ₁ (c : Dev nD) : sProp 𝕄 := iprop(scr (F := F) c ∗ ownZero c)

/-! ## The pipeline's proof data -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m c
    | ⟨1, _⟩ => outAt m c
  Φ t := match t with
    | ⟨0, _⟩ => Φ₀ m c
    | ⟨_ + 1, _⟩ => Φ₁ c
  q _ := fullShare
  owed t := match t with
    | ⟨0, _⟩ => O₀ c
    | ⟨_ + 1, _⟩ => 0

abbrev 𝒱₀ : Variants := Variants.none

/-- A staging buffer whole at contents `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- What the body runs from at the one grid point, the cells' names `K` fixed. -/
def bodyPre (K : Dev nD × Fin 16 → ℕ) (c : Dev nD) : sProp 𝕄 :=
  iprop((ghost m K c ∗ creds c ∗ idle c ∗ levAts L lv ∗ scr c)
    ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

/-- What it leaves: the scratch buffers, the own semaphores at zero, nothing owed, the staged block as it was and the
    output block at the accumulated sum. -/
def bodyPost (c : Dev nD) : sProp 𝕄 :=
  iprop(Φ₁ c ∗ (dats m ρ 0 c).owesAt () t₀.succ ∗ stg c cc0_stg0_0 (xstg m c) ∗ stg c cc0_stg1_0 (outAt m c))

end Cert.KernelIdealProof

end
-- ==== Proof.KernelIdealGeom.lean ====
/-
  The geometry of the views the reduce-scatter kernel copies through. The seven chunks a device sends
  are column ranges of its bf16 image that start at 256 times seven different places of the ring, so
  they are pairwise disjoint; the eight receive slots are the eight unit boxes along the first axis of
  the slot buffer, so they are pairwise disjoint too; a load through the box of slot `s` reads exactly
  the elements of slot `s`; and a write through a slot with the full mask leaves, on the slot's own
  elements, the payload alone: what the buffer held there before does not enter.
-/
import proofs.«900588_g7700000000000589_dist_rs_v7x_i8_i_m256_n256_f32_1_alg».proof.Proof.KernelIdealSpec
import Idealize.ShloMosaic.Signature.View
import Idealize.ShloMosaic.Signature.Memref
import Idealize.ShloMosaic.Shape

noncomputable section

namespace Cert.KernelIdealProof

open Cert.KernelIdeal Cert.KernelIdeal.Gen
open Idealize.ShloMosaic Idealize.ShloMosaic.TcCoe Idealize.SL.Sem

variable {F : FTy → Type} [FloatOps F]

/-! ## The element sets of the views -/

/-- Two of a device's seven peers sit at different places of the ring. -/
theorem peer_ne (c : Dev nD) {r r' : Fin 7} (h : r ≠ r') :
    (c.val + r.val + 1) % 8 ≠ (c.val + r'.val + 1) % 8 := by
  revert c r r'; decide

/-- A chunk's elements are those of its rectangle in the image. -/
theorem chunk_set (c : Dev nD) (r : Fin 7) :
    (bChunk c r).view.set
      = (Rect.unit (s := S256x2048) (k0_off2 c (BitVec.ofNat 32 (1 + r.val))) S256x256.size (k0_off2_inb c r)).set := by
  exact View.set_slice_whole (cc0_scratch0 : Ref sig .tc) _

/-- A slot's elements are those of its box in the slot buffer: squeezing the unit axis away keeps the elements. -/
theorem slot_set (s : Fin 8) : (slot s).view.set = (slotRect s).set := by
  exact (View.set_reshape _ _).trans (View.set_slice_whole (cc0_scratch1 : Ref sig .tc) (slotRect s))

/-! ## Disjointness -/

/-- The chunks a device sends to two different peers share no element: their column ranges start at
    256 times two different places and are 256 wide. -/
theorem chunk_disjoint (c : Dev nD) {r r' : Fin 7} (h : r ≠ r') :
    Disjoint (bChunk c r).view.set (bChunk c r').view.set := by
  rw [chunk_set, chunk_set]
  refine Rect.unit_disjoint (1 : Fin 2) ?_
  rw [k0_off2_eq c r, k0_off2_eq c r']
  have hp := peer_ne c h
  show 256 * ((c.val + r.val + 1) % 8) + 256 ≤ 256 * ((c.val + r'.val + 1) % 8)
    ∨ 256 * ((c.val + r'.val + 1) % 8) + 256 ≤ 256 * ((c.val + r.val + 1) % 8)
  omega

/-- Two different receive slots share no element: they are different unit boxes along the first axis. -/
theorem slot_disjoint {s s' : Fin 8} (h : s ≠ s') : Disjoint (slot s).view.set (slot s').view.set := by
  rw [slot_set, slot_set]
  refine Rect.unit_disjoint (0 : Fin 3) ?_
  have hv : s.val ≠ s'.val := fun e => h (Fin.ext e)
  show s.val + 1 ≤ s'.val ∨ s'.val + 1 ≤ s.val
  omega

/-! ## Loads and writes through a slot -/

/-- A load through the box of slot `s` of the whole slot buffer reads elements of slot `s` only. -/
theorem slot_load_subset (s : Fin 8) :
    (rM : Memref sig .tc .vmem S8x256x256 .bf16).view.setOn (slotRect s).toLoadRect.set ⊆ (slot s).view.set := by
  rw [slot_set]
  intro i hi
  obtain ⟨j, hj, rfl⟩ := Finset.mem_map.mp hi
  exact hj

/-- On a slot's own elements a write through the slot with the full mask is the payload, whatever the
    buffer held before. -/
theorem slot_write_congr (s : Fin 8) (fd fd' : (cc0_scratch1 : Ref sig .tc).ty.Contents (Elt F))
    (w : S256x256.Idx → Elt F .bf16) :
    ∀ i ∈ (slot s).view.set, (slot s).view.write (Elt F) fd w Finset.univ i
      = (slot s).view.write (Elt F) fd' w Finset.univ i := by
  intro i hi
  exact View.write_congr (fun _ _ _ => rfl) (fun hn => absurd hi hn)

/-- info: 'Cert.KernelIdealProof.chunk_disjoint' depends on axioms: [propext, Classical.choice, Quot.sound] -/
#guard_msgs in #print axioms chunk_disjoint
/-- info: 'Cert.KernelIdealProof.slot_disjoint' depends on axioms: [propext, Classical.choice, Quot.sound] -/
#guard_msgs in #print axioms slot_disjoint
/-- info: 'Cert.KernelIdealProof.slot_load_subset' depends on axioms: [propext, Classical.choice, Quot.sound] -/
#guard_msgs in #print axioms slot_load_subset
/-- info: 'Cert.KernelIdealProof.slot_write_congr' depends on axioms: [propext, Classical.choice, Quot.sound] -/
#guard_msgs in #print axioms slot_write_congr

end Cert.KernelIdealProof

end
-- ==== Proof.KernelIdealCarve.lean ====
/-
  Carving one device's buffers along the views its copies go through, and putting them back. The bf16 image is the seven
  chunks the device sends and the rest of the image; the slot buffer is the seven receive slots and the rest of the
  buffer (slot 0 is never written); the staged block is the share the local copy reads — the own chunk and the rest of
  the block — and the share that stays behind. The cuts are along pairwise disjoint element sets, so each is an
  equivalence; the slots come back at whatever each holds, and some contents of the whole buffer agree with all of
  them. Last, a load through the box of one slot needs that slot's elements only.
-/
import proofs.«900588_g7700000000000589_dist_rs_v7x_i8_i_m256_n256_f32_1_alg».proof.Proof.KernelIdealProto
import proofs.«900588_g7700000000000589_dist_rs_v7x_i8_i_m256_n256_f32_1_alg».proof.Proof.KernelIdealGeom
import Idealize.ShloMosaic.Rules.PointsTo

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-- Different peers have different offsets. -/
theorem off_injective : Function.Injective off := by decide

/-- The slots of two different peers share no element. -/
theorem slot_off_disjoint {r r' : Fin 7} (h : r ≠ r') :
    Disjoint (slot (off r)).view.set (slot (off r')).view.set :=
  slot_disjoint fun e => h (off_injective e)

/-! ## The bf16 image: the seven chunks and the rest -/

omit [FloatOps F] in
theorem image_carve (c : Dev nD) (f : Buf (Elt F) ((c : Thread nD τ).loc cc0_scratch0)) :
    (((c : Thread nD τ).loc cc0_scratch0) ↦{fullShare} f : sProp 𝕄)
      ⊣⊢ iprop((bigSep Finset.univ fun r : Fin 7 =>
            ((bChunk c r).view.loc (c : Thread nD τ)) ↦[(bChunk c r).view.set]{fullShare} f)
          ∗ (((c : Thread nD τ).loc cc0_scratch0)
              ↦[Finset.univ \ Finset.univ.biUnion fun r : Fin 7 => (bChunk c r).view.set]{fullShare} f)) := by
  have e : (((c : Thread nD τ).loc cc0_scratch0)
        ↦[Finset.univ.biUnion fun r : Fin 7 => (bChunk c r).view.set]{fullShare} f : sProp 𝕄)
      = bigSep Finset.univ fun r : Fin 7 =>
          ((c : Thread nD τ).loc cc0_scratch0) ↦[(bChunk c r).view.set]{fullShare} f :=
    pointsTo_biUnion Finset.univ _ fun r _ r' _ h => chunk_disjoint c h
  have h : (((c : Thread nD τ).loc cc0_scratch0) ↦{fullShare} f : sProp 𝕄) ⊣⊢ _ :=
    pointsTo_split_subset (Finset.subset_univ (Finset.univ.biUnion fun r : Fin 7 => (bChunk c r).view.set))
  rw [e] at h
  exact h

/-! ## The slot buffer: the seven receive slots and the rest -/

omit [FloatOps F] in
theorem slots_carve (c : Dev nD) (f : Buf (Elt F) ((c : Thread nD τ).loc cc0_scratch1)) :
    (((c : Thread nD τ).loc cc0_scratch1) ↦{fullShare} f : sProp 𝕄)
      ⊣⊢ iprop((bigSep Finset.univ fun r : Fin 7 => slotPts c (off r) f)
          ∗ (((c : Thread nD τ).loc cc0_scratch1)
              ↦[Finset.univ \ Finset.univ.biUnion fun r : Fin 7 => (slot (off r)).view.set]{fullShare} f)) := by
  have e : (((c : Thread nD τ).loc cc0_scratch1)
        ↦[Finset.univ.biUnion fun r : Fin 7 => (slot (off r)).view.set]{fullShare} f : sProp 𝕄)
      = bigSep Finset.univ fun r : Fin 7 =>
          ((c : Thread nD τ).loc cc0_scratch1) ↦[(slot (off r)).view.set]{fullShare} f :=
    pointsTo_biUnion Finset.univ _ fun r _ r' _ h => slot_off_disjoint h
  have h : (((c : Thread nD τ).loc cc0_scratch1) ↦{fullShare} f : sProp 𝕄) ⊣⊢ _ :=
    pointsTo_split_subset (Finset.subset_univ (Finset.univ.biUnion fun r : Fin 7 => (slot (off r)).view.set))
  rw [e] at h
  unfold slotPts
  exact h

omit [FloatOps F] in
/-- The seven slots, each at its own contents, and the rest of the buffer make the whole buffer at some contents. -/
theorem slots_rejoin (c : Dev nD) (g : Fin 7 → Buf (Elt F) ((c : Thread nD τ).loc cc0_scratch1))
    (f : Buf (Elt F) ((c : Thread nD τ).loc cc0_scratch1)) :
    iprop((bigSep Finset.univ fun r : Fin 7 => slotPts c (off r) (g r))
        ∗ (((c : Thread nD τ).loc cc0_scratch1)
            ↦[Finset.univ \ Finset.univ.biUnion fun r : Fin 7 => (slot (off r)).view.set]{fullShare} f))
      ⊢ (iprop(∃ h, ((c : Thread nD τ).loc cc0_scratch1) ↦{fullShare} h) : sProp 𝕄) := by
  unfold slotPts
  iintro ⟨HS, HR⟩
  ihave H := (pointsTo_biUnion_join (ℓ := (c : Thread nD τ).loc cc0_scratch1) (q := fullShare) Finset.univ
      (fun r : Fin 7 => (slot (off r)).view.set) g f fun r _ r' _ h => slot_off_disjoint h) $$ HS
  icases H with ⟨%g', -, HU⟩
  iexists (Finset.univ.biUnion fun r : Fin 7 => (slot (off r)).view.set).piecewise g' f
  iapply (pointsTo_join_subset (Finset.subset_univ _))
  isplitl [HU]
  · iexact HU
  · iexact HR

/-! ## The staged block: the share the local copy reads, cut at the own chunk, and the share that stays -/

omit [FloatOps F] in
theorem block_carve (c : Dev nD) (f : Buf (Elt F) ((c : Thread nD τ).loc cc0_stg0_0)) :
    (((c : Thread nD τ).loc cc0_stg0_0) ↦{fullShare} f : sProp 𝕄)
      ⊣⊢ iprop((((xChunk c).view.loc (c : Thread nD τ)) ↦[(xChunk c).view.set]{fullShare.left} f)
          ∗ (((c : Thread nD τ).loc cc0_stg0_0) ↦[Finset.univ \ (xChunk c).view.set]{fullShare.left} f)
          ∗ (((c : Thread nD τ).loc cc0_stg0_0) ↦{fullShare.right} f)) := by
  have hs : (((c : Thread nD τ).loc cc0_stg0_0) ↦{fullShare} f : sProp 𝕄)
      ⊣⊢ iprop((((c : Thread nD τ).loc cc0_stg0_0) ↦{fullShare.left} f) ∗ (((c : Thread nD τ).loc cc0_stg0_0) ↦{fullShare.right} f)) :=
    pointsTo_share (PosShare.mem_left_op_right fullShare)
  have hc : (((c : Thread nD τ).loc cc0_stg0_0) ↦{fullShare.left} f : sProp 𝕄) ⊣⊢ _ :=
    pointsTo_split_subset (Finset.subset_univ (xChunk c).view.set)
  exact hs.trans ((sep_congr_left hc).trans sep_assoc)

/-! ## A load of one slot -/

/-- A load through the box of slot `s` of the slot buffer, from that slot's elements alone. -/
theorem wp_load_slot (c : Dev nD) (s : Fin 8) (f : Buf (Elt F) ((slot s).view.loc (c : Thread nD τ)))
    {hl : (rM : Memref sig .tc .vmem S8x256x256 .bf16).view.LoadsAt (slotRect s).toLoadRect}
    {α : Type} {Q : α → sProp 𝕄}
    {k : ((slotRect s).toLoadRect.shape.Idx → Elt F .bf16) → Prog (TpuEff nD τ sig (Elt F) Λ₀ .tc) α} :
    slotPts c s f
      ⊢ iprop((slotPts c s f -∗ wp frame (wpE (defs₀ (F := F)) 𝒱₀ (c : Thread nD τ) none) Set.univ
            (k ((rM : Memref sig .tc .vmem S8x256x256 .bf16).view.readAt (Elt F) (slotRect s).toLoadRect f)) Q)
          -∗ wp frame (wpE (defs₀ (F := F)) 𝒱₀ (c : Thread nD τ) none) Set.univ
              (.op (.load rM (slotRect s).toLoadRect hl) k) Q) := by
  unfold slotPts
  exact wp_load (defs := defs₀ (F := F)) 𝒱₀ (c : Thread nD τ) none Set.univ
    (m := (rM : Memref sig .tc .vmem S8x256x256 .bf16)) (r := (slotRect s).toLoadRect) (hl := hl) (k := k)
    (q := fullShare) (f := f) (slot_load_subset s)

/-- info: 'Cert.KernelIdealProof.image_carve' depends on axioms: [propext, Classical.choice, Quot.sound] -/
#guard_msgs in #print axioms image_carve
/-- info: 'Cert.KernelIdealProof.slots_carve' depends on axioms: [propext, Classical.choice, Quot.sound] -/
#guard_msgs in #print axioms slots_carve
/-- info: 'Cert.KernelIdealProof.slots_rejoin' depends on axioms: [propext, Classical.choice, Quot.sound] -/
#guard_msgs in #print axioms slots_rejoin
/-- info: 'Cert.KernelIdealProof.block_carve' depends on axioms: [propext, Classical.choice, Quot.sound] -/
#guard_msgs in #print axioms block_carve
/-- info: 'Cert.KernelIdealProof.wp_load_slot' depends on axioms: [propext, Classical.choice, Quot.sound] -/
#guard_msgs in #print axioms wp_load_slot

end Cert.KernelIdealProof

end
-- ==== Proof.KernelIdealFinish.lean ====
/-
  The end of one device's kernel body. Every copy has been waited for, so each of the fifteen DMA cells the kernel used
  stands at round 1 with nothing taken, and no later round of it has a duty: the cell closes and its counter comes back
  at zero. The bf16 image is put together again from the seven chunks that were sent and the rest, the slot buffer from
  the seven slots at what landed in them and the rest, the staged block from the share the local copy read, cut at the
  own chunk, and the share that stayed behind. With the own chunk's buffer, the two unused semaphores, nothing owed and
  the output block at the accumulated sum, this is what the body leaves.
-/
import proofs.«900588_g7700000000000589_dist_rs_v7x_i8_i_m256_n256_f32_1_alg».proof.Proof.KernelIdealProto
import proofs.«900588_g7700000000000589_dist_rs_v7x_i8_i_m256_n256_f32_1_alg».proof.Proof.KernelIdealCarve

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Closing the cells -/

omit [FloatOps F] in
private theorem cell_send (c : Dev nD) (r : Fin 7) : kcell (c, jS r) = sendCell c (off r) := by
  show ((c : Thread nD τ), csem (jS r)) = _; rw [csem_jS]
omit [FloatOps F] in
private theorem cell_recv (c : Dev nD) (r : Fin 7) : kcell (c, jR r) = recvCell c (off r) := by
  show ((c : Thread nD τ), csem (jR r)) = _; rw [csem_jR]
omit [FloatOps F] in
private theorem cell_loc (c : Dev nD) : kcell (c, 15) = locCell c := by
  show ((c : Thread nD τ), csem 15) = _; rw [csem_last]

/-- The invariant of one cell, out of the records all devices share. -/
theorem inv_of_records (K : Dev nD × Fin 16 → ℕ) (ck : Dev nD × Fin 16) :
    (bigSep Finset.univ fun ck : Dev nD × Fin 16 => (cellInv ER (rsRd m) (K ck) (kcell ck) : sProp 𝕄)) ⊢ cellInv ER (rsRd m) (K ck) (kcell ck) :=
  bigSep_elim (Finset.mem_univ ck)

/-- A cell whose owner stands at round 1 with nothing taken closes: the schedule has no duty after round 0. -/
theorem close_cell (K : Dev nD × Fin 16 → ℕ) (ck : Dev nD × Fin 16) (g : GSem nD τ sig) (hg : kcell ck = g) :
    iprop(records m K ∗ atPos ER g 1 ∅ 0) ⊢ (|={Set.univ}=> semVal g 0 : sProp 𝕄) := by
  subst hg
  unfold records
  iintro ⟨⟨#HI, -⟩, Hat⟩
  iapply (Rounds.cell_close ER (rsRd m) (Set.mem_univ (K ck)) (fun h => h) (R := 1) (duties_later m (kcell ck)))
  isplitr
  · iapply (inv_of_records m K ck); iexact HI
  · iexact Hat

omit [FloatOps F] in
/-- A persistent assertion in hand serves every summand. -/
theorem bigSep_pers_mono {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem close_send (K : Dev nD × Fin 16 → ℕ) (c : Dev nD) :
    iprop(records m K ∗ bigSep Finset.univ fun r : Fin 7 => atPos ER (sendCell c (off r)) 1 ∅ 0)
      ⊢ (|={Set.univ}=> bigSep Finset.univ fun r : Fin 7 => semVal (sendCell c (off r)) 0 : sProp 𝕄) :=
  (bigSep_pers_mono (R := records m K) (Φ := fun r : Fin 7 => atPos ER (sendCell c (off r)) 1 ∅ 0)
    (Ψ := fun r : Fin 7 => iprop(|={Set.univ}=> semVal (sendCell c (off r)) 0))
    fun r _ => close_cell m K (c, jS r) (sendCell c (off r)) (cell_send c r)).trans (bigSep_fupd _ _)

theorem close_recv (K : Dev nD × Fin 16 → ℕ) (c : Dev nD) :
    iprop(records m K ∗ bigSep Finset.univ fun r : Fin 7 => atPos ER (recvCell c (off r)) 1 ∅ 0)
      ⊢ (|={Set.univ}=> bigSep Finset.univ fun r : Fin 7 => semVal (recvCell c (off r)) 0 : sProp 𝕄) :=
  (bigSep_pers_mono (R := records m K) (Φ := fun r : Fin 7 => atPos ER (recvCell c (off r)) 1 ∅ 0)
    (Ψ := fun r : Fin 7 => iprop(|={Set.univ}=> semVal (recvCell c (off r)) 0))
    fun r _ => close_cell m K (c, jR r) (recvCell c (off r)) (cell_recv c r)).trans (bigSep_fupd _ _)

theorem close_loc (K : Dev nD × Fin 16 → ℕ) (c : Dev nD) :
    iprop(records m K ∗ atPos ER (locCell c) 1 ∅ 0) ⊢ (|={Set.univ}=> semVal (locCell c) 0 : sProp 𝕄) :=
  close_cell m K (c, 15) (locCell c) (cell_loc c)

/-! ## The buffers whole again -/

omit [FloatOps F] in
theorem ownDstPts_eq (c : Dev nD) (f : Buf (Elt F) ((c : Thread nD τ).loc cc0_scratch2)) :
    ownDstPts c f = (((c : Thread nD τ).loc cc0_scratch2) ↦{fullShare} f : sProp 𝕄) := by
  unfold ownDstPts
  rw [show (aM : Memref sig .tc .vmem S256x256 .f32).view.set = Finset.univ from View.set_whole _]

/-! ## What the body leaves -/

/-- The end of the body: the fifteen used cells closed, the three carved buffers whole again, the post assembled. -/
theorem body_finish (K : Dev nD × Fin 16 → ℕ) (c : Dev nD) (W' : Waits sig Unit) (fr : Buf (Elt F) ((c : Thread nD τ).loc cc0_scratch1)) :
    iprop(records m K
      ∗ (bigSep Finset.univ fun r : Fin 7 => atPos ER (sendCell c (off r)) 1 ∅ 0)
      ∗ (bigSep Finset.univ fun r : Fin 7 => atPos ER (recvCell c (off r)) 1 ∅ 0)
      ∗ atPos ER (locCell c) 1 ∅ 0
      ∗ idle c
      ∗ (bigSep Finset.univ fun r : Fin 7 => chunkPts m c r)
      ∗ (((c : Thread nD τ).loc cc0_scratch0) ↦[Finset.univ \ Finset.univ.biUnion fun r : Fin 7 => (bChunk c r).view.set]{fullShare} xbBuf m c)
      ∗ (bigSep Finset.univ fun r : Fin 7 => slotPts c (off r) (landedBuf m c r))
      ∗ (((c : Thread nD τ).loc cc0_scratch1) ↦[Finset.univ \ Finset.univ.biUnion fun r : Fin 7 => (slot (off r)).view.set]{fullShare} fr)
      ∗ ownDstPts c (ownVal m c)
      ∗ ownSrcPts m c
      ∗ (((c : Thread nD τ).loc cc0_stg0_0) ↦[Finset.univ \ (xChunk c).view.set]{fullShare.left} xstg m c)
      ∗ (((c : Thread nD τ).loc cc0_stg0_0) ↦{fullShare.right} xstg m c)
      ∗ owes (c : Thread nD τ) 0 W'
      ∗ (((c : Thread nD τ).loc cc0_stg1_0) ↦{fullShare} outAt m c))
    ⊢ iprop(|={Set.univ}=> bodyPost m ρ c) := by
  iintro ⟨#HR, HatS, HatR, HatL, Hidle, Hch, Hbrest, Hsl, Hrrest, Hdst, Hsrc, Hxrest, Hxright, HO, Hout⟩
  imod (close_send m K c) $$ [HatS] with HzS
  · isplitr; · iexact HR
    iexact HatS
  imod (close_recv m K c) $$ [HatR] with HzR
  · isplitr; · iexact HR
    iexact HatR
  imod (close_loc m K c) $$ [HatL] with HzL
  · isplitr; · iexact HR
    iexact HatL
  imodintro
  ihave Hb := (image_carve (F := F) c (xbBuf m c)).2 $$ [Hch Hbrest]
  · isplitl [Hch]
    · unfold chunkPts; iexact Hch
    · iexact Hbrest
  ihave Hr := (slots_rejoin (F := F) c (fun r => landedBuf m c r) fr) $$ [Hsl Hrrest]
  · isplitl [Hsl] <;> iassumption
  ihave Hx := (block_carve (F := F) c (xstg m c)).2 $$ [Hsrc Hxrest Hxright]
  · isplitl [Hsrc]
    · unfold ownSrcPts; iexact Hsrc
    isplitl [Hxrest] <;> iassumption
  ihave Hd := (Entails.of_eq (ownDstPts_eq (F := F) c (ownVal m c))) $$ Hdst
  unfold bodyPost Φ₁ scr ownZero Dat.owesAt Pipeline.owesWithin
  rw [show (dats m ρ 0 c).owed t₀.succ = 0 from rfl]
  isplitl [Hb Hr Hd Hidle HzS HzR HzL]
  · isplitl [Hb Hr Hd]
    · isplitl [Hb]; · iexists (xbBuf m c); iexact Hb
      isplitl [Hr]; · iexact Hr
      iexists (ownVal m c); iexact Hd
    · isplitl [Hidle]; · iexact Hidle
      isplitl [HzS]; · iexact HzS
      isplitl [HzR]; · iexact HzR
      iexact HzL
  isplitl [HO]
  · iexists W'
    isplitr; · ipureintro; exact fun _ _ => Or.inl trivial
    iexact HO
  isplitl [Hx]
  · iexists _; isplitr; · (ipureintro; rfl)
    iexact Hx
  iexists _; isplitr; · (ipureintro; rfl)
  iexact Hout

/-- info: 'Cert.KernelIdealProof.body_finish' depends on axioms: [propext, Classical.choice, Quot.sound] -/
#guard_msgs in #print axioms body_finish

end Cert.KernelIdealProof

end
-- ==== Proof.KernelIdealBody.lean ====
/-
  One device's kernel body, stepped from its ghost state at the one grid point: the local copy of the own chunk, the seven
  barrier signals, the bf16 image stored, the barrier wait that brings the seven peers' receive slots, the seven copies
  into them, the own chunk and the seven received chunks added up, the result stored, the sends waited, the cells closed.
-/
import proofs.«900588_g7700000000000589_dist_rs_v7x_i8_i_m256_n256_f32_1_alg».proof.Proof.KernelIdealProto
import proofs.«900588_g7700000000000589_dist_rs_v7x_i8_i_m256_n256_f32_1_alg».proof.Proof.KernelIdealGeom
import proofs.«900588_g7700000000000589_dist_rs_v7x_i8_i_m256_n256_f32_1_alg».proof.Proof.KernelIdealCarve
import proofs.«900588_g7700000000000589_dist_rs_v7x_i8_i_m256_n256_f32_1_alg».proof.Proof.KernelIdealFinish
import proofs.«900588_g7700000000000589_dist_rs_v7x_i8_i_m256_n256_f32_1_alg».proof.Proof.Gen.KernelIdeal.Points

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The semaphore arrays' entries, computed -/

theorem semS1 : ((cc0_scratch3.slice (Rect.unit (s := S8) ![1] S1.size inb_S8_S1_1)).squeeze S_ squeezes_S1_S_).sem = sendSem 1 := rfl
theorem semR1 : ((cc0_scratch4.slice (Rect.unit (s := S8) ![1] S1.size inb_S8_S1_1)).squeeze S_ squeezes_S1_S_).sem = recvSem 1 := rfl
theorem semS2 : ((cc0_scratch3.slice (Rect.unit (s := S8) ![2] S1.size inb_S8_S1_2)).squeeze S_ squeezes_S1_S_).sem = sendSem 2 := rfl
theorem semR2 : ((cc0_scratch4.slice (Rect.unit (s := S8) ![2] S1.size inb_S8_S1_2)).squeeze S_ squeezes_S1_S_).sem = recvSem 2 := rfl
theorem semS3 : ((cc0_scratch3.slice (Rect.unit (s := S8) ![3] S1.size inb_S8_S1_3)).squeeze S_ squeezes_S1_S_).sem = sendSem 3 := rfl
theorem semR3 : ((cc0_scratch4.slice (Rect.unit (s := S8) ![3] S1.size inb_S8_S1_3)).squeeze S_ squeezes_S1_S_).sem = recvSem 3 := rfl
theorem semS4 : ((cc0_scratch3.slice (Rect.unit (s := S8) ![4] S1.size inb_S8_S1_4)).squeeze S_ squeezes_S1_S_).sem = sendSem 4 := rfl
theorem semR4 : ((cc0_scratch4.slice (Rect.unit (s := S8) ![4] S1.size inb_S8_S1_4)).squeeze S_ squeezes_S1_S_).sem = recvSem 4 := rfl
theorem semS5 : ((cc0_scratch3.slice (Rect.unit (s := S8) ![5] S1.size inb_S8_S1_5)).squeeze S_ squeezes_S1_S_).sem = sendSem 5 := rfl
theorem semR5 : ((cc0_scratch4.slice (Rect.unit (s := S8) ![5] S1.size inb_S8_S1_5)).squeeze S_ squeezes_S1_S_).sem = recvSem 5 := rfl
theorem semS6 : ((cc0_scratch3.slice (Rect.unit (s := S8) ![6] S1.size inb_S8_S1_6)).squeeze S_ squeezes_S1_S_).sem = sendSem 6 := rfl
theorem semR6 : ((cc0_scratch4.slice (Rect.unit (s := S8) ![6] S1.size inb_S8_S1_6)).squeeze S_ squeezes_S1_S_).sem = recvSem 6 := rfl
theorem semS7 : ((cc0_scratch3.slice (Rect.unit (s := S8) ![7] S1.size inb_S8_S1_7)).squeeze S_ squeezes_S1_S_).sem = sendSem 7 := rfl
theorem semR7 : ((cc0_scratch4.slice (Rect.unit (s := S8) ![7] S1.size inb_S8_S1_7)).squeeze S_ squeezes_S1_S_).sem = recvSem 7 := rfl
theorem semL : cc0_scratch5.sem = locSem := rfl

omit [FloatOps F] in
theorem bigSep_fin7 (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ

/-! ## Reading the shared records -/

section Records
variable (K : Dev nD × Fin 16 → ℕ)

theorem inv_at' (ck : Dev nD × Fin 16) :
    (bigSep Finset.univ fun ck : Dev nD × Fin 16 => (cellInv ER (rsRd m) (K ck) (kcell ck) : sProp 𝕄)) ⊢ cellInv ER (rsRd m) (K ck) (kcell ck) :=
  bigSep_elim (Finset.mem_univ ck)
omit [FloatOps F] in
theorem reached_at' (ck : Dev nD × Fin 16) :
    (bigSep Finset.univ fun ck : Dev nD × Fin 16 => (reached ER (kcell ck) 0 : sProp 𝕄)) ⊢ reached ER (kcell ck) 0 :=
  bigSep_elim (Finset.mem_univ ck)
theorem inv_at (ck : Dev nD × Fin 16) : records m K ⊢ cellInv ER (rsRd m) (K ck) (kcell ck) := by
  unfold records; iintro ⟨HI, -⟩; iapply (inv_at' m K ck); iexact HI
theorem reached_at (ck : Dev nD × Fin 16) : records m K ⊢ reached ER (kcell ck) 0 := by
  unfold records; iintro ⟨-, HR⟩; iapply (reached_at' (F := F) ck); iexact HR

theorem inv_bar (c : Dev nD) : records m K ⊢ cellInv ER (rsRd m) (K (c, 0)) (barCell c) := inv_at m K (c, 0)
theorem inv_send (c : Dev nD) (r : Fin 7) : records m K ⊢ cellInv ER (rsRd m) (K (c, jS r)) (sendCell c (off r)) := by
  have h := inv_at m K (c, jS r); unfold kcell at h; dsimp only at h; rw [csem_jS] at h; exact h
theorem inv_recv (c : Dev nD) (r : Fin 7) : records m K ⊢ cellInv ER (rsRd m) (K (c, jR r)) (recvCell c (off r)) := by
  have h := inv_at m K (c, jR r); unfold kcell at h; dsimp only at h; rw [csem_jR] at h; exact h
theorem inv_loc (c : Dev nD) : records m K ⊢ cellInv ER (rsRd m) (K (c, 15)) (locCell c) := by
  have h := inv_at m K (c, 15); unfold kcell at h; dsimp only at h; rw [csem_last] at h; exact h

theorem reached_bar (c : Dev nD) : records m K ⊢ reached ER (barCell c) 0 := reached_at m K (c, 0)
theorem reached_send (c : Dev nD) (r : Fin 7) : records m K ⊢ reached ER (sendCell c (off r)) 0 := by
  have h := reached_at m K (c, jS r); unfold kcell at h; dsimp only at h; rw [csem_jS] at h; exact h
theorem reached_recv (c : Dev nD) (r : Fin 7) : records m K ⊢ reached ER (recvCell c (off r)) 0 := by
  have h := reached_at m K (c, jR r); unfold kcell at h; dsimp only at h; rw [csem_jR] at h; exact h
theorem reached_loc (c : Dev nD) : records m K ⊢ reached ER (locCell c) 0 := by
  have h := reached_at m K (c, 15); unfold kcell at h; dsimp only at h; rw [csem_last] at h; exact h

end Records

/-! ## Whole-buffer reads and writes -/

omit [FloatOps F] in
theorem hz2 : (![0, 0] : Fin 2 → Nat) = fun _ => 0 := funext fun a => by fin_cases a <;> rfl
omit [FloatOps F] in
theorem hz3 : (![0, 0, 0] : Fin 3 → Nat) = fun _ => 0 := funext fun a => by fin_cases a <;> rfl
omit [FloatOps F] in
theorem read_x (f : (cc0_stg0_0 : Ref sig .tc).ty.Contents (Elt F)) : (xM : Memref sig .tc .vmem S1x256x2048 .f32).view.readAt (Elt F) rX.toLoadRect f = f :=
  Memref.readAt_unit_zero (Elt F) cc0_stg0_0 hz3 _ f
omit [FloatOps F] in
theorem read_a (f : (cc0_scratch2 : Ref sig .tc).ty.Contents (Elt F)) : (aM : Memref sig .tc .vmem S256x256 .f32).view.readAt (Elt F) rO.toLoadRect f = f :=
  Memref.readAt_unit_zero (Elt F) cc0_scratch2 hz2 _ f
omit [FloatOps F] in
theorem write_b (f w : (cc0_scratch0 : Ref sig .tc).ty.Contents (Elt F)) :
    ((bM : Memref sig .tc .vmem S256x2048 .bf16).access rB : View sig .tc _ _ _).write (Elt F) f w Finset.univ = w :=
  Memref.write_access_unit_zero_univ (Elt F) cc0_scratch0 hz2 _ f w
omit [FloatOps F] in
theorem write_out (f w : (cc0_stg1_0 : Ref sig .tc).ty.Contents (Elt F)) :
    ((oM : Memref sig .tc .vmem S256x256 .f32).access rO : View sig .tc _ _ _).write (Elt F) f w Finset.univ = w :=
  Memref.write_access_unit_zero_univ (Elt F) cc0_stg1_0 hz2 _ f w
omit [FloatOps F] in
/-- The local copy fills its whole destination: the own chunk, whatever was there. -/
theorem own_written (c : Dev nD) (fa : Buf (Elt F) ((aM : Memref sig .tc .vmem S256x256 .f32).view.loc (c : Thread nD τ))) :
    (aM : Memref sig .tc .vmem S256x256 .f32).view.write (Elt F) fa ((xChunk c).view.read (Elt F) (xstg m c)) Finset.univ = ownVal m c := by
  show (View.whole cc0_scratch2).write (Elt F) fa ((xChunk c).view.read (Elt F) (xstg m c)) Finset.univ = _
  exact View.write_whole_univ _ _ _

/-! ## Buffers held whole, spelt through their memrefs -/

omit [FloatOps F] in
theorem pts_x (c : Dev nD) (q : PosShare TreeShare) (f : Buf (Elt F) ((c : Thread nD τ).loc cc0_stg0_0)) :
    ((((c : Thread nD τ).loc cc0_stg0_0) ↦{q} f) : sProp 𝕄)
      = ((xM : Memref sig .tc .vmem S1x256x2048 .f32).view.loc (c : Thread nD τ) ↦[(xM : Memref sig .tc .vmem S1x256x2048 .f32).view.set]{q} f) := by
  rw [View.set_whole]
omit [FloatOps F] in
theorem pts_o (c : Dev nD) (f : Buf (Elt F) ((c : Thread nD τ).loc cc0_stg1_0)) :
    ((((c : Thread nD τ).loc cc0_stg1_0) ↦{fullShare} f) : sProp 𝕄)
      = ((oM : Memref sig .tc .vmem S256x256 .f32).view.loc (c : Thread nD τ) ↦[(oM : Memref sig .tc .vmem S256x256 .f32).view.set]{fullShare} f) := by
  rw [View.set_whole]
omit [FloatOps F] in
theorem pts_b (c : Dev nD) (f : Buf (Elt F) ((c : Thread nD τ).loc cc0_scratch0)) :
    ((((c : Thread nD τ).loc cc0_scratch0) ↦{fullShare} f) : sProp 𝕄)
      = ((bM : Memref sig .tc .vmem S256x2048 .bf16).view.loc (c : Thread nD τ) ↦[(bM : Memref sig .tc .vmem S256x2048 .bf16).view.set]{fullShare} f) := by
  rw [View.set_whole]
omit [FloatOps F] in
theorem pts_r (c : Dev nD) (f : Buf (Elt F) ((c : Thread nD τ).loc cc0_scratch1)) :
    ((((c : Thread nD τ).loc cc0_scratch1) ↦{fullShare} f) : sProp 𝕄)
      = ((rM : Memref sig .tc .vmem S8x256x256 .bf16).view.loc (c : Thread nD τ) ↦[(rM : Memref sig .tc .vmem S8x256x256 .bf16).view.set]{fullShare} f) := by
  rw [View.set_whole]
omit [FloatOps F] in
theorem pts_a (c : Dev nD) (f : Buf (Elt F) ((c : Thread nD τ).loc cc0_scratch2)) :
    ((((c : Thread nD τ).loc cc0_scratch2) ↦{fullShare} f) : sProp 𝕄)
      = ((aM : Memref sig .tc .vmem S256x256 .f32).view.loc (c : Thread nD τ) ↦[(aM : Memref sig .tc .vmem S256x256 .f32).view.set]{fullShare} f) := by
  rw [View.set_whole]

/-! ## The kernel's `device_id` chains: signal `off r` and copy `r` both name the device `off r` places on -/

theorem dev1 (c : Dev nD) : (⟨k0_dev1 c, k0_dev1_lt c⟩ : Dev nD) = shift c (off 0) := Fin.ext ((k0_dev1_eq c).trans rfl)
theorem dev2 (c : Dev nD) : (⟨k0_dev2 c, k0_dev2_lt c⟩ : Dev nD) = shift c (off 1) := Fin.ext ((k0_dev2_eq c).trans rfl)
theorem dev3 (c : Dev nD) : (⟨k0_dev3 c, k0_dev3_lt c⟩ : Dev nD) = shift c (off 2) := Fin.ext ((k0_dev3_eq c).trans rfl)
theorem dev4 (c : Dev nD) : (⟨k0_dev4 c, k0_dev4_lt c⟩ : Dev nD) = shift c (off 3) := Fin.ext ((k0_dev4_eq c).trans rfl)
theorem dev5 (c : Dev nD) : (⟨k0_dev5 c, k0_dev5_lt c⟩ : Dev nD) = shift c (off 4) := Fin.ext ((k0_dev5_eq c).trans rfl)
theorem dev6 (c : Dev nD) : (⟨k0_dev6 c, k0_dev6_lt c⟩ : Dev nD) = shift c (off 5) := Fin.ext ((k0_dev6_eq c).trans rfl)
theorem dev7 (c : Dev nD) : (⟨k0_dev7 c, k0_dev7_lt c⟩ : Dev nD) = shift c (off 6) := Fin.ext ((k0_dev7_eq c).trans rfl)
theorem dev8 (c : Dev nD) : (⟨k0_dev8 c, k0_dev8_lt c⟩ : Dev nD) = shift c (off 0) := Fin.ext ((k0_dev8_eq c).trans rfl)
theorem dev9 (c : Dev nD) : (⟨k0_dev9 c, k0_dev9_lt c⟩ : Dev nD) = shift c (off 3) := Fin.ext ((k0_dev9_eq c).trans rfl)
theorem dev10 (c : Dev nD) : (⟨k0_dev10 c, k0_dev10_lt c⟩ : Dev nD) = shift c (off 6) := Fin.ext ((k0_dev10_eq c).trans rfl)
theorem dev11 (c : Dev nD) : (⟨k0_dev11 c, k0_dev11_lt c⟩ : Dev nD) = shift c (off 1) := Fin.ext ((k0_dev11_eq c).trans rfl)
theorem dev12 (c : Dev nD) : (⟨k0_dev12 c, k0_dev12_lt c⟩ : Dev nD) = shift c (off 2) := Fin.ext ((k0_dev12_eq c).trans rfl)
theorem dev13 (c : Dev nD) : (⟨k0_dev13 c, k0_dev13_lt c⟩ : Dev nD) = shift c (off 4) := Fin.ext ((k0_dev13_eq c).trans rfl)
theorem dev14 (c : Dev nD) : (⟨k0_dev14 c, k0_dev14_lt c⟩ : Dev nD) = shift c (off 5) := Fin.ext ((k0_dev14_eq c).trans rfl)

/-- The barrier payload this device hands the device `off r` places on, resolved at this device. -/
theorem payload_bar_peer (c : Dev nD) (r : Fin 7) :
    (rsRd (F := F) m).payload (barCell (shift c (off r))) 0 (off r)
      = iprop((∃ f, slotPts c (off r) f) ∗ reached ER (recvCell c (off r)) 0) := by
  rw [payload_bar]; unfold barPay; rw [shift_opp]

/-! ## One rule per kind of step, at a symbolic peer -/

section Steps
variable (K : Dev nD × Fin 16 → ℕ)

/-- The local copy of the own chunk: the local cell's one duty paid, its credit received. -/
theorem wp_loc (c : Dev nD) (fa : Buf (Elt F) ((aM : Memref sig .tc .vmem S256x256 .f32).view.loc (c : Thread nD τ)))
    {hsrc : (xChunk c).view.WordExact} {hdst : (aM : Memref sig .tc .vmem S256x256 .f32).view.WordExact}
    {hsem : DmaTarget.Typed (nD := nD) .vmem (.dma locSem) (.here aM : DmaTarget nD τ sig (c : Thread nD τ).2 .vmem S256x256 .f32)}
    {α : Type} {Q : α → sProp 𝕄} {k : PUnit → Prog (TpuEff nD τ sig (Elt F) Λ₀ .tc) α} :
    iprop(records m K ∗ ownSrcPts m c ∗ ownDstPts c fa ∗ dutyTok ER (locCell c) 0 (0 : Fin 8))
      ⊢ iprop((cred (tallyAt (locCell c) () NL) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (xChunk c) (.here aM) (.dma locSem) hsrc hdst hsem) k) Q) := by
  unfold ownSrcPts ownDstPts
  iintro ⟨#Hrec, Hs, Hd, Ht⟩
  iapply (Rounds.wp_copy_pointsTo 𝒱₀ ER (rsRd m) (c : Thread nD τ) none (κ := K (c, 15)) (r := 0) (d := (0 : Fin 8)) (fd := fa)
      (by rw [duties_loc]; exact Finset.mem_singleton_self _) () NL rfl (amount_loc m c 0)
      (by rw [payload_loc]; unfold locPay ownDstPts ownSrcPts; rw [own_written]))
  isplitr; · iapply (inv_loc m K c); iexact Hrec
  isplitl [Hs]; · iexact Hs
  isplitl [Hd]; · iexact Hd
  isplitl [Ht]; · iexact Ht
  iapply (reached_loc m K c); iexact Hrec

/-- Signal number `off r`, to the device `n` that many places on: it pays duty `off r` of `n`'s barrier cell with this
    device's receive slot `off r` and the fact that its receive cell `off r` is at round 0. -/
theorem wp_sig (c n : Dev nD) (r : Fin 7) (hn : n = shift c (off r)) (f0 : Buf (Elt F) ((slot (off r)).view.loc (c : Thread nD τ)))
    (O : CellTallies nD τ sig Unit) (W : Waits sig Unit) {k' : ℕ} (hk' : k' = 1)
    {α : Type} {Q : α → sProp 𝕄} {k : PUnit → Prog (TpuEff nD τ sig (Elt F) Λ₀ .tc) α} :
    iprop(records m K ∗ slotPts c (off r) f0 ∗ owes (c : Thread nD τ) (O + sigTally c r) W
        ∗ dutyTok ER (barCell (shift c (off r))) 0 (off r))
      ⊢ iprop((owes (c : Thread nD τ) O W -∗ wp frame (wpE (defs₀ (F := F)) 𝒱₀ (c : Thread nD τ) none) Set.univ (k ⟨⟩) Q)
          -∗ wp frame (wpE (defs₀ (F := F)) 𝒱₀ (c : Thread nD τ) none) Set.univ
              (.op (.semSignal (n : Thread nD τ) barS k') k) Q) := by
  subst hn hk'
  iintro ⟨#Hrec, Hslot, HO, Ht⟩
  iapply (Rounds.wp_signal 𝒱₀ ER (rsRd m) (c : Thread nD τ) none (dst := (shift c (off r) : Thread nD τ)) (κ := K (shift c (off r), 0))
      (d := off r) (by rw [duties_bar]; exact Finset.mem_erase.mpr ⟨off_ne_zero r, Finset.mem_univ _⟩)
      (amount_bar m (shift c (off r)) (off r)) () O rfl) $$ [HO Ht Hslot]
  isplitr; · iapply (inv_bar m K (shift c (off r))); iexact Hrec
  isplitl [HO]; · unfold sigTally; iexact HO
  isplitl [Ht]; · iexact Ht
  isplitl [Hslot]
  · rw [payload_bar]; unfold barPay; rw [shift_opp]
    isplitl [Hslot]; · iexists f0; iexact Hslot
    iapply (reached_recv m K c r); iexact Hrec
  · iapply (reached_bar m K (shift c (off r))); iexact Hrec

/-- What the copy writes into the peer's slot does not depend, on the slot's elements, on what the buffer held:
    the schedule states it over the buffer as launched. (The geometry is `slot_write_congr`.) -/
theorem landed_pts (p : Dev nD) (s : Fin 8) (fd fd' : Buf (Elt F) ((slot s).view.loc (p : Thread nD τ))) (w : S256x256.Idx → Elt F .bf16) :
    (((slot s).view.loc (p : Thread nD τ)) ↦[(slot s).view.set]{fullShare} (slot s).view.write (Elt F) fd w Finset.univ : sProp 𝕄)
      = (((slot s).view.loc (p : Thread nD τ)) ↦[(slot s).view.set]{fullShare} (slot s).view.write (Elt F) fd' w Finset.univ) :=
  pointsTo_congr (slot_write_congr s fd fd' w)

/-- Copy number `r`: chunk `off r` places on of the image, to slot `off (rev r)` of the device `n` that many places on, on
    this device's send cell `off r` and `n`'s receive cell `off (rev r)`. -/
theorem wp_snd (c n : Dev nD) (r : Fin 7) (hn : n = shift c (off r)) (ks kr : Fin 8) (hks : ks = off r) (hkr : kr = off (rev r))
    {hsc : (slot kr : Memref sig (Dev.tc n : Thread nD τ).2.kind .vmem S256x256 .bf16).view.ref.isScScratch = false}
    {hsrc : (bChunk c r).view.WordExact} {hdst : (slot kr).view.WordExact}
    {hsem : DmaTarget.Typed .vmem (.dma (recvSem kr)) (.remote (Dev.tc n : Thread nD τ) (slot kr) (.dma (sendSem ks)) hsc)}
    (fn : Buf (Elt F) ((slot kr).view.loc (shift c (off r) : Thread nD τ))) (O : CellTallies nD τ sig Unit) (W : Waits sig Unit)
    {α : Type} {Q : α → sProp 𝕄} {k : PUnit → Prog (TpuEff nD τ sig (Elt F) Λ₀ .tc) α} :
    iprop(records m K ∗ chunkPts m c r ∗ slotPts (shift c (off r)) kr fn ∗ owes (c : Thread nD τ) (O + sndTally c r) W
        ∗ dutyTok ER (sendCell c (off r)) 0 (0 : Fin 8) ∗ dutyTok ER (recvCell (shift c (off r)) (off (rev r))) 0 (0 : Fin 8))
      ⊢ iprop(((cred (tallyAt (sendCell c (off r)) () NB) ∗ owes (c : Thread nD τ) O W)
              -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (bChunk c r) (.remote (Dev.tc n : Thread nD τ) (slot kr) (.dma (sendSem ks)) hsc) (.dma (recvSem kr)) hsrc hdst hsem) k) Q) := by
  subst hn hks hkr
  unfold chunkPts slotPts
  iintro ⟨#Hrec, Hsrc, Hdst, HO, HtS, HtR⟩
  iapply (Rounds.wp_send_pointsTo 𝒱₀ ER (rsRd m) (c : Thread nD τ) none (κ₁ := K (c, jS r)) (κ₂ := K (shift c (off r), jR (rev r)))
      (r₁ := 0) (r₂ := 0) (d₁ := (0 : Fin 8)) (d₂ := (0 : Fin 8)) (fd := fn)
      (by rw [duties_send]; exact Finset.mem_singleton_self _) (by rw [duties_recv]; exact Finset.mem_singleton_self _)
      () () NB rfl (amount_send m c r 0) (amount_recv m (shift c (off r)) (rev r) 0) O rfl (W := W)
      (by rw [payload_send]; exact BI.Entails.refl _)
      (by
        rw [payload_recv]; unfold recvPay slotPts landedBuf landVal
        rw [off_rev, shift_opp, rev_rev, ← off_rev]
        exact Entails.of_eq (landed_pts _ _ _ _ _)))
  isplitr; · iapply (inv_send m K c r); iexact Hrec
  isplitr; · iapply (inv_recv m K (shift c (off r)) (rev r)); iexact Hrec
  isplitl [Hsrc]; · iexact Hsrc
  isplitl [Hdst]; · iexact Hdst
  isplitl [HO]; · unfold sndTally; iexact HO
  isplitl [HtS]; · iexact HtS
  isplitr; · iapply (reached_send m K c r); iexact Hrec
  isplitl [HtR]; · iexact HtR
  iapply (reached_recv m K (shift c (off r)) (rev r)); iexact Hrec

/-- A wait for one of this device's DMA cells' one duty, owing nothing: the position moves to round 1 and the duty's payload comes back. -/
theorem wp_dwait (c : Dev nD) (j : Fin 16) (q : DmaSem sig) (hq : csem j = .dma q) (N : ℕ)
    (hexp : (rsRd (F := F) m).expect ((c : Thread nD τ), .dma q) 0 = N) (W : Waits sig Unit)
    {sp sp' : Space} {sh sh' : Shape} {e e' : EltTy} {κ' : Kind}
    {srcw : Memref sig (c : Thread nD τ).2.kind sp' sh' e'} {dstw : Memref sig κ' sp sh e} {hsrc : srcw.view.WordExact} {hdst : dstw.view.WordExact}
    (hN : dstw.view.dmaCredit = N)
    {α : Type} {Q : α → sProp 𝕄} {k : PUnit → Prog (TpuEff nD τ sig (Elt F) Λ₀ .tc) α} :
    iprop(records m K ∗ cred (tallyAt ((c : Thread nD τ), .dma q) () N) ∗ owes (c : Thread nD τ) 0 W ∗ atPos ER ((c : Thread nD τ), .dma q) 0 ∅ 0)
      ⊢ iprop(((owes (c : Thread nD τ) 0 (insert (SemLoc.dma q, ()) W) ∗ atPos ER ((c : Thread nD τ), .dma q) 1 ∅ 0
              ∗ bigSep ((rsRd (F := F) m).duties ((c : Thread nD τ), .dma q) 0 \ ∅) (fun d => (rsRd (F := F) m).payload ((c : Thread nD τ), .dma q) 0 d))
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 q srcw dstw hsrc hdst) k) Q) := by
  subst hN
  iintro ⟨#Hrec, Hc, HO, Hat⟩ Hk
  iapply (Rounds.wp_wait_rest_token 𝒱₀ ER (rsRd m) (c : Thread nD τ) none (κ := K (c, j))
      (wpE_waitDma2_eq 𝒱₀ (c : Thread nD τ) none Set.univ) (Set.mem_univ _) () (O := 0) (W := W) (R := 0) (m := 0) (T := ∅)
      (by rw [Nat.zero_add, hexp])) $$ [Hc HO Hat]
  · isplitr
    · have h := inv_at m K (c, j); unfold kcell at h; dsimp only at h; rw [hq] at h
      iapply h; iexact Hrec
    isplitl [Hc]; · iexact Hc
    isplitl [HO]; · iexact HO
    isplitr; · rw [MayWait_zero]; iempintro
    iexact Hat
  iintro ⟨HO, Hat, -, Hpay⟩
  iapply Hk
  isplitl [HO]; · iexact HO
  isplitl [Hat]; · iexact Hat
  iexact Hpay

/-- A used DMA cell, its one round consumed, closes: its counter at zero is the device's again. -/
theorem cell_done (c : Dev nD) (j : Fin 16) (q : DmaSem sig) (hq : csem j = .dma q) :
    iprop(records m K ∗ atPos ER ((c : Thread nD τ), SemLoc.dma q) 1 ∅ 0) ⊢ iprop(|={Set.univ}=> semVal ((c : Thread nD τ), SemLoc.dma q) 0) := by
  iintro ⟨#Hrec, Hat⟩
  iapply (Rounds.cell_close ER (rsRd m) (Set.mem_univ (K (c, j))) (fun h => h) (R := 0 + 1) (duties_later m ((c : Thread nD τ), SemLoc.dma q)))
  isplitr
  · have h := inv_at m K (c, j); unfold kcell at h; dsimp only at h; rw [hq] at h
    iapply h; iexact Hrec
  iexact Hat

end Steps

set_option maxHeartbeats 4000000 in
/-- The body, symbolically executed from `bodyPre` to `bodyPost`. -/
theorem sound_body (K : Dev nD × Fin 16 → ℕ) (c : Dev nD) (Kt : PUnit → sProp 𝕄) :
    iprop(bodyPre m ρ K c ∗ (bodyPost m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_scratch0) (Memref.isWhole_whole _) (Memref.whole cc0_scratch1) (Memref.isWhole_whole _)
            (Memref.whole cc0_scratch2) (Memref.isWhole_whole _) cc0_scratch3 cc0_scratch4 cc0_scratch5) Kt := by
  simp only [cc0_body_eq_skeleton]; unfold cc0_body_skel
  simp only [k0_part1_eq_skeleton, k0_part2_eq_skeleton, k0_part3_eq_skeleton, k0_part4_eq_skeleton, k0_part5_eq_skeleton,
    k0_part6_eq_skeleton, k0_part7_eq_skeleton, k0_part8_eq_skeleton, k0_part9_eq_skeleton]
  unfold k0_part1_skel k0_part2_skel k0_part3_skel k0_part4_skel k0_part5_skel k0_part6_skel k0_part7_skel k0_part8_skel k0_part9_skel
  simp only [semSignalWord, semWaitWord, Prog.lift, Prog.bind_op, Prog.bind_ret, Prog.pure_eq_ret, Prog.bind_assoc, wp_deviceId]
  simp only [semS1, semS2, semS3, semS4, semS5, semS6, semS7, semR1, semR2, semR3, semR4, semR5, semR6, semR7, semL]
  unfold bodyPre ghost positions payToks creds idle scr
  simp only [bigSep_fin7]
  iintro ⟨⟨⟨⟨#Hrec, ⟨HatB, ⟨HaS0, HaS1, HaS2, HaS3, HaS4, HaS5, HaS6⟩, ⟨HaR0, HaR1, HaR2, HaR3, HaR4, HaR5, HaR6⟩, HatL⟩,
      ⟨⟨HtB0, HtB1, HtB2, HtB3, HtB4, HtB5, HtB6⟩, ⟨HtR0, HtR1, HtR2, HtR3, HtR4, HtR5, HtR6⟩, ⟨HtS0, HtS1, HtS2, HtS3, HtS4, HtS5, HtS6⟩, HtL⟩⟩,
      ⟨HcB, ⟨HcR0, HcR1, HcR2, HcR3, HcR4, HcR5, HcR6⟩⟩, ⟨HiS, HiR⟩, #Hlev, ⟨⟨%fb, Hb⟩, ⟨%fr, Hr⟩, ⟨%fa, Ha⟩⟩⟩,
    Ho, ⟨%d0, %g0, %hg0, Hx⟩, ⟨%d1, %g1, %hg1, Hout⟩⟩, Hk⟩
  have hx : g0 = xstg m c := by rw [hg0]; unfold Dat.before; rw [if_pos (fetch0_0 t₀)]; rfl
  subst hx
  unfold Dat.owesAt Pipeline.owesWithin
  icases Ho with ⟨%W, %hW, HO⟩
  rw [show (dats m ρ 0 c).owed t₀.castSucc = O₀ c from rfl]
  simp only [O₀, owedG, owedS, sendOrder]
  simp only [dev1 c, dev2 c, dev3 c, dev4 c, dev5 c, dev6 c, dev7 c]
  -- the staged block: its own chunk at the left half share for the local copy, the rest of the left half, the right half for the loads
  ihave HxS := (block_carve (F := F) c _).1 $$ Hx
  icases HxS with ⟨HxC, HxLrest, HxR⟩
  ihave Ha := (Entails.of_eq (pts_a (F := F) c _)) $$ Ha
  iapply (wp_loc m K c fa) $$ [HxC Ha HtL]
  · isplitr; · iexact Hrec
    isplitl [HxC]; · unfold ownSrcPts; iexact HxC
    isplitl [Ha]; · unfold ownDstPts; iexact Ha
    iexact HtL
  iintro HcL
  -- the slot buffer carved into its seven used slots and the rest
  have hsl := (slots_carve (F := F) c fr).1
  rw [bigSep_fin7] at hsl
  ihave Hr := hsl $$ Hr
  icases Hr with ⟨⟨Hs0, Hs1, Hs2, Hs3, Hs4, Hs5, Hs6⟩, Hrrest⟩
  -- signal 1: this device's receive slot 1 goes with it
  iapply (wp_sig m K c _ 0 rfl fr (owedG c [1, 2, 3, 4, 5, 6]) W rfl) $$ [Hs0 HO HtB0]
  · isplitr; · iexact Hrec
    isplitl [Hs0]; · iexact Hs0
    isplitl [HO]; · iexact HO
    iexact HtB0
  iintro HO
  -- signal 2: this device's receive slot 2 goes with it
  iapply (wp_sig m K c _ 1 rfl fr (owedG c [2, 3, 4, 5, 6]) W rfl) $$ [Hs1 HO HtB1]
  · isplitr; · iexact Hrec
    isplitl [Hs1]; · iexact Hs1
    isplitl [HO]; · iexact HO
    iexact HtB1
  iintro HO
  -- signal 3: this device's receive slot 3 goes with it
  iapply (wp_sig m K c _ 2 rfl fr (owedG c [3, 4, 5, 6]) W rfl) $$ [Hs2 HO HtB2]
  · isplitr; · iexact Hrec
    isplitl [Hs2]; · iexact Hs2
    isplitl [HO]; · iexact HO
    iexact HtB2
  iintro HO
  -- signal 4: this device's receive slot 4 goes with it
  iapply (wp_sig m K c _ 3 rfl fr (owedG c [4, 5, 6]) W rfl) $$ [Hs3 HO HtB3]
  · isplitr; · iexact Hrec
    isplitl [Hs3]; · iexact Hs3
    isplitl [HO]; · iexact HO
    iexact HtB3
  iintro HO
  -- signal 5: this device's receive slot 5 goes with it
  iapply (wp_sig m K c _ 4 rfl fr (owedG c [5, 6]) W rfl) $$ [Hs4 HO HtB4]
  · isplitr; · iexact Hrec
    isplitl [Hs4]; · iexact Hs4
    isplitl [HO]; · iexact HO
    iexact HtB4
  iintro HO
  -- signal 6: this device's receive slot 6 goes with it
  iapply (wp_sig m K c _ 5 rfl fr (owedG c [6]) W rfl) $$ [Hs5 HO HtB5]
  · isplitr; · iexact Hrec
    isplitl [Hs5]; · iexact Hs5
    isplitl [HO]; · iexact HO
    iexact HtB5
  iintro HO
  -- signal 7: this device's receive slot 7 goes with it
  iapply (wp_sig m K c _ 6 rfl fr (owedG c []) W rfl) $$ [Hs6 HO HtB6]
  · isplitr; · iexact Hrec
    isplitl [Hs6]; · iexact Hs6
    isplitl [HO]; · iexact HO
    iexact HtB6
  iintro HO
  -- the staged block loaded whole (through the right half), the image buffer loaded and stored whole: the bf16 image
  iapply (wp_load 𝒱₀ (c : Thread nD τ) none Set.univ (m := xM) (Finset.subset_univ _)) $$ HxR; iintro HxR
  rw [read_x]
  iapply (wp_load 𝒱₀ (c : Thread nD τ) none Set.univ (m := bM) (Finset.subset_univ _)) $$ Hb; iintro Hb
  iapply (wp_store 𝒱₀ (c : Thread nD τ) none Set.univ (m := bM) (r := rB) (Mk := Finset.univ) (Finset.subset_univ _)) $$ Hb; iintro Hb
  rw [write_b]
  -- the WAIT for seven on the barrier cell, owing the seven copies' credit: the peers' slots come with it
  iapply (Rounds.wp_wait_rest_token 𝒱₀ ER (rsRd m) (c : Thread nD τ) none (κ := K (c, 0))
      (wpE_semWait_eq 𝒱₀ (c : Thread nD τ) none Set.univ) (Set.mem_univ _) () (O := owedS c sendOrder) (W := W) (R := 0) (m := 0) (T := ∅)
      (by rw [expect_bar]; decide)) $$ [HcB HO HatB]
  · isplitr; · iapply (inv_bar m K c); iexact Hrec
    isplitl [HcB]; · iexact HcB
    isplitl [HO]; · iexact HO
    isplitr; · iapply (mayWait_bar c); iexact Hlev
    iexact HatB
  iintro ⟨HO, HatB, -, Hpay⟩
  ihave Hp := (Entails.of_eq (rest_bar m c)) $$ Hpay
  unfold barPay
  icases Hp with ⟨⟨⟨%f1, Hp1⟩, -⟩, ⟨⟨%f2, Hp2⟩, -⟩, ⟨⟨%f3, Hp3⟩, -⟩, ⟨⟨%f4, Hp4⟩, -⟩, ⟨⟨%f5, Hp5⟩, -⟩, ⟨⟨%f6, Hp6⟩, -⟩, ⟨⟨%f7, Hp7⟩, -⟩⟩
  -- the image carved into the seven chunks it sends and the rest (its own chunk)
  have hb : (iprop((((bM : Memref sig .tc .vmem S256x2048 .bf16).access rB : View sig .tc _ _ _).loc (c : Thread nD τ)) ↦{fullShare} k0_pay1 (xstg m c)) : sProp 𝕄)
      ⊢ iprop(((c : Thread nD τ).loc cc0_scratch0) ↦{fullShare} xbBuf m c) := BI.Entails.refl _
  ihave Hb := hb $$ Hb
  have him := (image_carve (F := F) c (xbBuf m c)).1
  rw [bigSep_fin7] at him
  ihave Hb := him $$ Hb
  icases Hb with ⟨⟨Hch0, Hch1, Hch2, Hch3, Hch4, Hch5, Hch6⟩, Hbrest⟩
  -- copy 0 : chunk of the device 1 places on, into its slot 7
  iapply (wp_snd m K c _ 0 (dev8 c) 1 7 (by decide) (by decide) f7 (owedS c [3, 6, 1, 2, 4, 5]) (insert (SemLoc.reg barS, ()) W)) $$ [Hch0 Hp7 HO HtS0 HtR0]
  · isplitr; · iexact Hrec
    isplitl [Hch0]; · unfold chunkPts; iexact Hch0
    isplitl [Hp7]; · iexact Hp7
    isplitl [HO]; · iexact HO
    isplitl [HtS0]; · iexact HtS0
    iexact HtR0
  iintro ⟨HcS0, HO⟩
  -- copy 3 : chunk of the device 4 places on, into its slot 4
  iapply (wp_snd m K c _ 3 (dev9 c) 4 4 (by decide) (by decide) f4 (owedS c [6, 1, 2, 4, 5]) (insert (SemLoc.reg barS, ()) W)) $$ [Hch3 Hp4 HO HtS3 HtR3]
  · isplitr; · iexact Hrec
    isplitl [Hch3]; · unfold chunkPts; iexact Hch3
    isplitl [Hp4]; · iexact Hp4
    isplitl [HO]; · iexact HO
    isplitl [HtS3]; · iexact HtS3
    iexact HtR3
  iintro ⟨HcS3, HO⟩
  -- copy 6 : chunk of the device 7 places on, into its slot 1
  iapply (wp_snd m K c _ 6 (dev10 c) 7 1 (by decide) (by decide) f1 (owedS c [1, 2, 4, 5]) (insert (SemLoc.reg barS, ()) W)) $$ [Hch6 Hp1 HO HtS6 HtR6]
  · isplitr; · iexact Hrec
    isplitl [Hch6]; · unfold chunkPts; iexact Hch6
    isplitl [Hp1]; · iexact Hp1
    isplitl [HO]; · iexact HO
    isplitl [HtS6]; · iexact HtS6
    iexact HtR6
  iintro ⟨HcS6, HO⟩
  -- copy 1 : chunk of the device 2 places on, into its slot 6
  iapply (wp_snd m K c _ 1 (dev11 c) 2 6 (by decide) (by decide) f6 (owedS c [2, 4, 5]) (insert (SemLoc.reg barS, ()) W)) $$ [Hch1 Hp6 HO HtS1 HtR1]
  · isplitr; · iexact Hrec
    isplitl [Hch1]; · unfold chunkPts; iexact Hch1
    isplitl [Hp6]; · iexact Hp6
    isplitl [HO]; · iexact HO
    isplitl [HtS1]; · iexact HtS1
    iexact HtR1
  iintro ⟨HcS1, HO⟩
  -- copy 2 : chunk of the device 3 places on, into its slot 5
  iapply (wp_snd m K c _ 2 (dev12 c) 3 5 (by decide) (by decide) f5 (owedS c [4, 5]) (insert (SemLoc.reg barS, ()) W)) $$ [Hch2 Hp5 HO HtS2 HtR2]
  · isplitr; · iexact Hrec
    isplitl [Hch2]; · unfold chunkPts; iexact Hch2
    isplitl [Hp5]; · iexact Hp5
    isplitl [HO]; · iexact HO
    isplitl [HtS2]; · iexact HtS2
    iexact HtR2
  iintro ⟨HcS2, HO⟩
  -- copy 4 : chunk of the device 5 places on, into its slot 3
  iapply (wp_snd m K c _ 4 (dev13 c) 5 3 (by decide) (by decide) f3 (owedS c [5]) (insert (SemLoc.reg barS, ()) W)) $$ [Hch4 Hp3 HO HtS4 HtR4]
  · isplitr; · iexact Hrec
    isplitl [Hch4]; · unfold chunkPts; iexact Hch4
    isplitl [Hp3]; · iexact Hp3
    isplitl [HO]; · iexact HO
    isplitl [HtS4]; · iexact HtS4
    iexact HtR4
  iintro ⟨HcS4, HO⟩
  -- copy 5 : chunk of the device 6 places on, into its slot 2
  iapply (wp_snd m K c _ 5 (dev14 c) 6 2 (by decide) (by decide) f2 (owedS c []) (insert (SemLoc.reg barS, ()) W)) $$ [Hch5 Hp2 HO HtS5 HtR5]
  · isplitr; · iexact Hrec
    isplitl [Hch5]; · unfold chunkPts; iexact Hch5
    isplitl [Hp2]; · iexact Hp2
    isplitl [HO]; · iexact HO
    isplitl [HtS5]; · iexact HtS5
    iexact HtR5
  iintro ⟨HcS5, HO⟩
  -- the WAIT of the local copy: the own chunk delivered, the share of the staged block it read back
  iapply (wp_dwait m K c 15 locSem csem_last NL (expect_loc m c) _ (by rfl)) $$ [HcL HO HatL]
  · isplitr; · iexact Hrec
    isplitl [HcL]; · iexact HcL
    isplitl [HO]; · iexact HO
    iexact HatL
  iintro ⟨HO, HatL, Hpay⟩
  ihave Hp := (Entails.of_eq (rest_loc m c)) $$ Hpay
  unfold locPay
  icases Hp with ⟨Ha, HxC⟩
  unfold ownDstPts
  iapply (wp_load 𝒱₀ (c : Thread nD τ) none Set.univ (m := aM) (by rw [View.set_whole]; exact Finset.subset_univ _)) $$ Ha; iintro Ha
  rw [read_a]
  -- the wait on receive cell 1: slot 1 back, holding the chunk the device 1 places on sent
  iapply (wp_dwait m K c (jR 0) (recvSem (off 0)) (csem_jR 0) NB (expect_recv m c 0) _ (by rfl)) $$ [HcR0 HO HaR0]
  · isplitr; · iexact Hrec
    isplitl [HcR0]; · iexact HcR0
    isplitl [HO]; · iexact HO
    iexact HaR0
  iintro ⟨HO, HaR0, Hpay⟩
  ihave Hl0 := (Entails.of_eq (rest_recv m c 0)) $$ Hpay
  unfold recvPay
  iapply (wp_load_slot c (off 0) (landedBuf m c 0)) $$ Hl0; iintro Hl0
  -- the wait on receive cell 2: slot 2 back, holding the chunk the device 2 places on sent
  iapply (wp_dwait m K c (jR 1) (recvSem (off 1)) (csem_jR 1) NB (expect_recv m c 1) _ (by rfl)) $$ [HcR1 HO HaR1]
  · isplitr; · iexact Hrec
    isplitl [HcR1]; · iexact HcR1
    isplitl [HO]; · iexact HO
    iexact HaR1
  iintro ⟨HO, HaR1, Hpay⟩
  ihave Hl1 := (Entails.of_eq (rest_recv m c 1)) $$ Hpay
  unfold recvPay
  iapply (wp_load_slot c (off 1) (landedBuf m c 1)) $$ Hl1; iintro Hl1
  -- the wait on receive cell 3: slot 3 back, holding the chunk the device 3 places on sent
  iapply (wp_dwait m K c (jR 2) (recvSem (off 2)) (csem_jR 2) NB (expect_recv m c 2) _ (by rfl)) $$ [HcR2 HO HaR2]
  · isplitr; · iexact Hrec
    isplitl [HcR2]; · iexact HcR2
    isplitl [HO]; · iexact HO
    iexact HaR2
  iintro ⟨HO, HaR2, Hpay⟩
  ihave Hl2 := (Entails.of_eq (rest_recv m c 2)) $$ Hpay
  unfold recvPay
  iapply (wp_load_slot c (off 2) (landedBuf m c 2)) $$ Hl2; iintro Hl2
  -- the wait on receive cell 4: slot 4 back, holding the chunk the device 4 places on sent
  iapply (wp_dwait m K c (jR 3) (recvSem (off 3)) (csem_jR 3) NB (expect_recv m c 3) _ (by rfl)) $$ [HcR3 HO HaR3]
  · isplitr; · iexact Hrec
    isplitl [HcR3]; · iexact HcR3
    isplitl [HO]; · iexact HO
    iexact HaR3
  iintro ⟨HO, HaR3, Hpay⟩
  ihave Hl3 := (Entails.of_eq (rest_recv m c 3)) $$ Hpay
  unfold recvPay
  iapply (wp_load_slot c (off 3) (landedBuf m c 3)) $$ Hl3; iintro Hl3
  -- the wait on receive cell 5: slot 5 back, holding the chunk the device 5 places on sent
  iapply (wp_dwait m K c (jR 4) (recvSem (off 4)) (csem_jR 4) NB (expect_recv m c 4) _ (by rfl)) $$ [HcR4 HO HaR4]
  · isplitr; · iexact Hrec
    isplitl [HcR4]; · iexact HcR4
    isplitl [HO]; · iexact HO
    iexact HaR4
  iintro ⟨HO, HaR4, Hpay⟩
  ihave Hl4 := (Entails.of_eq (rest_recv m c 4)) $$ Hpay
  unfold recvPay
  iapply (wp_load_slot c (off 4) (landedBuf m c 4)) $$ Hl4; iintro Hl4
  -- the wait on receive cell 6: slot 6 back, holding the chunk the device 6 places on sent
  iapply (wp_dwait m K c (jR 5) (recvSem (off 5)) (csem_jR 5) NB (expect_recv m c 5) _ (by rfl)) $$ [HcR5 HO HaR5]
  · isplitr; · iexact Hrec
    isplitl [HcR5]; · iexact HcR5
    isplitl [HO]; · iexact HO
    iexact HaR5
  iintro ⟨HO, HaR5, Hpay⟩
  ihave Hl5 := (Entails.of_eq (rest_recv m c 5)) $$ Hpay
  unfold recvPay
  iapply (wp_load_slot c (off 5) (landedBuf m c 5)) $$ Hl5; iintro Hl5
  -- the wait on receive cell 7: slot 7 back, holding the chunk the device 7 places on sent
  iapply (wp_dwait m K c (jR 6) (recvSem (off 6)) (csem_jR 6) NB (expect_recv m c 6) _ (by rfl)) $$ [HcR6 HO HaR6]
  · isplitr; · iexact Hrec
    isplitl [HcR6]; · iexact HcR6
    isplitl [HO]; · iexact HO
    iexact HaR6
  iintro ⟨HO, HaR6, Hpay⟩
  ihave Hl6 := (Entails.of_eq (rest_recv m c 6)) $$ Hpay
  unfold recvPay
  iapply (wp_load_slot c (off 6) (landedBuf m c 6)) $$ Hl6; iintro Hl6
  -- the accumulated sum stored into the output block
  iapply (wp_load 𝒱₀ (c : Thread nD τ) none Set.univ (m := oM) (Finset.subset_univ _)) $$ Hout; iintro Hout
  iapply (wp_store 𝒱₀ (c : Thread nD τ) none Set.univ (m := oM) (r := rO) (Mk := Finset.univ) (Finset.subset_univ _)) $$ Hout; iintro Hout
  rw [write_out]
  -- the wait on send cell 1: the chunk sent with copy 0 back
  iapply (wp_dwait m K c (jS 0) (sendSem (off 0)) (csem_jS 0) NB (expect_send m c 0) _ (by rfl)) $$ [HcS0 HO HaS0]
  · isplitr; · iexact Hrec
    isplitl [HcS0]; · iexact HcS0
    isplitl [HO]; · iexact HO
    iexact HaS0
  iintro ⟨HO, HaS0, Hpay⟩
  ihave Hch0 := (Entails.of_eq (rest_send m c 0)) $$ Hpay
  unfold sendPay
  -- the wait on send cell 4: the chunk sent with copy 3 back
  iapply (wp_dwait m K c (jS 3) (sendSem (off 3)) (csem_jS 3) NB (expect_send m c 3) _ (by rfl)) $$ [HcS3 HO HaS3]
  · isplitr; · iexact Hrec
    isplitl [HcS3]; · iexact HcS3
    isplitl [HO]; · iexact HO
    iexact HaS3
  iintro ⟨HO, HaS3, Hpay⟩
  ihave Hch3 := (Entails.of_eq (rest_send m c 3)) $$ Hpay
  unfold sendPay
  -- the wait on send cell 7: the chunk sent with copy 6 back
  iapply (wp_dwait m K c (jS 6) (sendSem (off 6)) (csem_jS 6) NB (expect_send m c 6) _ (by rfl)) $$ [HcS6 HO HaS6]
  · isplitr; · iexact Hrec
    isplitl [HcS6]; · iexact HcS6
    isplitl [HO]; · iexact HO
    iexact HaS6
  iintro ⟨HO, HaS6, Hpay⟩
  ihave Hch6 := (Entails.of_eq (rest_send m c 6)) $$ Hpay
  unfold sendPay
  -- the wait on send cell 2: the chunk sent with copy 1 back
  iapply (wp_dwait m K c (jS 1) (sendSem (off 1)) (csem_jS 1) NB (expect_send m c 1) _ (by rfl)) $$ [HcS1 HO HaS1]
  · isplitr; · iexact Hrec
    isplitl [HcS1]; · iexact HcS1
    isplitl [HO]; · iexact HO
    iexact HaS1
  iintro ⟨HO, HaS1, Hpay⟩
  ihave Hch1 := (Entails.of_eq (rest_send m c 1)) $$ Hpay
  unfold sendPay
  -- the wait on send cell 3: the chunk sent with copy 2 back
  iapply (wp_dwait m K c (jS 2) (sendSem (off 2)) (csem_jS 2) NB (expect_send m c 2) _ (by rfl)) $$ [HcS2 HO HaS2]
  · isplitr; · iexact Hrec
    isplitl [HcS2]; · iexact HcS2
    isplitl [HO]; · iexact HO
    iexact HaS2
  iintro ⟨HO, HaS2, Hpay⟩
  ihave Hch2 := (Entails.of_eq (rest_send m c 2)) $$ Hpay
  unfold sendPay
  -- the wait on send cell 5: the chunk sent with copy 4 back
  iapply (wp_dwait m K c (jS 4) (sendSem (off 4)) (csem_jS 4) NB (expect_send m c 4) _ (by rfl)) $$ [HcS4 HO HaS4]
  · isplitr; · iexact Hrec
    isplitl [HcS4]; · iexact HcS4
    isplitl [HO]; · iexact HO
    iexact HaS4
  iintro ⟨HO, HaS4, Hpay⟩
  ihave Hch4 := (Entails.of_eq (rest_send m c 4)) $$ Hpay
  unfold sendPay
  -- the wait on send cell 6: the chunk sent with copy 5 back
  iapply (wp_dwait m K c (jS 5) (sendSem (off 5)) (csem_jS 5) NB (expect_send m c 5) _ (by rfl)) $$ [HcS5 HO HaS5]
  · isplitr; · iexact Hrec
    isplitl [HcS5]; · iexact HcS5
    isplitl [HO]; · iexact HO
    iexact HaS5
  iintro ⟨HO, HaS5, Hpay⟩
  ihave Hch5 := (Entails.of_eq (rest_send m c 5)) $$ Hpay
  unfold sendPay
  -- the fifteen used cells close, the carved buffers are whole again: the post
  imod (body_finish m ρ K c _ fr) $$ [HaS0 HaS1 HaS2 HaS3 HaS4 HaS5 HaS6 HaR0 HaR1 HaR2 HaR3 HaR4 HaR5 HaR6 HatL HiS HiR Hch0 Hch1 Hch2 Hch3 Hch4 Hch5 Hch6 Hbrest Hl0 Hl1 Hl2 Hl3 Hl4 Hl5 Hl6 Hrrest Ha HxC HxLrest HxR HO Hout] with Hpost
  · simp only [bigSep_fin7]
    unfold idle
    isplitr; · iexact Hrec
    isplitl [HaS0 HaS1 HaS2 HaS3 HaS4 HaS5 HaS6]
    · isplitl [HaS0]; · iexact HaS0
      isplitl [HaS1]; · iexact HaS1
      isplitl [HaS2]; · iexact HaS2
      isplitl [HaS3]; · iexact HaS3
      isplitl [HaS4]; · iexact HaS4
      isplitl [HaS5]; · iexact HaS5
      iexact HaS6
    isplitl [HaR0 HaR1 HaR2 HaR3 HaR4 HaR5 HaR6]
    · isplitl [HaR0]; · iexact HaR0
      isplitl [HaR1]; · iexact HaR1
      isplitl [HaR2]; · iexact HaR2
      isplitl [HaR3]; · iexact HaR3
      isplitl [HaR4]; · iexact HaR4
      isplitl [HaR5]; · iexact HaR5
      iexact HaR6
    isplitl [HatL]; · iexact HatL
    isplitl [HiS HiR]
    · isplitl [HiS]; · iexact HiS
      iexact HiR
    isplitl [Hch0 Hch1 Hch2 Hch3 Hch4 Hch5 Hch6]
    · isplitl [Hch0]; · iexact Hch0
      isplitl [Hch1]; · iexact Hch1
      isplitl [Hch2]; · iexact Hch2
      isplitl [Hch3]; · iexact Hch3
      isplitl [Hch4]; · iexact Hch4
      isplitl [Hch5]; · iexact Hch5
      iexact Hch6
    isplitl [Hbrest]; · iexact Hbrest
    isplitl [Hl0 Hl1 Hl2 Hl3 Hl4 Hl5 Hl6]
    · isplitl [Hl0]; · iexact Hl0
      isplitl [Hl1]; · iexact Hl1
      isplitl [Hl2]; · iexact Hl2
      isplitl [Hl3]; · iexact Hl3
      isplitl [Hl4]; · iexact Hl4
      isplitl [Hl5]; · iexact Hl5
      iexact Hl6
    isplitl [Hrrest]; · iexact Hrrest
    isplitl [Ha]; · unfold ownDstPts; iexact Ha
    isplitl [HxC]; · iexact HxC
    isplitl [HxLrest]; · iexact HxLrest
    isplitl [HxR]; · iexact HxR
    isplitl [HO]; · iexact HO
    iexact Hout
  rw [wp_ret]; imodintro
  iapply Hk
  iexact Hpost

end Cert.KernelIdealProof

end
-- ==== Proof.KernelIdealLaunch.lean ====
/-
  The launch of the reduce-scatter kernel on the mesh of eight devices: the body lemma handed to the pipeline's body
  obligation; the ghost state of the 128 cells funded from the launch element; the global step, in which every device's
  own and unscoped semaphores at zero become the cells' invariants, each device keeps its positions, and the duty tokens
  are dealt to the devices that pay them (a barrier cell's token for duty d to the device d places before the cell's
  owner, a receive cell's token to the device that copies into it); the launch credit summed over the eight devices;
  and the run of @main, ending in what each window's array holds.
-/
import proofs.«900588_g7700000000000589_dist_rs_v7x_i8_i_m256_n256_f32_1_alg».proof.Proof.KernelIdealBody
import proofs.«900588_g7700000000000589_dist_rs_v7x_i8_i_m256_n256_f32_1_alg».proof.Proof.Gen.KernelIdeal.Points

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Finite conjunctions written out -/

omit [FloatOps F] in
theorem bigSep_W (Φ : Fin cfg0.W → sProp 𝕄) : bigSep Finset.univ Φ = iprop(Φ (0 : Fin 2) ∗ Φ (1 : Fin 2)) := bigSep_W0 Φ

omit [FloatOps F] in
theorem bigSep_peers7 (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ

omit [FloatOps F] in
/-- A device's sixteen cells: the barrier's, the seven send cells, the seven receive cells, the local copy's. -/
theorem bigSep_cells16 (Φ : Fin 16 → sProp 𝕄) :
    bigSep Finset.univ Φ
      = iprop(Φ 0 ∗ (bigSep Finset.univ fun r : Fin 7 => Φ (jS r)) ∗ (bigSep Finset.univ fun r : Fin 7 => Φ (jR r)) ∗ Φ 15) := by
  rw [bigSep_univ_eq_bigSepL [0, 1, 2, 3, 4, 5, 6, 7, 8, 9, 10, 11, 12, 13, 14, 15] (by decide) (by decide) Φ,
    bigSep_peers7 (fun r : Fin 7 => Φ (jS r)), bigSep_peers7 (fun r : Fin 7 => Φ (jR r))]
  show iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15)
    = iprop(Φ 0 ∗ (Φ 1 ∗ Φ 2 ∗ Φ 3 ∗ Φ 4 ∗ Φ 5 ∗ Φ 6 ∗ Φ 7) ∗ (Φ 8 ∗ Φ 9 ∗ Φ 10 ∗ Φ 11 ∗ Φ 12 ∗ Φ 13 ∗ Φ 14) ∗ Φ 15)
  refine BI.Entails.antisymm (show _ ⊢ (_ : sProp 𝕄) from ?_) (show _ ⊢ (_ : sProp 𝕄) from ?_)
  · iintro ⟨H0, H1, H2, H3, H4, H5, H6, H7, H8, H9, H10, H11, H12, H13, H14, H15⟩
    isplitl [H0]; · iexact H0
    isplitl [H1 H2 H3 H4 H5 H6 H7]
    · isplitl [H1]; · iexact H1
      isplitl [H2]; · iexact H2
      isplitl [H3]; · iexact H3
      isplitl [H4]; · iexact H4
      isplitl [H5]; · iexact H5
      isplitl [H6]; · iexact H6
      iexact H7
    isplitl [H8 H9 H10 H11 H12 H13 H14]
    · isplitl [H8]; · iexact H8
      isplitl [H9]; · iexact H9
      isplitl [H10]; · iexact H10
      isplitl [H11]; · iexact H11
      isplitl [H12]; · iexact H12
      isplitl [H13]; · iexact H13
      iexact H14
    iexact H15
  · iintro ⟨H0, ⟨H1, H2, H3, H4, H5, H6, H7⟩, ⟨H8, H9, H10, H11, H12, H13, H14⟩, H15⟩
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iexact H15

omit [FloatOps F] in
/-- A conjunction over a finite type yields the one over any type injected into it. -/
theorem bigSep_univ_inj {I J : Type} [Fintype I] [Fintype J] [DecidableEq J] (f : I → J) (hf : Function.Injective f) (Φ : J → sProp 𝕄) :
    bigSep Finset.univ Φ ⊢ bigSep Finset.univ fun i => Φ (f i) :=
  (bigSep_subset (Finset.subset_univ ((Finset.univ : Finset I).map ⟨f, hf⟩))).trans
    (Entails.of_eq (bigSep_map (s := (Finset.univ : Finset I)) ⟨f, hf⟩ (Φ := Φ)))

theorem off_inj₀ : Function.Injective off := by decide

omit [FloatOps F] in
theorem kcell_zero (c : Dev nD) : kcell (c, 0) = barCell c := rfl
omit [FloatOps F] in
theorem kcell_jS (c : Dev nD) (r : Fin 7) : kcell (c, jS r) = sendCell c (off r) := by
  show ((c : Thread nD τ), csem (jS r)) = _; rw [csem_jS]
omit [FloatOps F] in
theorem kcell_jR (c : Dev nD) (r : Fin 7) : kcell (c, jR r) = recvCell c (off r) := by
  show ((c : Thread nD τ), csem (jR r)) = _; rw [csem_jR]
omit [FloatOps F] in
theorem kcell_last (c : Dev nD) : kcell (c, 15) = locCell c := by
  show ((c : Thread nD τ), csem 15) = _; rw [csem_last]

/-! ## The body obligation -/

theorem fetch_0 (t : Fin cfg0.N) : (cfg0.win (0 : Fin 2)).fetch t = true := fetch0_0 t

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

set_option maxRecDepth 4000 in
/-- The body's precondition as the pipeline states it: the invariant before the point, what is owed, the two staging buffers. -/
def bodyPre' (c : Dev nD) : sProp 𝕄 :=
  iprop(Φ₀ m c ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

set_option maxRecDepth 4000 in
/-- The library's body obligation on device c: the body lemma at the names the launch allocated. -/
theorem body_obligation (c : Dev nD) : BodyObligation (dats (F := F) m ρ 0 c) (defs₀ (F := F)) 𝒱₀ () Set.univ := fun t => by
  rw [fin_N t]
  rw [bigSep_W, bigSep_W]
  simp only [owns_whole_eq]
  show bodyPre' m ρ c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_scratch0) (Memref.isWhole_whole _) (Memref.whole cc0_scratch1) (Memref.isWhole_whole _)
      (Memref.whole cc0_scratch2) (Memref.isWhole_whole _) cc0_scratch3 cc0_scratch4 cc0_scratch5) (fun _ => bodyPost m ρ c)
  unfold bodyPre' Φ₀ start
  iintro ⟨⟨⟨⟨%K, Hg⟩, Hcr, Hid, Hlev⟩, Hscr⟩, Ho, Hx, Hout⟩
  iapply (sound_body m ρ K c fun _ => bodyPost m ρ c)
  unfold bodyPre
  isplitr []
  · isplitl [Hg Hcr Hid Hlev Hscr]
    · isplitl [Hg]; · iexact Hg
      isplitl [Hcr]; · iexact Hcr
      isplitl [Hid]; · iexact Hid
      isplitl [Hlev]; · iexact Hlev
      iexact Hscr
    isplitl [Ho]; · iexact Ho
    isplitl [Hx] <;> iassumption
  · iintro H; iexact H

/-! ## The kernel's own semaphores and the runtime's -/

/-- The kernel's own (scoped) semaphores as the launch indexes them: send 0 to 7, receive 0 to 7, the local copy's. -/
abbrev osem : Fin 17 → SemLoc sig := fun k =>
  if h : k.val < 8 then .dma (sendSem ⟨k.val, h⟩)
  else if h' : k.val < 16 then .dma (recvSem ⟨k.val - 8, by omega⟩)
  else .dma locSem

theorem ownSemFacts : Pipeline.OwnSemFacts cfg0.spec osem := by decide

theorem share_eq (c : Dev nD) (w : Fin cfg0.W) : (dats m ρ 0 c).share w = fullShare := by unfold Dat.share; split <;> rfl

omit [FloatOps F] in
theorem ownSems0_eq (c : Dev nD) : (Pipeline.ownSems0 (Ix := Unit) (Name := ℕ) (U := UU) (Lvl := ℕ) (Val := Elt F) (τ := τ) osem c : sProp 𝕄)
    = iprop(semVal (sendCell c 0) 0 ∗ semVal (sendCell c (off 0)) 0 ∗ semVal (sendCell c (off 1)) 0 ∗ semVal (sendCell c (off 2)) 0 ∗ semVal (sendCell c (off 3)) 0 ∗ semVal (sendCell c (off 4)) 0 ∗ semVal (sendCell c (off 5)) 0 ∗ semVal (sendCell c (off 6)) 0
        ∗ semVal (recvCell c 0) 0 ∗ semVal (recvCell c (off 0)) 0 ∗ semVal (recvCell c (off 1)) 0 ∗ semVal (recvCell c (off 2)) 0 ∗ semVal (recvCell c (off 3)) 0 ∗ semVal (recvCell c (off 4)) 0 ∗ semVal (recvCell c (off 5)) 0 ∗ semVal (recvCell c (off 6)) 0
        ∗ semVal (locCell c) 0) := by
  rw [Pipeline.ownSems0_eq_of_list c osem [0, 1, 2, 3, 4, 5, 6, 7, 8, 9, 10, 11, 12, 13, 14, 15, 16] (by decide) (by decide)]; rfl

omit [FloatOps F] in
/-- The barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
/-- Every semaphore of a device at zero: its sixteen cells' counters, and the two semaphores no copy uses. -/
theorem sems0_eq (c : Dev nD) :
    iprop(Pipeline.ownSems0 (Ix := Unit) (Name := ℕ) (U := UU) (Lvl := ℕ) (Val := Elt F) (τ := τ) osem c ∗ unscopedSems0 c)
      ⊢ (iprop((bigSep Finset.univ fun j : Fin 16 => semVal (kcell (c, j)) 0) ∗ idle c) : sProp 𝕄) := by
  rw [ownSems0_eq, unscopedSems0_eq, bigSep_cells16, bigSep_peers7, bigSep_peers7]
  simp only [kcell_zero, kcell_jS, kcell_jR, kcell_last]
  unfold idle
  iintro ⟨⟨S0, S1, S2, S3, S4, S5, S6, S7, R0, R1, R2, R3, R4, R5, R6, R7, HL⟩, HB⟩
  isplitr [S0 R0]
  · isplitl [HB]; · iexact HB
    isplitl [S1 S2 S3 S4 S5 S6 S7]
    · isplitl [S1]; · iexact S1
      isplitl [S2]; · iexact S2
      isplitl [S3]; · iexact S3
      isplitl [S4]; · iexact S4
      isplitl [S5]; · iexact S5
      isplitl [S6]; · iexact S6
      iexact S7
    isplitl [R1 R2 R3 R4 R5 R6 R7]
    · isplitl [R1]; · iexact R1
      isplitl [R2]; · iexact R2
      isplitl [R3]; · iexact R3
      isplitl [R4]; · iexact R4
      isplitl [R5]; · iexact R5
      isplitl [R6]; · iexact R6
      iexact R7
    iexact HL
  · isplitl [S0] <;> iassumption

/-! ## The cells and the tokens the launch element holds -/

theorem csem_injective : Function.Injective csem := by decide

theorem kcell_injective : Function.Injective (kcell : Dev nD × Fin 16 → GSem nD τ sig) := by
  rintro ⟨c, j⟩ ⟨c', j'⟩ h
  have h1 : c = c' := by have := congrArg (fun g : GSem nD τ sig => g.1.1) h; exact this
  subst h1
  have h2 : csem j = csem j' := congrArg Prod.snd h
  rw [csem_injective h2]

/-- The 128 cells of the protocol. -/
def protoCells : Finset (GSem nD τ sig) := Finset.univ.map ⟨kcell, kcell_injective⟩

/-- One token per cell and duty name; the schedule's duties are among them. -/
abbrev tokOf (x : (Dev nD × Fin 16) × Fin 8) : GSem nD τ sig × ℕ × Fin 8 := (kcell x.1, 0, x.2)
theorem tokOf_injective : Function.Injective tokOf := by
  rintro ⟨ck, d⟩ ⟨ck', d'⟩ h
  have h1 : ck = ck' := kcell_injective (congrArg (fun x : GSem nD τ sig × ℕ × Fin 8 => x.1) h)
  have h2 : d = d' := congrArg (fun x : GSem nD τ sig × ℕ × Fin 8 => x.2.2) h
  rw [h1, h2]
def protoToks : Finset (GSem nD τ sig × ℕ × Fin 8) := Finset.univ.map ⟨tokOf, tokOf_injective⟩

def u₀ : UU :=
  (initOf (Pipeline.cells cfgs cellOf_inj) (Pipeline.launchToks cfgs cellOf_inj), initOf protoCells protoToks)

/-- The duty tokens of device c's own cells: its barrier's seven, each receive cell's, each send cell's, the local copy's. -/
def toks (c : Dev nD) : sProp 𝕄 :=
  iprop((bigSep Finset.univ fun r : Fin 7 => dutyTok ER (barCell c) 0 (off r))
    ∗ (bigSep Finset.univ fun r : Fin 7 => dutyTok ER (recvCell c (off r)) 0 (0 : Fin 8))
    ∗ (bigSep Finset.univ fun r : Fin 7 => dutyTok ER (sendCell c (off r)) 0 (0 : Fin 8))
    ∗ dutyTok ER (locCell c) 0 (0 : Fin 8))

/-- What the launch element deals device c (the theorem's G). -/
def G (c : Dev nD) : sProp 𝕄 :=
  iprop((bigSep Finset.univ fun j : Fin 16 => roundState ER (rsRd m) (kcell (c, j)) 0)
    ∗ (bigSep Finset.univ fun j : Fin 16 => iprop(atPos ER (kcell (c, j)) 0 ∅ 0 ∗ reached ER (kcell (c, j)) 0)) ∗ toks c)

/-- What the global step makes of it (G'). -/
def G' (c : Dev nD) : sProp 𝕄 := iprop((∃ K, ghost m K c) ∗ idle c)

omit [FloatOps F] in
theorem toks_of_all (c : Dev nD) :
    (bigSep Finset.univ fun j : Fin 16 => bigSep Finset.univ fun d : Fin 8 => (dutyTok ER (kcell (c, j)) 0 d : sProp 𝕄)) ⊢ toks c := by
  rw [bigSep_cells16]
  simp only [kcell_zero, kcell_jS, kcell_jR, kcell_last]
  unfold toks
  have hR : (bigSep Finset.univ fun r : Fin 7 => bigSep Finset.univ fun d : Fin 8 => (dutyTok ER (recvCell c (off r)) 0 d : sProp 𝕄))
      ⊢ bigSep Finset.univ fun r : Fin 7 => (dutyTok ER (recvCell c (off r)) 0 (0 : Fin 8) : sProp 𝕄) :=
    bigSep_mono fun r _ => bigSep_elim (Finset.mem_univ (0 : Fin 8))
  have hS : (bigSep Finset.univ fun r : Fin 7 => bigSep Finset.univ fun d : Fin 8 => (dutyTok ER (sendCell c (off r)) 0 d : sProp 𝕄))
      ⊢ bigSep Finset.univ fun r : Fin 7 => (dutyTok ER (sendCell c (off r)) 0 (0 : Fin 8) : sProp 𝕄) :=
    bigSep_mono fun r _ => bigSep_elim (Finset.mem_univ (0 : Fin 8))
  have hL : (bigSep Finset.univ fun d : Fin 8 => (dutyTok ER (locCell c) 0 d : sProp 𝕄)) ⊢ (dutyTok ER (locCell c) 0 (0 : Fin 8) : sProp 𝕄) :=
    bigSep_elim (Finset.mem_univ (0 : Fin 8))
  iintro ⟨HB, HS, HR, HL⟩
  isplitl [HB]
  · iapply (bigSep_univ_inj off off_inj₀ fun d : Fin 8 => (dutyTok ER (barCell c) 0 d : sProp 𝕄)); iexact HB
  isplitl [HR]
  · iapply hR; iexact HR
  isplitl [HS]
  · iapply hS; iexact HS
  iapply hL; iexact HL

theorem fund_proto : BI.own (ER (initOf protoCells protoToks)) ⊢ (|==> bigSep Finset.univ (G m) : sProp 𝕄) := by
  have hX (Φ : GSem nD τ sig → sProp 𝕄) : bigSep protoCells Φ = bigSep Finset.univ fun c : Dev nD => bigSep Finset.univ fun j : Fin 16 => Φ (kcell (c, j)) := by
    unfold protoCells; rw [bigSep_map, bigSep_univ_prod]; rfl
  have hT : bigSep protoToks (fun x => (dutyTok ER x.1 x.2.1 x.2.2 : sProp 𝕄)) ⊢ bigSep Finset.univ fun c : Dev nD => toks c := by
    unfold protoToks; rw [bigSep_map, bigSep_univ_prod, bigSep_univ_prod]
    exact bigSep_mono fun c _ => toks_of_all c
  iintro HX
  imod (Rounds.fund ER (rsRd m) protoCells protoToks) $$ HX with ⟨Hst, Hr, Hat, Htok⟩
  imodintro
  ihave Hst' := (Entails.of_eq (hX fun g => roundState ER (rsRd m) g 0)) $$ Hst
  ihave Hat' := (Entails.of_eq (hX fun g => atPos ER g 0 ∅ 0)) $$ Hat
  ihave Hr' := (Entails.of_eq (hX fun g => reached ER g 0)) $$ Hr
  ihave Htok' := hT $$ Htok
  unfold G; simp only [bigSep_sep']
  isplitl [Hst']; · iexact Hst'
  isplitl [Hat' Hr']
  · isplitl [Hat'] <;> iassumption
  iexact Htok'

/-! ## The global step -/

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun j : Fin 16 => iprop(∃ κ : ℕ, cellInv ER (rsRd m) κ (kcell (c, j))))
          ∗ (bigSep Finset.univ fun j : Fin 16 => iprop(atPos ER (kcell (c, j)) 0 ∅ 0 ∗ reached ER (kcell (c, j)) 0)) ∗ toks c ∗ idle c) := by
  unfold G
  iintro ⟨Hos, Hus, Hst, Hat, Htok⟩
  ihave Hv := (sems0_eq (F := F) c) $$ [Hos Hus]
  · isplitl [Hos] <;> iassumption
  icases Hv with ⟨Hv, Hidle⟩
  imod (show iprop((bigSep Finset.univ fun j : Fin 16 => semVal (kcell (c, j)) 0) ∗ bigSep Finset.univ fun j : Fin 16 => roundState ER (rsRd m) (kcell (c, j)) 0)
      ⊢ (|={Set.univ}=> bigSep Finset.univ fun j : Fin 16 => iprop(∃ κ : ℕ, cellInv ER (rsRd m) κ (kcell (c, j))) : sProp 𝕄) from by
        rw [← bigSep_sep']
        exact (bigSep_mono fun j _ => (Rounds.body_intro ER (rsRd m) (kcell (c, j))).trans inv_alloc).trans (bigSep_fupd _ _)) $$ [Hv Hst] with Hinv
  · isplitl [Hv] <;> iassumption
  imodintro
  isplitl [Hinv]; · iexact Hinv
  isplitl [Hat]; · iexact Hat
  isplitl [Htok]; · iexact Htok
  iexact Hidle

theorem ghost_intro (K : Dev nD × Fin 16 → ℕ) (c : Dev nD) : iprop(records m K ∗ positions c ∗ payToks c ∗ idle c) ⊢ G' m c := by
  unfold G' ghost
  iintro ⟨#HR, Hp, Ht, Hi⟩
  isplitr [Hi]
  · iexists K
    isplitr; · iexact HR
    isplitl [Hp] <;> iassumption
  · iexact Hi

/-- The device k places after c, as a bijection of the devices; the reversal of the peer table. -/
def shiftE (k : Fin 8) : Dev nD ≃ Dev nD := ⟨fun c => shift c k, fun c => shift c (opp k), fun c => shift_opp c k, fun c => shift_opp' c k⟩
def revE : Fin 7 ≃ Fin 7 := ⟨rev, rev, rev_rev, rev_rev⟩

omit [FloatOps F] in
/-- The tokens dealt around: a barrier cell's token for duty off r goes to the device off r places before the cell's owner,
    a receive cell's token to the device that copies into it; send and local-copy tokens stay. -/
theorem toks_around : (bigSep Finset.univ fun c : Dev nD => (toks c : sProp 𝕄)) ⊢ bigSep Finset.univ fun c : Dev nD => payToks c := by
  have h1 : (bigSep Finset.univ fun c : Dev nD => bigSep Finset.univ fun r : Fin 7 => (dutyTok ER (barCell c) 0 (off r) : sProp 𝕄))
      = bigSep Finset.univ fun c : Dev nD => bigSep Finset.univ fun r : Fin 7 => dutyTok ER (barCell (shift c (off r))) 0 (off r) :=
    (bigSep_univ_comm (fun (c : Dev nD) (r : Fin 7) => (dutyTok ER (barCell c) 0 (off r) : sProp 𝕄))).trans <|
    (bigSep_congr fun (r : Fin 7) _ => bigSep_univ_equiv (shiftE (off r)) (fun c : Dev nD => (dutyTok ER (barCell c) 0 (off r) : sProp 𝕄))).trans <|
    (bigSep_univ_comm (fun (r : Fin 7) (c : Dev nD) => (dutyTok ER (barCell (shift c (off r))) 0 (off r) : sProp 𝕄)))
  have h2 : (bigSep Finset.univ fun c : Dev nD => bigSep Finset.univ fun r : Fin 7 => (dutyTok ER (recvCell c (off r)) 0 (0 : Fin 8) : sProp 𝕄))
      = bigSep Finset.univ fun c : Dev nD => bigSep Finset.univ fun r : Fin 7 => dutyTok ER (recvCell (shift c (off r)) (off (rev r))) 0 (0 : Fin 8) :=
    (bigSep_congr fun (c : Dev nD) _ => bigSep_univ_equiv revE (fun r : Fin 7 => (dutyTok ER (recvCell c (off r)) 0 (0 : Fin 8) : sProp 𝕄))).trans <|
    (bigSep_univ_comm (fun (c : Dev nD) (r : Fin 7) => (dutyTok ER (recvCell c (off (rev r))) 0 (0 : Fin 8) : sProp 𝕄))).trans <|
    (bigSep_congr fun (r : Fin 7) _ => bigSep_univ_equiv (shiftE (off r)) (fun c : Dev nD => (dutyTok ER (recvCell c (off (rev r))) 0 (0 : Fin 8) : sProp 𝕄))).trans <|
    (bigSep_univ_comm (fun (r : Fin 7) (c : Dev nD) => (dutyTok ER (recvCell (shift c (off r)) (off (rev r))) 0 (0 : Fin 8) : sProp 𝕄)))
  refine Entails.of_eq ?_
  unfold toks payToks
  rw [bigSep_sep', bigSep_sep', bigSep_sep', bigSep_sep', bigSep_sep', bigSep_sep', h1, h2]

omit [FloatOps F] in
/-- A device's positions, from those of its sixteen cells listed. -/
theorem positions_intro (c : Dev nD) :
    (bigSep Finset.univ fun j : Fin 16 => (atPos ER (kcell (c, j)) 0 ∅ 0 : sProp 𝕄)) ⊢ positions c := by
  refine Entails.of_eq ?_
  rw [bigSep_cells16]; simp only [kcell_zero, kcell_jS, kcell_jR, kcell_last]; rfl

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun j : Fin 16 => iprop(∃ κ : ℕ, cellInv ER (rsRd m) κ (kcell (c, j))))
          ∗ (bigSep Finset.univ fun j : Fin 16 => iprop(atPos ER (kcell (c, j)) 0 ∅ 0 ∗ reached ER (kcell (c, j)) 0)) ∗ toks c ∗ idle c) : sProp 𝕄)
      ⊢ bigSep Finset.univ (G' m) := by
  rw [bigSep_sep', bigSep_sep', bigSep_sep', ← bigSep_univ_prod (fun ck : Dev nD × Fin 16 => iprop(∃ κ : ℕ, cellInv ER (rsRd m) κ (kcell ck))),
    bigSep_congr (s := Finset.univ) (fun (c : Dev nD) _ => bigSep_sep' Finset.univ (fun j : Fin 16 => (atPos ER (kcell (c, j)) 0 ∅ 0 : sProp 𝕄)) (fun j => reached ER (kcell (c, j)) 0)),
    bigSep_sep', ← bigSep_univ_prod (fun ck : Dev nD × Fin 16 => (reached ER (kcell ck) 0 : sProp 𝕄))]
  have hpos : (bigSep Finset.univ fun c : Dev nD => bigSep Finset.univ fun j : Fin 16 => (atPos ER (kcell (c, j)) 0 ∅ 0 : sProp 𝕄))
      ⊢ bigSep Finset.univ fun c : Dev nD => (positions c : sProp 𝕄) :=
    bigSep_mono fun c _ => positions_intro c
  iintro ⟨HI, ⟨Hat, #HR⟩, Htok, Hidle⟩
  ihave HK := (BI.bigSep_exists_pi Finset.univ (fun (ck : Dev nD × Fin 16) (κ : ℕ) => (cellInv ER (rsRd m) κ (kcell ck) : sProp 𝕄))) $$ HI
  icases HK with ⟨%K, #HI⟩
  ihave Htk := (toks_around (F := F)) $$ Htok
  iapply (bigSep_with_persistent (R := records m K) fun c _ => ghost_intro m K c)
  isplitr
  · unfold records; isplitl; · iexact HI
    iexact HR
  · rw [bigSep_sep', bigSep_sep']
    isplitl [Hat]
    · iapply hpos; iexact Hat
    isplitl [Htk]; · iexact Htk
    iexact Hidle

/-- The global step: own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

omit [FloatOps F] in
/-- The devices' signals number off r, summed, are one unit on every barrier cell. -/
theorem sig_cred (c : Dev nD) (r : Fin 7) :
    (Pipeline.launchCred (fun d => sigTally d r) c : sProp 𝕄) ⊢ cred (tallyAt (barCell c) () 1) :=
  Pipeline.launchCred_tallyAt (.reg barS) (fun d => shift d (off r)) (fun d => shift d (opp (off r)))
    (fun d => shift_opp' d (off r)) (fun d => shift_opp d (off r)) () 1 c

omit [FloatOps F] in
/-- The devices' copies number r, summed, are one copy's credit on every receive cell off s, s the reversal of r. -/
theorem snd_cred (c : Dev nD) (r s : Fin 7) (h : rev r = s) :
    (Pipeline.launchCred (fun d => sndTally d r) c : sProp 𝕄) ⊢ cred (tallyAt (recvCell c (off s)) () NB) :=
  h ▸ Pipeline.launchCred_tallyAt (.dma (recvSem (off (rev r)))) (fun d => shift d (off r)) (fun d => shift d (opp (off r)))
    (fun d => shift_opp' d (off r)) (fun d => shift_opp d (off r)) () NB c

omit [FloatOps F] in
theorem cred_tallyAt_add (g : GSem nD τ sig) (a b n : ℕ) (h : a + b = n) :
    iprop(cred (tallyAt g () a) ∗ cred (tallyAt g () b)) ⊢ (cred (tallyAt g () n) : sProp 𝕄) := by
  subst h; rw [← tallyAt_add]; exact (cred_add _ _).2

omit [FloatOps F] in
theorem creds_intro (c : Dev nD) : (Pipeline.launchCred O₀ c : sProp 𝕄) ⊢ creds c := by
  have hO : (O₀ : Dev nD → CellTallies nD τ sig Unit) = fun d =>
      0 + sndTally d 5 + sndTally d 4 + sndTally d 2 + sndTally d 1 + sndTally d 6 + sndTally d 3 + sndTally d 0
        + sigTally d 6 + sigTally d 5 + sigTally d 4 + sigTally d 3 + sigTally d 2 + sigTally d 1 + sigTally d 0 := rfl
  rw [hO]
  simp only [Pipeline.launchCred_add, Pipeline.launchCred_zero]
  iintro ⟨⟨⟨⟨⟨⟨⟨⟨⟨⟨⟨⟨⟨⟨-, V5⟩, V4⟩, V2⟩, V1⟩, V6⟩, V3⟩, V0⟩, G6⟩, G5⟩, G4⟩, G3⟩, G2⟩, G1⟩, G0⟩
  ihave B0 := (sig_cred (F := F) c 0) $$ G0
  ihave B1 := (sig_cred (F := F) c 1) $$ G1
  ihave B2 := (sig_cred (F := F) c 2) $$ G2
  ihave B3 := (sig_cred (F := F) c 3) $$ G3
  ihave B4 := (sig_cred (F := F) c 4) $$ G4
  ihave B5 := (sig_cred (F := F) c 5) $$ G5
  ihave B6 := (sig_cred (F := F) c 6) $$ G6
  ihave B01 := (cred_tallyAt_add (F := F) (barCell c) 1 1 2 rfl) $$ [B0 B1]
  · isplitl [B0] <;> iassumption
  ihave B02 := (cred_tallyAt_add (F := F) (barCell c) 2 1 3 rfl) $$ [B01 B2]
  · isplitl [B01] <;> iassumption
  ihave B03 := (cred_tallyAt_add (F := F) (barCell c) 3 1 4 rfl) $$ [B02 B3]
  · isplitl [B02] <;> iassumption
  ihave B04 := (cred_tallyAt_add (F := F) (barCell c) 4 1 5 rfl) $$ [B03 B4]
  · isplitl [B03] <;> iassumption
  ihave B05 := (cred_tallyAt_add (F := F) (barCell c) 5 1 6 rfl) $$ [B04 B5]
  · isplitl [B04] <;> iassumption
  ihave B06 := (cred_tallyAt_add (F := F) (barCell c) 6 1 7 rfl) $$ [B05 B6]
  · isplitl [B05] <;> iassumption
  ihave W0 := (snd_cred (F := F) c 6 0 rfl) $$ V6
  ihave W1 := (snd_cred (F := F) c 5 1 rfl) $$ V5
  ihave W2 := (snd_cred (F := F) c 4 2 rfl) $$ V4
  ihave W3 := (snd_cred (F := F) c 3 3 rfl) $$ V3
  ihave W4 := (snd_cred (F := F) c 2 4 rfl) $$ V2
  ihave W5 := (snd_cred (F := F) c 1 5 rfl) $$ V1
  ihave W6 := (snd_cred (F := F) c 0 6 rfl) $$ V0
  unfold creds
  rw [bigSep_peers7]
  isplitl [B06]; · iexact B06
  isplitl [W0]; · iexact W0
  isplitl [W1]; · iexact W1
  isplitl [W2]; · iexact W2
  isplitl [W3]; · iexact W3
  isplitl [W4]; · iexact W4
  isplitl [W5]; · iexact W5
  iexact W6

/-! ## The launch theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds_intro (F := F) c) $$ Hcr
  unfold G'
  icases HG with ⟨HG, Hidle⟩
  imodintro
  unfold start
  isplitl
  · isplitl [HG]; · iexact HG
    isplitl [Hc]; · iexact Hc
    isplitl [Hidle]; · iexact Hidle
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ scr
  iintro ⟨Hs, -, Hr⟩
  isplitl [Hs]; · iexact Hs
  iexact Hr

theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₁ c from rfl, scopedRest0_eq, ownSems0_eq]
  unfold Φ₁ scr ownZero idle
  rw [bigSep_peers7, bigSep_peers7]
  iintro ⟨Hr, ⟨S0, R0⟩, ⟨S1, S2, S3, S4, S5, S6, S7⟩, ⟨R1, R2, R3, R4, R5, R6, R7⟩, HL⟩
  isplitr; · iempintro
  isplitr [Hr]
  · isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    isplitl [R0]; · iexact R0
    isplitl [R1]; · iexact R1
    isplitl [R2]; · iexact R2
    isplitl [R3]; · iexact R3
    isplitl [R4]; · iexact R4
    isplitl [R5]; · iexact R5
    isplitl [R6]; · iexact R6
    isplitl [R7]; · iexact R7
    iexact HL
  · iexact Hr

theorem waits (c : Dev nD) : (levAts L lv : sProp 𝕄) ⊢ Pipeline.cellsWaits cfgs (dats m ρ) () 0 c :=
  Pipeline.cellsWaits_intro cfgs (dats m ρ) () 0 c fun w s t => by
    rcases t with ⟨_ | _, ht⟩
    · exact mayWait_low c _ (by fin_cases w <;> fin_cases s <;> rfl) [0, 1, 2, 3, 4, 5, 6]
    · show _ ⊢ MayWait _ _ _ 0
      rw [MayWait_zero]; iintro -; iempintro

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- At the compiled mesh of eight devices, for any float values, from any memory with zero counters: every weakly fair
    execution of @main terminates, and every final state has each device's arrays at the computed contents. -/
theorem run_main : θ_run defs (onTc (τ := τ) (main (F := F))) (s₀ m ρ) (QC m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_proto m) $$ HX with HG
      imodintro
      isplitl [HP] <;> iassumption)
    (hglob := glob m)
    (hA := fun _ _ => rfl) (hpf := fun _ k => k.elim0)
    (X := start m) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro
      isplitr; · ipureintro; trivial
      iexact HSI)
    (hQ := fun _ h c w => (h c).1 w)

/-- The x array after the run holds what it held. -/
theorem finalA_x (c : Dev nD) : finalA m ρ c (0 : Fin 2) = (s₀ m ρ).mem (win0_0.arr.view.loc (c : Thread nD τ)) :=
  (dats (F := F) m ρ 0 c).arrAt_in (0 : Fin 2) rfl _

/-- The result array after the run holds the accumulated sum: the one write-back writes the whole array. -/
theorem finalA_out (c : Dev nD) : finalA m ρ c (1 : Fin 2) = outAt m c := by
  have h := (dats (F := F) m ρ 0 c).arrAt_succ (1 : Fin 2) t₀
  rw [flush0_1 t₀, if_pos rfl] at h
  refine (show finalA m ρ c (1 : Fin 2) = (dats m ρ 0 c).arrAt (1 : Fin 2) (t₀.val + 1) from rfl).trans (h.trans ?_)
  exact Memref.write_access_unit_zero_univ (Elt F) main_v1 (funext fun a => Nat.zero_mul _) _ _ _

/-- info: 'Cert.KernelIdealProof.run_main' depends on axioms: [propext, Classical.choice, Quot.sound] -/
#guard_msgs in #print axioms run_main

end Cert.KernelIdealProof

end
-- ==== Proof.KernelSpec.lean ====
/-
  The contents the reduce-scatter kernel moves, named once for every module of the proof: device `c`'s
  staged block of `x`, its bf16 image, the chunk views a copy reads and the slot views a copy lands in,
  what each copy delivers, and the accumulated result — the own chunk plus the seven received chunks,
  added in the order of the receive slots.
-/
import proofs.«900588_g7700000000000589_dist_rs_v7x_i8_i_m256_n256_f32_1_alg».proof.Proof.Gen.Kernel
import proofs.«900588_g7700000000000589_dist_rs_v7x_i8_i_m256_n256_f32_1_alg».proof.Proof.Gen.Kernel.Skeleton

noncomputable section

namespace Cert.KernelProof

open Cert.Kernel Cert.Kernel.Gen
open Idealize.ShloMosaic Idealize.ShloMosaic.TcCoe Idealize.SL.Sem

variable {F : FTy → Type} [FloatOps F]

/-! ## Positions on the ring of eight devices -/

/-- The device `k` places after `c`. -/
def shift (c : Dev nD) (k : Fin 8) : Dev nD := ⟨(c.val + k.val) % 8, Nat.mod_lt _ (by decide)⟩
/-- The offset that undoes `k`: `8 - k` modulo 8. -/
def opp (k : Fin 8) : Fin 8 := ⟨(8 - k.val) % 8, Nat.mod_lt _ (by decide)⟩

theorem shift_opp (c : Dev nD) (k : Fin 8) : shift (shift c k) (opp k) = c := by revert c k; decide
theorem shift_opp' (c : Dev nD) (k : Fin 8) : shift (shift c (opp k)) k = c := by revert c k; decide
theorem opp_opp (k : Fin 8) : opp (opp k) = k := by revert k; decide
theorem shift_zero (c : Dev nD) : shift c 0 = c := by revert c; decide
theorem shift_injective (c : Dev nD) : Function.Injective (shift c) := by revert c; decide
theorem shift_left_injective (k : Fin 8) : Function.Injective (fun c => shift c k) := by revert k; decide
theorem opp_ne_zero {k : Fin 8} (h : k ≠ 0) : opp k ≠ 0 := by revert k; decide

/-- The offset `1 + r` of the `r`-th of the seven peers. -/
def off (r : Fin 7) : Fin 8 := ⟨1 + r.val, by omega⟩
theorem off_ne_zero (r : Fin 7) : off r ≠ 0 := by revert r; decide
/-- The row of the peer table whose offset undoes `off r`. -/
def rev (r : Fin 7) : Fin 7 := ⟨6 - r.val, by omega⟩
theorem off_rev (r : Fin 7) : off (rev r) = opp (off r) := by revert r; decide
theorem rev_rev (r : Fin 7) : rev (rev r) = r := by revert r; decide

/-! ## The buffers and their views -/

abbrev xM : Memref sig .tc .vmem S1x256x2048 .f32 := Memref.whole cc0_stg0_0
abbrev oM : Memref sig .tc .vmem S256x256 .f32 := Memref.whole cc0_stg1_0
/-- The bf16 image of the staged block. -/
abbrev bM : Memref sig .tc .vmem S256x2048 .bf16 := Memref.whole cc0_scratch0
/-- The eight receive slots. -/
abbrev rM : Memref sig .tc .vmem S8x256x256 .bf16 := Memref.whole cc0_scratch1
/-- The device's own chunk, copied aside. -/
abbrev aM : Memref sig .tc .vmem S256x256 .f32 := Memref.whole cc0_scratch2

abbrev rX : Rect S1x256x2048 := Rect.unit (s := S1x256x2048) ![0, 0, 0] S1x256x2048.size inb_S1x256x2048_S1x256x2048_0_0_0
abbrev rB : Rect S256x2048 := Rect.unit (s := S256x2048) ![0, 0] S256x2048.size inb_S256x2048_S256x2048_0_0
abbrev rO : Rect S256x256 := Rect.unit (s := S256x256) ![0, 0] S256x256.size inb_S256x256_S256x256_0_0

/-- Columns `[256 c, 256 c + 256)` of the staged block: device `c`'s own chunk. -/
abbrev xChunk (c : Dev nD) : Memref sig .tc .vmem S256x256 .f32 :=
  (xM.slice (Rect.unit (s := S1x256x2048) (k0_off1 c) S1x256x256.size (k0_off1_inb c)) (fun _ => rfl)).squeeze S256x256 squeezes_S1x256x256_S256x256

/-- Columns `[256 p, 256 p + 256)` of the bf16 image, `p` the device `1 + r` places after `c`: the chunk `c` sends there. -/
abbrev bChunk (c : Dev nD) (r : Fin 7) : Memref sig .tc .vmem S256x256 .bf16 :=
  bM.slice (Rect.unit (s := S256x2048) (k0_off2 c (BitVec.ofNat 32 (1 + r.val))) S256x256.size (k0_off2_inb c r)) (fun _ => rfl)

theorem slot_inb (s : Fin 8) : ∀ a, (![s.val, 0, 0] : Fin 3 → Nat) a + S1x256x256.size a ≤ S8x256x256.size a := by
  revert s; decide
/-- Receive slot `s`, as a box of the slot buffer; -/
abbrev slotRect (s : Fin 8) : Rect S8x256x256 := Rect.unit (s := S8x256x256) ![s.val, 0, 0] S1x256x256.size (slot_inb s)
/-- and as the view a copy lands in. -/
abbrev slot (s : Fin 8) : Memref sig .tc .vmem S256x256 .bf16 :=
  (rM.slice (slotRect s) (fun _ => rfl)).squeeze S256x256 squeezes_S1x256x256_S256x256

/-! ## Contents -/

variable (m : (ℓ : Loc nD τ sig) → Buf (Elt F) ℓ)

/-- Device `c`'s block of `x`, as staged. -/
def xstg (c : Dev nD) : (cc0_stg0_0 : Ref sig .tc).ty.Contents (Elt F) :=
  (win0_0.blk (0 : Fin 1)).view.read (Elt F) (m ((c : Thread nD τ).loc main_arg0))

/-- Its bf16 image: what the kernel stores before it sends. -/
def xbBuf (c : Dev nD) : (cc0_scratch0 : Ref sig .tc).ty.Contents (Elt F) := k0_pay1 (xstg m c)

/-- The device's own chunk, as the local copy delivers it. -/
def ownVal (c : Dev nD) : (cc0_scratch2 : Ref sig .tc).ty.Contents (Elt F) := (xChunk c).view.read (Elt F) (xstg m c)

/-- What lands in receive slot `off r` of device `c`: chunk `c` of the image of the device `off r` places after it
    (which sends it with its copy number `rev r`). -/
def landVal (c : Dev nD) (r : Fin 7) : S256x256.Idx → Elt F .bf16 :=
  (bChunk (shift c (off r)) (rev r)).view.read (Elt F) (xbBuf m (shift c (off r)))

/-- The slot buffer with that landed in slot `off r` (elsewhere as launched: only the slot's elements are ever held at it). -/
def landedBuf (c : Dev nD) (r : Fin 7) : (cc0_scratch1 : Ref sig .tc).ty.Contents (Elt F) :=
  (slot (off r)).view.write (Elt F) (m ((c : Thread nD τ).loc cc0_scratch1)) (landVal m c r) Finset.univ

/-- Slot `off r` read back as the kernel reads it. -/
def landRead (c : Dev nD) (r : Fin 7) : Vec F S1x256x256 .bf16 :=
  rM.view.readAt (Elt F) (slotRect (off r)).toLoadRect (landedBuf m c r)

/-- The kernel's result on device `c`: its own chunk plus the received ones, slot 1 to slot 7. -/
def outAt (c : Dev nD) : (cc0_stg1_0 : Ref sig .tc).ty.Contents (Elt F) :=
  k0_pay5 (k0_pay4 (k0_pay3 (k0_pay2 (ownVal m c) (landRead m c 0) (landRead m c 1)) (landRead m c 2) (landRead m c 3))
    (landRead m c 4) (landRead m c 5)) (landRead m c 6)

end Cert.KernelProof

end
-- ==== Proof.KernelProto.lean ====
/-
  The cross-device protocol of the reduce-scatter kernel under the rounds discipline.

  Every device has sixteen cells. Its barrier cell (the runtime's barrier semaphore) has one round of seven duties of
  one unit: duty `off r` is paid by the device `off r` places BEFORE it, whose signal hands over that device's receive
  slot `off r` and the fact that its receive cell `off r` is at round 0 — what a copy into that slot needs. Each of its
  seven receive cells has one duty: the copy from the device `off r` places AFTER it, which lands that device's image of
  this device's column chunk in slot `off r`. Each of its seven send cells has one duty, paid by its own copy, which
  gives the sent chunk of the image back. The cell of the local copy has one duty, paid by the copy itself, which
  delivers the own chunk and gives back the share of the staged block it read.
-/
import proofs.«900588_g7700000000000589_dist_rs_v7x_i8_i_m256_n256_f32_1_alg».proof.Proof.KernelSpec
import proofs.«900588_g7700000000000589_dist_rs_v7x_i8_i_m256_n256_f32_1_alg».proof.Proof.Gen.Kernel.Launch
import Idealize.ShloMosaic.Lib.Pipeline.Launch
import Idealize.ShloMosaic.Lib.Pipeline.Kit
import Idealize.ShloMosaic.Lib.Tactic

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's copy (duties `Unit`) and the protocol's (duties `Fin 8`) -/

abbrev UB : Type := URounds (GSem nD τ sig) (Fin 8)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## The semaphores and the cells -/

/-- The runtime's barrier semaphore of collective id 0 (unscoped). -/
abbrev barS : Sem sig := (SemArray.scalar (sig.barrier 0 rfl) : Sems sig S_).sem
/-- Send semaphore `k`, receive semaphore `s` (scoped scratch, eight each; index 0 of either is never used), the local copy's. -/
def sendSem (k : Fin 8) : DmaSem sig := (⟨2 + k.val, by have := k.isLt; omega⟩ : Fin 19)
def recvSem (s : Fin 8) : DmaSem sig := (⟨10 + s.val, by have := s.isLt; omega⟩ : Fin 19)
abbrev locSem : DmaSem sig := (18 : Fin 19)

theorem sendSem_val (k : Fin 8) : (sendSem k).val = 2 + k.val := rfl
theorem recvSem_val (s : Fin 8) : (recvSem s).val = 10 + s.val := rfl

abbrev barCell (c : Dev nD) : GSem nD τ sig := ((c : Thread nD τ), .reg barS)
abbrev sendCell (c : Dev nD) (k : Fin 8) : GSem nD τ sig := ((c : Thread nD τ), .dma (sendSem k))
abbrev recvCell (c : Dev nD) (s : Fin 8) : GSem nD τ sig := ((c : Thread nD τ), .dma (recvSem s))
abbrev locCell (c : Dev nD) : GSem nD τ sig := ((c : Thread nD τ), .dma locSem)

/-- What a cell is for. -/
inductive Role where
  | bar | send (r : Fin 7) | recv (r : Fin 7) | loc | none
deriving DecidableEq

def role : SemLoc sig → Role
  | .reg _ => .bar
  | .dma q =>
    if h : 3 ≤ q.val ∧ q.val < 10 then .send ⟨q.val - 3, by omega⟩
    else if h' : 11 ≤ q.val ∧ q.val < 18 then .recv ⟨q.val - 11, by omega⟩
    else if q.val = 18 then .loc else .none

theorem role_bar (s : Sem sig) : role (.reg s) = .bar := rfl
theorem role_send (r : Fin 7) : role (.dma (sendSem (off r))) = .send r := by revert r; decide
theorem role_recv (r : Fin 7) : role (.dma (recvSem (off r))) = .recv r := by revert r; decide
theorem role_loc : role (.dma locSem) = .loc := by decide

/-- The credit of one chunk's copy (a [256, 256] bf16 view), and of the local copy (a [256, 256] f32 view). -/
abbrev NB : ℕ := (slot 1).view.dmaCredit
abbrev NL : ℕ := (aM : Memref sig .tc .vmem S256x256 .f32).view.dmaCredit
theorem NB_pos : 0 < NB := View.dmaCredit_pos _ (by decide)
theorem NL_pos : 0 < NL := View.dmaCredit_pos _ (by decide)

/-! ## Points-to shorthands -/

/-- Receive slot `s` of device `c`, held by its own elements at contents `f`. -/
def slotPts (c : Dev nD) (s : Fin 8) (f : Buf (Elt F) ((slot s).view.loc (c : Thread nD τ))) : sProp 𝕄 :=
  (slot s).view.loc (c : Thread nD τ) ↦[(slot s).view.set]{fullShare} f
/-- The chunk of its image device `c` sends with copy `r`, held by its own elements. -/
def chunkPts (c : Dev nD) (r : Fin 7) : sProp 𝕄 :=
  (bChunk c r).view.loc (c : Thread nD τ) ↦[(bChunk c r).view.set]{fullShare} xbBuf m c
/-- The own chunk of the staged block, at the share the local copy reads it with. -/
def ownSrcPts (c : Dev nD) : sProp 𝕄 :=
  (xChunk c).view.loc (c : Thread nD τ) ↦[(xChunk c).view.set]{fullShare.left} xstg m c
/-- The buffer the local copy fills. -/
def ownDstPts (c : Dev nD) (f : Buf (Elt F) ((aM : Memref sig .tc .vmem S256x256 .f32).view.loc (c : Thread nD τ))) : sProp 𝕄 :=
  (aM : Memref sig .tc .vmem S256x256 .f32).view.loc (c : Thread nD τ) ↦[(aM : Memref sig .tc .vmem S256x256 .f32).view.set]{fullShare} f

omit [FloatOps F] in
instance slotPts_storable (c : Dev nD) (s : Fin 8) (f) : BI.Storable (upEmb : UEmb _ 𝕄) (slotPts (F := F) c s f) := by unfold slotPts; infer_instance
omit [FloatOps F] in
instance chunkPts_storable (c : Dev nD) (r : Fin 7) : BI.Storable (upEmb : UEmb _ 𝕄) (chunkPts (F := F) m c r) := by unfold chunkPts; infer_instance
omit [FloatOps F] in
instance ownSrcPts_storable (c : Dev nD) : BI.Storable (upEmb : UEmb _ 𝕄) (ownSrcPts (F := F) m c) := by unfold ownSrcPts; infer_instance
omit [FloatOps F] in
instance ownDstPts_storable (c : Dev nD) (f) : BI.Storable (upEmb : UEmb _ 𝕄) (ownDstPts (F := F) c f) := by unfold ownDstPts; infer_instance

/-! ## The schedule -/

/-- What the signal of the device `off r` places before `c` (duty `off r` of `c`'s barrier cell) hands `c`: that device's
    receive slot `off r` and that its receive cell `off r` is at round 0. -/
def barPay (c : Dev nD) (d : Fin 8) : sProp 𝕄 :=
  iprop((∃ f, slotPts (shift c (opp d)) d f) ∗ reached ER (recvCell (shift c (opp d)) d) 0)
def recvPay (c : Dev nD) (r : Fin 7) : sProp 𝕄 := slotPts c (off r) (landedBuf m c r)
def sendPay (c : Dev nD) (r : Fin 7) : sProp 𝕄 := chunkPts m c r
def locPay (c : Dev nD) : sProp 𝕄 := iprop(ownDstPts c (ownVal m c) ∗ ownSrcPts m c)

/-- One round, round 0: a barrier cell has the seven duties `1 … 7` of one unit each; a send, receive or local-copy
    cell the duty `0` of its copy's credit. -/
def rsRd : Rounds.Schedule (GSem nD τ sig) (Fin 8) 𝕄 where
  duties g r := if r = 0 ∧ g.1.2 = .tc then
      (match role g.2 with
        | .bar => Finset.univ.erase 0
        | .send _ => {0}
        | .recv _ => {0}
        | .loc => {0}
        | .none => ∅)
    else ∅
  unitless _ := False
  amount g _ _ := match role g.2 with
    | .bar => 1
    | .loc => NL
    | _ => NB
  payload g _ d := match role g.2 with
    | .bar => barPay g.1.1 d
    | .send r => sendPay m g.1.1 r
    | .recv r => recvPay m g.1.1 r
    | .loc => locPay m g.1.1
    | .none => iprop(emp)
  amount_pos g _ _ _ := by
    cases role g.2 <;> first | exact Nat.one_pos | exact NB_pos | exact NL_pos

instance rsRd_payload_storable (g : GSem nD τ sig) (r : ℕ) (d : Fin 8) :
    BI.Storable (upEmb : UEmb _ 𝕄) ((rsRd (F := F) m).payload g r d) := by
  show BI.Storable upEmb (match role g.2 with
    | .bar => barPay g.1.1 d
    | .send r => sendPay m g.1.1 r
    | .recv r => recvPay m g.1.1 r
    | .loc => locPay m g.1.1
    | .none => iprop(emp))
  unfold barPay recvPay sendPay locPay
  cases role g.2 <;> infer_instance

/-! ### The schedule's tables, the entry on the left -/

section Sched
variable (c : Dev nD)

theorem duties_bar : (rsRd (F := F) m).duties (barCell c) 0 = Finset.univ.erase 0 := by dsimp only [rsRd]; exact if_pos ⟨rfl, rfl⟩
theorem duties_send (r : Fin 7) : (rsRd (F := F) m).duties (sendCell c (off r)) 0 = {0} := by
  dsimp only [rsRd]; rw [if_pos ⟨rfl, rfl⟩, role_send]
theorem duties_recv (r : Fin 7) : (rsRd (F := F) m).duties (recvCell c (off r)) 0 = {0} := by
  dsimp only [rsRd]; rw [if_pos ⟨rfl, rfl⟩, role_recv]
theorem duties_loc : (rsRd (F := F) m).duties (locCell c) 0 = {0} := by
  dsimp only [rsRd]; rw [if_pos ⟨rfl, rfl⟩, role_loc]
theorem duties_later (g : GSem nD τ sig) : ∀ r, 1 ≤ r → (rsRd (F := F) m).duties g r = ∅ :=
  fun r hr => by dsimp only [rsRd]; rw [if_neg fun h => by omega]

theorem amount_bar (d : Fin 8) : (rsRd (F := F) m).amount (barCell c) 0 d = 1 := rfl
theorem amount_send (r : Fin 7) (d : Fin 8) : (rsRd (F := F) m).amount (sendCell c (off r)) 0 d = NB := by
  dsimp only [rsRd]; rw [role_send]
theorem amount_recv (r : Fin 7) (d : Fin 8) : (rsRd (F := F) m).amount (recvCell c (off r)) 0 d = NB := by
  dsimp only [rsRd]; rw [role_recv]
theorem amount_loc (d : Fin 8) : (rsRd (F := F) m).amount (locCell c) 0 d = NL := by
  dsimp only [rsRd]; rw [role_loc]

theorem expect_bar : (rsRd (F := F) m).expect (barCell c) 0 = 7 := by
  unfold Schedule.expect Schedule.amountOf
  rw [duties_bar, Finset.sum_congr rfl fun d _ => amount_bar m c d, Finset.sum_const, smul_eq_mul, Nat.mul_one]
  decide
theorem expect_send (r : Fin 7) : (rsRd (F := F) m).expect (sendCell c (off r)) 0 = NB := by
  unfold Schedule.expect Schedule.amountOf; rw [duties_send, Finset.sum_singleton, amount_send]
theorem expect_recv (r : Fin 7) : (rsRd (F := F) m).expect (recvCell c (off r)) 0 = NB := by
  unfold Schedule.expect Schedule.amountOf; rw [duties_recv, Finset.sum_singleton, amount_recv]
theorem expect_loc : (rsRd (F := F) m).expect (locCell c) 0 = NL := by
  unfold Schedule.expect Schedule.amountOf; rw [duties_loc, Finset.sum_singleton, amount_loc]

theorem payload_bar (d : Fin 8) : (rsRd (F := F) m).payload (barCell c) 0 d = barPay c d := rfl
theorem payload_send (r : Fin 7) (d : Fin 8) : (rsRd (F := F) m).payload (sendCell c (off r)) 0 d = sendPay m c r := by
  dsimp only [rsRd]; rw [role_send]
theorem payload_recv (r : Fin 7) (d : Fin 8) : (rsRd (F := F) m).payload (recvCell c (off r)) 0 d = recvPay m c r := by
  dsimp only [rsRd]; rw [role_recv]
theorem payload_loc (d : Fin 8) : (rsRd (F := F) m).payload (locCell c) 0 d = locPay m c := by
  dsimp only [rsRd]; rw [role_loc]

/-- The rest of the barrier cell's round, no duty taken: the seven peers' payloads, duty 1 to duty 7. -/
theorem rest_bar : bigSep ((rsRd (F := F) m).duties (barCell c) 0 \ ∅) (fun d => (rsRd (F := F) m).payload (barCell c) 0 d)
    = iprop(barPay c 1 ∗ barPay c 2 ∗ barPay c 3 ∗ barPay c 4 ∗ barPay c 5 ∗ barPay c 6 ∗ barPay c 7) := by
  rw [Finset.sdiff_empty, duties_bar, bigSep_eq_bigSepL_of_eq [1, 2, 3, 4, 5, 6, 7] (by decide) (by decide)]
  rfl
theorem rest_send (r : Fin 7) : bigSep ((rsRd (F := F) m).duties (sendCell c (off r)) 0 \ ∅) (fun d => (rsRd (F := F) m).payload (sendCell c (off r)) 0 d) = sendPay m c r := by
  rw [Finset.sdiff_empty, duties_send, bigSep_singleton, payload_send]
theorem rest_recv (r : Fin 7) : bigSep ((rsRd (F := F) m).duties (recvCell c (off r)) 0 \ ∅) (fun d => (rsRd (F := F) m).payload (recvCell c (off r)) 0 d) = recvPay m c r := by
  rw [Finset.sdiff_empty, duties_recv, bigSep_singleton, payload_recv]
theorem rest_loc : bigSep ((rsRd (F := F) m).duties (locCell c) 0 \ ∅) (fun d => (rsRd (F := F) m).payload (locCell c) 0 d) = locPay m c := by
  rw [Finset.sdiff_empty, duties_loc, bigSep_singleton, payload_loc]

end Sched

/-! ## What each device owes at launch; the levels -/

/-- The unit device `c`'s signal number `off r` pays: to the barrier cell of the device `off r` places after it. -/
def sigTally (c : Dev nD) (r : Fin 7) : CellTallies nD τ sig Unit := tallyAt (barCell (shift c (off r))) () 1
/-- The credit its copy number `r` pays: to receive cell `off (rev r)` of that device. -/
def sndTally (c : Dev nD) (r : Fin 7) : CellTallies nD τ sig Unit := tallyAt (recvCell (shift c (off r)) (off (rev r))) () NB

/-- The copies still to start, summed so that the next one peels the last summand. -/
def owedS (c : Dev nD) : List (Fin 7) → CellTallies nD τ sig Unit
  | [] => 0
  | r :: rs => owedS c rs + sndTally c r
/-- The order the kernel starts its copies in: offsets 1, 4, 7, 2, 3, 5, 6. -/
def sendOrder : List (Fin 7) := [0, 3, 6, 1, 2, 4, 5]
/-- The signals still to send, over all the copies, summed the same way. -/
def owedG (c : Dev nD) : List (Fin 7) → CellTallies nD τ sig Unit
  | [] => owedS c sendOrder
  | r :: rs => owedG c rs + sigTally c r
/-- What device `c` owes at launch: the seven signals (offsets 1 to 7 in order), then the seven copies. -/
def O₀ (c : Dev nD) : CellTallies nD τ sig Unit := owedG c [0, 1, 2, 3, 4, 5, 6]

def L (g : GSem nD τ sig) : Finset Unit := if g.1.2 = .tc then {()} else ∅
/-- Barrier cells at 1, receive cells at 2, everything else (staging, send, local copy) at 0. -/
def lv (g : GSem nD τ sig) (_ : Unit) : ℕ := match role g.2 with
  | .bar => 1
  | .recv _ => 2
  | _ => 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) (u : Unit) : lv (barCell c) u = 1 := rfl
theorem lv_recv (c : Dev nD) (r : Fin 7) (u : Unit) : lv (recvCell c (off r)) u = 2 := by
  show (match role (.dma (recvSem (off r))) with | .bar => 1 | .recv _ => 2 | _ => 0) = 2
  rw [role_recv]

theorem sndTally_pos {c : Dev nD} {r : Fin 7} {g : GSem nD τ sig} {u : Unit} (h : 0 < sndTally c r g u) :
    g = recvCell (shift c (off r)) (off (rev r)) := by
  unfold sndTally at h; rw [tallyAt_apply] at h
  by_contra hn
  rw [if_neg (fun h' => hn h'.1)] at h; exact Nat.lt_irrefl 0 h
theorem sigTally_pos {c : Dev nD} {r : Fin 7} {g : GSem nD τ sig} {u : Unit} (h : 0 < sigTally c r g u) :
    g = barCell (shift c (off r)) := by
  unfold sigTally at h; rw [tallyAt_apply] at h
  by_contra hn
  rw [if_neg (fun h' => hn h'.1)] at h; exact Nat.lt_irrefl 0 h

/-- Whatever is still owed among the copies is owed to a receive cell; -/
theorem owedS_pos {c : Dev nD} {g : GSem nD τ sig} {u : Unit} : ∀ {l : List (Fin 7)}, 0 < owedS c l g u →
    ∃ (p : Dev nD) (r : Fin 7), g = recvCell p (off r)
  | [], h => by exact absurd h (Nat.lt_irrefl 0)
  | r :: rs, h => by
    rcases Pipeline.add_pos_cases h with h | h
    · exact owedS_pos h
    · exact ⟨_, _, sndTally_pos h⟩
/-- and among the signals and the copies, to a barrier cell or a receive cell. -/
theorem owedG_pos {c : Dev nD} {g : GSem nD τ sig} {u : Unit} : ∀ {l : List (Fin 7)}, 0 < owedG c l g u →
    (∃ p : Dev nD, g = barCell p) ∨ ∃ (p : Dev nD) (r : Fin 7), g = recvCell p (off r)
  | [], h => Or.inr (owedS_pos h)
  | r :: rs, h => by
    rcases Pipeline.add_pos_cases h with h | h
    · exact owedG_pos h
    · exact Or.inl ⟨_, sigTally_pos h⟩

omit [FloatOps F] in
/-- A wait on a cell of level 0 (a staging cell, a send cell, the local copy's) is below everything a device ever owes. -/
theorem mayWait_low (c : Dev nD) (sm : SemLoc sig) (hq : lv ((c : Thread nD τ), sm) () = 0) (l : List (Fin 7)) :
    (levAts L lv : sProp 𝕄) ⊢ MayWait (c : Thread nD τ) sm () (owedG c l) :=
  Pipeline.mayWait_of_levAts (by rw [L_tc]; exact Finset.mem_singleton_self _) fun g i hg => by
    rcases owedG_pos hg with ⟨p, rfl⟩ | ⟨p, r, rfl⟩
    · exact ⟨by rw [L_tc]; exact Finset.mem_singleton_self _, by rw [hq, lv_bar]; decide⟩
    · exact ⟨by rw [L_tc]; exact Finset.mem_singleton_self _, by rw [hq, lv_recv]; decide⟩

omit [FloatOps F] in
/-- At its barrier wait a device owes receive credit only: receive cells lie above its barrier cell. -/
theorem mayWait_bar (c : Dev nD) :
    (levAts L lv : sProp 𝕄) ⊢ MayWait (c : Thread nD τ) (.reg barS) () (owedS c sendOrder) :=
  Pipeline.mayWait_of_levAts (by rw [L_tc]; exact Finset.mem_singleton_self _) fun g i hg => by
    obtain ⟨p, r, rfl⟩ := owedS_pos hg
    exact ⟨by rw [L_tc]; exact Finset.mem_singleton_self _, by rw [lv_bar, lv_recv]; decide⟩

/-! ## The cells enumerated; the ghost state -/

/-- A device's sixteen cells: 0 the barrier's, 1 … 7 send 1 … 7, 8 … 14 receive 1 … 7, 15 the local copy's. -/
def csem (j : Fin 16) : SemLoc sig :=
  if j.val = 0 then .reg barS
  else if h : j.val < 8 then .dma (sendSem ⟨j.val, h⟩)
  else if h' : j.val < 15 then .dma (recvSem ⟨j.val - 7, by omega⟩)
  else .dma locSem
abbrev kcell (ck : Dev nD × Fin 16) : GSem nD τ sig := ((ck.1 : Thread nD τ), csem ck.2)
def jS (r : Fin 7) : Fin 16 := ⟨1 + r.val, by omega⟩
def jR (r : Fin 7) : Fin 16 := ⟨8 + r.val, by omega⟩
theorem csem_zero : csem 0 = .reg barS := rfl
theorem csem_jS (r : Fin 7) : csem (jS r) = .dma (sendSem (off r)) := by revert r; decide
theorem csem_jR (r : Fin 7) : csem (jR r) = .dma (recvSem (off r)) := by revert r; decide
theorem csem_last : csem 15 = .dma locSem := by decide

/-- Every cell's invariant, under the names `K` the launch allocated them at, and that every cell is at round 0: what
    all devices share. -/
def records (K : Dev nD × Fin 16 → ℕ) : sProp 𝕄 :=
  iprop((bigSep Finset.univ fun ck : Dev nD × Fin 16 => cellInv ER (rsRd m) (K ck) (kcell ck))
    ∗ bigSep Finset.univ fun ck : Dev nD × Fin 16 => reached ER (kcell ck) 0)

instance records_persistent (K : Dev nD × Fin 16 → ℕ) : BI.Persistent (records m K) := by unfold records; infer_instance

/-- Device `c`'s positions: round 0 of each of its sixteen cells, nothing taken. -/
def positions (c : Dev nD) : sProp 𝕄 :=
  iprop(atPos ER (barCell c) 0 ∅ 0 ∗ (bigSep Finset.univ fun r : Fin 7 => atPos ER (sendCell c (off r)) 0 ∅ 0)
    ∗ (bigSep Finset.univ fun r : Fin 7 => atPos ER (recvCell c (off r)) 0 ∅ 0) ∗ atPos ER (locCell c) 0 ∅ 0)

/-- The tokens of the duties device `c` pays: duty `off r` of the barrier cell of the device `off r` places after it
    (its signal number `off r`), the duty of that device's receive cell `off (rev r)` (its copy number `r`), the duties of
    its own seven send cells and of its local copy's cell. -/
def payToks (c : Dev nD) : sProp 𝕄 :=
  iprop((bigSep Finset.univ fun r : Fin 7 => dutyTok ER (barCell (shift c (off r))) 0 (off r))
    ∗ (bigSep Finset.univ fun r : Fin 7 => dutyTok ER (recvCell (shift c (off r)) (off (rev r))) 0 (0 : Fin 8))
    ∗ (bigSep Finset.univ fun r : Fin 7 => dutyTok ER (sendCell c (off r)) 0 (0 : Fin 8))
    ∗ dutyTok ER (locCell c) 0 (0 : Fin 8))

def ghost (K : Dev nD × Fin 16 → ℕ) (c : Dev nD) : sProp 𝕄 := iprop(records m K ∗ positions c ∗ payToks c)

/-- The two semaphores of the send and receive arrays the kernel never uses, at zero from launch to exit. -/
def idle (c : Dev nD) : sProp 𝕄 := iprop(semVal (sendCell c 0) 0 ∗ semVal (recvCell c 0) 0)

/-- The launch credit: the barrier's seven units, each receive cell's copy. -/
def creds (c : Dev nD) : sProp 𝕄 :=
  iprop(cred (tallyAt (barCell c) () 7) ∗ bigSep Finset.univ fun r : Fin 7 => cred (tallyAt (recvCell c (off r)) () NB))

/-- What device `c`'s body starts from, beside its buffers. -/
def start (c : Dev nD) : sProp 𝕄 := iprop((∃ K, ghost m K c) ∗ creds c ∗ idle c ∗ levAts L lv)

/-- The three scratch buffers, each whole at some contents. -/
def scr (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f))

/-- The kernel's fifteen used own semaphores closed, the two idle ones untouched: all seventeen at zero. -/
def ownZero (c : Dev nD) : sProp 𝕄 :=
  iprop(idle c ∗ (bigSep Finset.univ fun r : Fin 7 => semVal (sendCell c (off r)) 0)
    ∗ (bigSep Finset.univ fun r : Fin 7 => semVal (recvCell c (off r)) 0) ∗ semVal (locCell c) 0)

def Φ₀ (c : Dev nD) : sProp 𝕄 := iprop(start m c ∗ scr c)
def Φ₁ (c : Dev nD) : sProp 𝕄 := iprop(scr (F := F) c ∗ ownZero c)

/-! ## The pipeline's proof data -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m c
    | ⟨1, _⟩ => outAt m c
  Φ t := match t with
    | ⟨0, _⟩ => Φ₀ m c
    | ⟨_ + 1, _⟩ => Φ₁ c
  q _ := fullShare
  owed t := match t with
    | ⟨0, _⟩ => O₀ c
    | ⟨_ + 1, _⟩ => 0

abbrev 𝒱₀ : Variants := Variants.none

/-- A staging buffer whole at contents `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- What the body runs from at the one grid point, the cells' names `K` fixed. -/
def bodyPre (K : Dev nD × Fin 16 → ℕ) (c : Dev nD) : sProp 𝕄 :=
  iprop((ghost m K c ∗ creds c ∗ idle c ∗ levAts L lv ∗ scr c)
    ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

/-- What it leaves: the scratch buffers, the own semaphores at zero, nothing owed, the staged block as it was and the
    output block at the accumulated sum. -/
def bodyPost (c : Dev nD) : sProp 𝕄 :=
  iprop(Φ₁ c ∗ (dats m ρ 0 c).owesAt () t₀.succ ∗ stg c cc0_stg0_0 (xstg m c) ∗ stg c cc0_stg1_0 (outAt m c))

end Cert.KernelProof

end
-- ==== Proof.KernelGeom.lean ====
/-
  The geometry of the views the reduce-scatter kernel copies through. The seven chunks a device sends
  are column ranges of its bf16 image that start at 256 times seven different places of the ring, so
  they are pairwise disjoint; the eight receive slots are the eight unit boxes along the first axis of
  the slot buffer, so they are pairwise disjoint too; a load through the box of slot `s` reads exactly
  the elements of slot `s`; and a write through a slot with the full mask leaves, on the slot's own
  elements, the payload alone: what the buffer held there before does not enter.
-/
import proofs.«900588_g7700000000000589_dist_rs_v7x_i8_i_m256_n256_f32_1_alg».proof.Proof.KernelSpec
import Idealize.ShloMosaic.Signature.View
import Idealize.ShloMosaic.Signature.Memref
import Idealize.ShloMosaic.Shape

noncomputable section

namespace Cert.KernelProof

open Cert.Kernel Cert.Kernel.Gen
open Idealize.ShloMosaic Idealize.ShloMosaic.TcCoe Idealize.SL.Sem

variable {F : FTy → Type} [FloatOps F]

/-! ## The element sets of the views -/

/-- Two of a device's seven peers sit at different places of the ring. -/
theorem peer_ne (c : Dev nD) {r r' : Fin 7} (h : r ≠ r') :
    (c.val + r.val + 1) % 8 ≠ (c.val + r'.val + 1) % 8 := by
  revert c r r'; decide

/-- A chunk's elements are those of its rectangle in the image. -/
theorem chunk_set (c : Dev nD) (r : Fin 7) :
    (bChunk c r).view.set
      = (Rect.unit (s := S256x2048) (k0_off2 c (BitVec.ofNat 32 (1 + r.val))) S256x256.size (k0_off2_inb c r)).set := by
  exact View.set_slice_whole (cc0_scratch0 : Ref sig .tc) _

/-- A slot's elements are those of its box in the slot buffer: squeezing the unit axis away keeps the elements. -/
theorem slot_set (s : Fin 8) : (slot s).view.set = (slotRect s).set := by
  exact (View.set_reshape _ _).trans (View.set_slice_whole (cc0_scratch1 : Ref sig .tc) (slotRect s))

/-! ## Disjointness -/

/-- The chunks a device sends to two different peers share no element: their column ranges start at
    256 times two different places and are 256 wide. -/
theorem chunk_disjoint (c : Dev nD) {r r' : Fin 7} (h : r ≠ r') :
    Disjoint (bChunk c r).view.set (bChunk c r').view.set := by
  rw [chunk_set, chunk_set]
  refine Rect.unit_disjoint (1 : Fin 2) ?_
  rw [k0_off2_eq c r, k0_off2_eq c r']
  have hp := peer_ne c h
  show 256 * ((c.val + r.val + 1) % 8) + 256 ≤ 256 * ((c.val + r'.val + 1) % 8)
    ∨ 256 * ((c.val + r'.val + 1) % 8) + 256 ≤ 256 * ((c.val + r.val + 1) % 8)
  omega

/-- Two different receive slots share no element: they are different unit boxes along the first axis. -/
theorem slot_disjoint {s s' : Fin 8} (h : s ≠ s') : Disjoint (slot s).view.set (slot s').view.set := by
  rw [slot_set, slot_set]
  refine Rect.unit_disjoint (0 : Fin 3) ?_
  have hv : s.val ≠ s'.val := fun e => h (Fin.ext e)
  show s.val + 1 ≤ s'.val ∨ s'.val + 1 ≤ s.val
  omega

/-! ## Loads and writes through a slot -/

/-- A load through the box of slot `s` of the whole slot buffer reads elements of slot `s` only. -/
theorem slot_load_subset (s : Fin 8) :
    (rM : Memref sig .tc .vmem S8x256x256 .bf16).view.setOn (slotRect s).toLoadRect.set ⊆ (slot s).view.set := by
  rw [slot_set]
  intro i hi
  obtain ⟨j, hj, rfl⟩ := Finset.mem_map.mp hi
  exact hj

/-- On a slot's own elements a write through the slot with the full mask is the payload, whatever the
    buffer held before. -/
theorem slot_write_congr (s : Fin 8) (fd fd' : (cc0_scratch1 : Ref sig .tc).ty.Contents (Elt F))
    (w : S256x256.Idx → Elt F .bf16) :
    ∀ i ∈ (slot s).view.set, (slot s).view.write (Elt F) fd w Finset.univ i
      = (slot s).view.write (Elt F) fd' w Finset.univ i := by
  intro i hi
  exact View.write_congr (fun _ _ _ => rfl) (fun hn => absurd hi hn)

/-- info: 'Cert.KernelProof.chunk_disjoint' depends on axioms: [propext, Classical.choice, Quot.sound] -/
#guard_msgs in #print axioms chunk_disjoint
/-- info: 'Cert.KernelProof.slot_disjoint' depends on axioms: [propext, Classical.choice, Quot.sound] -/
#guard_msgs in #print axioms slot_disjoint
/-- info: 'Cert.KernelProof.slot_load_subset' depends on axioms: [propext, Classical.choice, Quot.sound] -/
#guard_msgs in #print axioms slot_load_subset
/-- info: 'Cert.KernelProof.slot_write_congr' depends on axioms: [propext, Classical.choice, Quot.sound] -/
#guard_msgs in #print axioms slot_write_congr

end Cert.KernelProof

end
-- ==== Proof.KernelCarve.lean ====
/-
  Carving one device's buffers along the views its copies go through, and putting them back. The bf16 image is the seven
  chunks the device sends and the rest of the image; the slot buffer is the seven receive slots and the rest of the
  buffer (slot 0 is never written); the staged block is the share the local copy reads — the own chunk and the rest of
  the block — and the share that stays behind. The cuts are along pairwise disjoint element sets, so each is an
  equivalence; the slots come back at whatever each holds, and some contents of the whole buffer agree with all of
  them. Last, a load through the box of one slot needs that slot's elements only.
-/
import proofs.«900588_g7700000000000589_dist_rs_v7x_i8_i_m256_n256_f32_1_alg».proof.Proof.KernelProto
import proofs.«900588_g7700000000000589_dist_rs_v7x_i8_i_m256_n256_f32_1_alg».proof.Proof.KernelGeom
import Idealize.ShloMosaic.Rules.PointsTo

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-- Different peers have different offsets. -/
theorem off_injective : Function.Injective off := by decide

/-- The slots of two different peers share no element. -/
theorem slot_off_disjoint {r r' : Fin 7} (h : r ≠ r') :
    Disjoint (slot (off r)).view.set (slot (off r')).view.set :=
  slot_disjoint fun e => h (off_injective e)

/-! ## The bf16 image: the seven chunks and the rest -/

omit [FloatOps F] in
theorem image_carve (c : Dev nD) (f : Buf (Elt F) ((c : Thread nD τ).loc cc0_scratch0)) :
    (((c : Thread nD τ).loc cc0_scratch0) ↦{fullShare} f : sProp 𝕄)
      ⊣⊢ iprop((bigSep Finset.univ fun r : Fin 7 =>
            ((bChunk c r).view.loc (c : Thread nD τ)) ↦[(bChunk c r).view.set]{fullShare} f)
          ∗ (((c : Thread nD τ).loc cc0_scratch0)
              ↦[Finset.univ \ Finset.univ.biUnion fun r : Fin 7 => (bChunk c r).view.set]{fullShare} f)) := by
  have e : (((c : Thread nD τ).loc cc0_scratch0)
        ↦[Finset.univ.biUnion fun r : Fin 7 => (bChunk c r).view.set]{fullShare} f : sProp 𝕄)
      = bigSep Finset.univ fun r : Fin 7 =>
          ((c : Thread nD τ).loc cc0_scratch0) ↦[(bChunk c r).view.set]{fullShare} f :=
    pointsTo_biUnion Finset.univ _ fun r _ r' _ h => chunk_disjoint c h
  have h : (((c : Thread nD τ).loc cc0_scratch0) ↦{fullShare} f : sProp 𝕄) ⊣⊢ _ :=
    pointsTo_split_subset (Finset.subset_univ (Finset.univ.biUnion fun r : Fin 7 => (bChunk c r).view.set))
  rw [e] at h
  exact h

/-! ## The slot buffer: the seven receive slots and the rest -/

omit [FloatOps F] in
theorem slots_carve (c : Dev nD) (f : Buf (Elt F) ((c : Thread nD τ).loc cc0_scratch1)) :
    (((c : Thread nD τ).loc cc0_scratch1) ↦{fullShare} f : sProp 𝕄)
      ⊣⊢ iprop((bigSep Finset.univ fun r : Fin 7 => slotPts c (off r) f)
          ∗ (((c : Thread nD τ).loc cc0_scratch1)
              ↦[Finset.univ \ Finset.univ.biUnion fun r : Fin 7 => (slot (off r)).view.set]{fullShare} f)) := by
  have e : (((c : Thread nD τ).loc cc0_scratch1)
        ↦[Finset.univ.biUnion fun r : Fin 7 => (slot (off r)).view.set]{fullShare} f : sProp 𝕄)
      = bigSep Finset.univ fun r : Fin 7 =>
          ((c : Thread nD τ).loc cc0_scratch1) ↦[(slot (off r)).view.set]{fullShare} f :=
    pointsTo_biUnion Finset.univ _ fun r _ r' _ h => slot_off_disjoint h
  have h : (((c : Thread nD τ).loc cc0_scratch1) ↦{fullShare} f : sProp 𝕄) ⊣⊢ _ :=
    pointsTo_split_subset (Finset.subset_univ (Finset.univ.biUnion fun r : Fin 7 => (slot (off r)).view.set))
  rw [e] at h
  unfold slotPts
  exact h

omit [FloatOps F] in
/-- The seven slots, each at its own contents, and the rest of the buffer make the whole buffer at some contents. -/
theorem slots_rejoin (c : Dev nD) (g : Fin 7 → Buf (Elt F) ((c : Thread nD τ).loc cc0_scratch1))
    (f : Buf (Elt F) ((c : Thread nD τ).loc cc0_scratch1)) :
    iprop((bigSep Finset.univ fun r : Fin 7 => slotPts c (off r) (g r))
        ∗ (((c : Thread nD τ).loc cc0_scratch1)
            ↦[Finset.univ \ Finset.univ.biUnion fun r : Fin 7 => (slot (off r)).view.set]{fullShare} f))
      ⊢ (iprop(∃ h, ((c : Thread nD τ).loc cc0_scratch1) ↦{fullShare} h) : sProp 𝕄) := by
  unfold slotPts
  iintro ⟨HS, HR⟩
  ihave H := (pointsTo_biUnion_join (ℓ := (c : Thread nD τ).loc cc0_scratch1) (q := fullShare) Finset.univ
      (fun r : Fin 7 => (slot (off r)).view.set) g f fun r _ r' _ h => slot_off_disjoint h) $$ HS
  icases H with ⟨%g', -, HU⟩
  iexists (Finset.univ.biUnion fun r : Fin 7 => (slot (off r)).view.set).piecewise g' f
  iapply (pointsTo_join_subset (Finset.subset_univ _))
  isplitl [HU]
  · iexact HU
  · iexact HR

/-! ## The staged block: the share the local copy reads, cut at the own chunk, and the share that stays -/

omit [FloatOps F] in
theorem block_carve (c : Dev nD) (f : Buf (Elt F) ((c : Thread nD τ).loc cc0_stg0_0)) :
    (((c : Thread nD τ).loc cc0_stg0_0) ↦{fullShare} f : sProp 𝕄)
      ⊣⊢ iprop((((xChunk c).view.loc (c : Thread nD τ)) ↦[(xChunk c).view.set]{fullShare.left} f)
          ∗ (((c : Thread nD τ).loc cc0_stg0_0) ↦[Finset.univ \ (xChunk c).view.set]{fullShare.left} f)
          ∗ (((c : Thread nD τ).loc cc0_stg0_0) ↦{fullShare.right} f)) := by
  have hs : (((c : Thread nD τ).loc cc0_stg0_0) ↦{fullShare} f : sProp 𝕄)
      ⊣⊢ iprop((((c : Thread nD τ).loc cc0_stg0_0) ↦{fullShare.left} f) ∗ (((c : Thread nD τ).loc cc0_stg0_0) ↦{fullShare.right} f)) :=
    pointsTo_share (PosShare.mem_left_op_right fullShare)
  have hc : (((c : Thread nD τ).loc cc0_stg0_0) ↦{fullShare.left} f : sProp 𝕄) ⊣⊢ _ :=
    pointsTo_split_subset (Finset.subset_univ (xChunk c).view.set)
  exact hs.trans ((sep_congr_left hc).trans sep_assoc)

/-! ## A load of one slot -/

/-- A load through the box of slot `s` of the slot buffer, from that slot's elements alone. -/
theorem wp_load_slot (c : Dev nD) (s : Fin 8) (f : Buf (Elt F) ((slot s).view.loc (c : Thread nD τ)))
    {hl : (rM : Memref sig .tc .vmem S8x256x256 .bf16).view.LoadsAt (slotRect s).toLoadRect}
    {α : Type} {Q : α → sProp 𝕄}
    {k : ((slotRect s).toLoadRect.shape.Idx → Elt F .bf16) → Prog (TpuEff nD τ sig (Elt F) Λ₀ .tc) α} :
    slotPts c s f
      ⊢ iprop((slotPts c s f -∗ wp frame (wpE (defs₀ (F := F)) 𝒱₀ (c : Thread nD τ) none) Set.univ
            (k ((rM : Memref sig .tc .vmem S8x256x256 .bf16).view.readAt (Elt F) (slotRect s).toLoadRect f)) Q)
          -∗ wp frame (wpE (defs₀ (F := F)) 𝒱₀ (c : Thread nD τ) none) Set.univ
              (.op (.load rM (slotRect s).toLoadRect hl) k) Q) := by
  unfold slotPts
  exact wp_load (defs := defs₀ (F := F)) 𝒱₀ (c : Thread nD τ) none Set.univ
    (m := (rM : Memref sig .tc .vmem S8x256x256 .bf16)) (r := (slotRect s).toLoadRect) (hl := hl) (k := k)
    (q := fullShare) (f := f) (slot_load_subset s)

/-- info: 'Cert.KernelProof.image_carve' depends on axioms: [propext, Classical.choice, Quot.sound] -/
#guard_msgs in #print axioms image_carve
/-- info: 'Cert.KernelProof.slots_carve' depends on axioms: [propext, Classical.choice, Quot.sound] -/
#guard_msgs in #print axioms slots_carve
/-- info: 'Cert.KernelProof.slots_rejoin' depends on axioms: [propext, Classical.choice, Quot.sound] -/
#guard_msgs in #print axioms slots_rejoin
/-- info: 'Cert.KernelProof.block_carve' depends on axioms: [propext, Classical.choice, Quot.sound] -/
#guard_msgs in #print axioms block_carve
/-- info: 'Cert.KernelProof.wp_load_slot' depends on axioms: [propext, Classical.choice, Quot.sound] -/
#guard_msgs in #print axioms wp_load_slot

end Cert.KernelProof

end
-- ==== Proof.KernelFinish.lean ====
/-
  The end of one device's kernel body. Every copy has been waited for, so each of the fifteen DMA cells the kernel used
  stands at round 1 with nothing taken, and no later round of it has a duty: the cell closes and its counter comes back
  at zero. The bf16 image is put together again from the seven chunks that were sent and the rest, the slot buffer from
  the seven slots at what landed in them and the rest, the staged block from the share the local copy read, cut at the
  own chunk, and the share that stayed behind. With the own chunk's buffer, the two unused semaphores, nothing owed and
  the output block at the accumulated sum, this is what the body leaves.
-/
import proofs.«900588_g7700000000000589_dist_rs_v7x_i8_i_m256_n256_f32_1_alg».proof.Proof.KernelProto
import proofs.«900588_g7700000000000589_dist_rs_v7x_i8_i_m256_n256_f32_1_alg».proof.Proof.KernelCarve

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Closing the cells -/

omit [FloatOps F] in
private theorem cell_send (c : Dev nD) (r : Fin 7) : kcell (c, jS r) = sendCell c (off r) := by
  show ((c : Thread nD τ), csem (jS r)) = _; rw [csem_jS]
omit [FloatOps F] in
private theorem cell_recv (c : Dev nD) (r : Fin 7) : kcell (c, jR r) = recvCell c (off r) := by
  show ((c : Thread nD τ), csem (jR r)) = _; rw [csem_jR]
omit [FloatOps F] in
private theorem cell_loc (c : Dev nD) : kcell (c, 15) = locCell c := by
  show ((c : Thread nD τ), csem 15) = _; rw [csem_last]

/-- The invariant of one cell, out of the records all devices share. -/
theorem inv_of_records (K : Dev nD × Fin 16 → ℕ) (ck : Dev nD × Fin 16) :
    (bigSep Finset.univ fun ck : Dev nD × Fin 16 => (cellInv ER (rsRd m) (K ck) (kcell ck) : sProp 𝕄)) ⊢ cellInv ER (rsRd m) (K ck) (kcell ck) :=
  bigSep_elim (Finset.mem_univ ck)

/-- A cell whose owner stands at round 1 with nothing taken closes: the schedule has no duty after round 0. -/
theorem close_cell (K : Dev nD × Fin 16 → ℕ) (ck : Dev nD × Fin 16) (g : GSem nD τ sig) (hg : kcell ck = g) :
    iprop(records m K ∗ atPos ER g 1 ∅ 0) ⊢ (|={Set.univ}=> semVal g 0 : sProp 𝕄) := by
  subst hg
  unfold records
  iintro ⟨⟨#HI, -⟩, Hat⟩
  iapply (Rounds.cell_close ER (rsRd m) (Set.mem_univ (K ck)) (fun h => h) (R := 1) (duties_later m (kcell ck)))
  isplitr
  · iapply (inv_of_records m K ck); iexact HI
  · iexact Hat

omit [FloatOps F] in
/-- A persistent assertion in hand serves every summand. -/
theorem bigSep_pers_mono {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem close_send (K : Dev nD × Fin 16 → ℕ) (c : Dev nD) :
    iprop(records m K ∗ bigSep Finset.univ fun r : Fin 7 => atPos ER (sendCell c (off r)) 1 ∅ 0)
      ⊢ (|={Set.univ}=> bigSep Finset.univ fun r : Fin 7 => semVal (sendCell c (off r)) 0 : sProp 𝕄) :=
  (bigSep_pers_mono (R := records m K) (Φ := fun r : Fin 7 => atPos ER (sendCell c (off r)) 1 ∅ 0)
    (Ψ := fun r : Fin 7 => iprop(|={Set.univ}=> semVal (sendCell c (off r)) 0))
    fun r _ => close_cell m K (c, jS r) (sendCell c (off r)) (cell_send c r)).trans (bigSep_fupd _ _)

theorem close_recv (K : Dev nD × Fin 16 → ℕ) (c : Dev nD) :
    iprop(records m K ∗ bigSep Finset.univ fun r : Fin 7 => atPos ER (recvCell c (off r)) 1 ∅ 0)
      ⊢ (|={Set.univ}=> bigSep Finset.univ fun r : Fin 7 => semVal (recvCell c (off r)) 0 : sProp 𝕄) :=
  (bigSep_pers_mono (R := records m K) (Φ := fun r : Fin 7 => atPos ER (recvCell c (off r)) 1 ∅ 0)
    (Ψ := fun r : Fin 7 => iprop(|={Set.univ}=> semVal (recvCell c (off r)) 0))
    fun r _ => close_cell m K (c, jR r) (recvCell c (off r)) (cell_recv c r)).trans (bigSep_fupd _ _)

theorem close_loc (K : Dev nD × Fin 16 → ℕ) (c : Dev nD) :
    iprop(records m K ∗ atPos ER (locCell c) 1 ∅ 0) ⊢ (|={Set.univ}=> semVal (locCell c) 0 : sProp 𝕄) :=
  close_cell m K (c, 15) (locCell c) (cell_loc c)

/-! ## The buffers whole again -/

omit [FloatOps F] in
theorem ownDstPts_eq (c : Dev nD) (f : Buf (Elt F) ((c : Thread nD τ).loc cc0_scratch2)) :
    ownDstPts c f = (((c : Thread nD τ).loc cc0_scratch2) ↦{fullShare} f : sProp 𝕄) := by
  unfold ownDstPts
  rw [show (aM : Memref sig .tc .vmem S256x256 .f32).view.set = Finset.univ from View.set_whole _]

/-! ## What the body leaves -/

/-- The end of the body: the fifteen used cells closed, the three carved buffers whole again, the post assembled. -/
theorem body_finish (K : Dev nD × Fin 16 → ℕ) (c : Dev nD) (W' : Waits sig Unit) (fr : Buf (Elt F) ((c : Thread nD τ).loc cc0_scratch1)) :
    iprop(records m K
      ∗ (bigSep Finset.univ fun r : Fin 7 => atPos ER (sendCell c (off r)) 1 ∅ 0)
      ∗ (bigSep Finset.univ fun r : Fin 7 => atPos ER (recvCell c (off r)) 1 ∅ 0)
      ∗ atPos ER (locCell c) 1 ∅ 0
      ∗ idle c
      ∗ (bigSep Finset.univ fun r : Fin 7 => chunkPts m c r)
      ∗ (((c : Thread nD τ).loc cc0_scratch0) ↦[Finset.univ \ Finset.univ.biUnion fun r : Fin 7 => (bChunk c r).view.set]{fullShare} xbBuf m c)
      ∗ (bigSep Finset.univ fun r : Fin 7 => slotPts c (off r) (landedBuf m c r))
      ∗ (((c : Thread nD τ).loc cc0_scratch1) ↦[Finset.univ \ Finset.univ.biUnion fun r : Fin 7 => (slot (off r)).view.set]{fullShare} fr)
      ∗ ownDstPts c (ownVal m c)
      ∗ ownSrcPts m c
      ∗ (((c : Thread nD τ).loc cc0_stg0_0) ↦[Finset.univ \ (xChunk c).view.set]{fullShare.left} xstg m c)
      ∗ (((c : Thread nD τ).loc cc0_stg0_0) ↦{fullShare.right} xstg m c)
      ∗ owes (c : Thread nD τ) 0 W'
      ∗ (((c : Thread nD τ).loc cc0_stg1_0) ↦{fullShare} outAt m c))
    ⊢ iprop(|={Set.univ}=> bodyPost m ρ c) := by
  iintro ⟨#HR, HatS, HatR, HatL, Hidle, Hch, Hbrest, Hsl, Hrrest, Hdst, Hsrc, Hxrest, Hxright, HO, Hout⟩
  imod (close_send m K c) $$ [HatS] with HzS
  · isplitr; · iexact HR
    iexact HatS
  imod (close_recv m K c) $$ [HatR] with HzR
  · isplitr; · iexact HR
    iexact HatR
  imod (close_loc m K c) $$ [HatL] with HzL
  · isplitr; · iexact HR
    iexact HatL
  imodintro
  ihave Hb := (image_carve (F := F) c (xbBuf m c)).2 $$ [Hch Hbrest]
  · isplitl [Hch]
    · unfold chunkPts; iexact Hch
    · iexact Hbrest
  ihave Hr := (slots_rejoin (F := F) c (fun r => landedBuf m c r) fr) $$ [Hsl Hrrest]
  · isplitl [Hsl] <;> iassumption
  ihave Hx := (block_carve (F := F) c (xstg m c)).2 $$ [Hsrc Hxrest Hxright]
  · isplitl [Hsrc]
    · unfold ownSrcPts; iexact Hsrc
    isplitl [Hxrest] <;> iassumption
  ihave Hd := (Entails.of_eq (ownDstPts_eq (F := F) c (ownVal m c))) $$ Hdst
  unfold bodyPost Φ₁ scr ownZero Dat.owesAt Pipeline.owesWithin
  rw [show (dats m ρ 0 c).owed t₀.succ = 0 from rfl]
  isplitl [Hb Hr Hd Hidle HzS HzR HzL]
  · isplitl [Hb Hr Hd]
    · isplitl [Hb]; · iexists (xbBuf m c); iexact Hb
      isplitl [Hr]; · iexact Hr
      iexists (ownVal m c); iexact Hd
    · isplitl [Hidle]; · iexact Hidle
      isplitl [HzS]; · iexact HzS
      isplitl [HzR]; · iexact HzR
      iexact HzL
  isplitl [HO]
  · iexists W'
    isplitr; · ipureintro; exact fun _ _ => Or.inl trivial
    iexact HO
  isplitl [Hx]
  · iexists _; isplitr; · (ipureintro; rfl)
    iexact Hx
  iexists _; isplitr; · (ipureintro; rfl)
  iexact Hout

/-- info: 'Cert.KernelProof.body_finish' depends on axioms: [propext, Classical.choice, Quot.sound] -/
#guard_msgs in #print axioms body_finish

end Cert.KernelProof

end
-- ==== Proof.KernelBody.lean ====
/-
  One device's kernel body, stepped from its ghost state at the one grid point: the local copy of the own chunk, the seven
  barrier signals, the bf16 image stored, the barrier wait that brings the seven peers' receive slots, the seven copies
  into them, the own chunk and the seven received chunks added up, the result stored, the sends waited, the cells closed.
-/
import proofs.«900588_g7700000000000589_dist_rs_v7x_i8_i_m256_n256_f32_1_alg».proof.Proof.KernelProto
import proofs.«900588_g7700000000000589_dist_rs_v7x_i8_i_m256_n256_f32_1_alg».proof.Proof.KernelGeom
import proofs.«900588_g7700000000000589_dist_rs_v7x_i8_i_m256_n256_f32_1_alg».proof.Proof.KernelCarve
import proofs.«900588_g7700000000000589_dist_rs_v7x_i8_i_m256_n256_f32_1_alg».proof.Proof.KernelFinish
import proofs.«900588_g7700000000000589_dist_rs_v7x_i8_i_m256_n256_f32_1_alg».proof.Proof.Gen.Kernel.Points

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The semaphore arrays' entries, computed -/

theorem semS1 : ((cc0_scratch3.slice (Rect.unit (s := S8) ![1] S1.size inb_S8_S1_1)).squeeze S_ squeezes_S1_S_).sem = sendSem 1 := rfl
theorem semR1 : ((cc0_scratch4.slice (Rect.unit (s := S8) ![1] S1.size inb_S8_S1_1)).squeeze S_ squeezes_S1_S_).sem = recvSem 1 := rfl
theorem semS2 : ((cc0_scratch3.slice (Rect.unit (s := S8) ![2] S1.size inb_S8_S1_2)).squeeze S_ squeezes_S1_S_).sem = sendSem 2 := rfl
theorem semR2 : ((cc0_scratch4.slice (Rect.unit (s := S8) ![2] S1.size inb_S8_S1_2)).squeeze S_ squeezes_S1_S_).sem = recvSem 2 := rfl
theorem semS3 : ((cc0_scratch3.slice (Rect.unit (s := S8) ![3] S1.size inb_S8_S1_3)).squeeze S_ squeezes_S1_S_).sem = sendSem 3 := rfl
theorem semR3 : ((cc0_scratch4.slice (Rect.unit (s := S8) ![3] S1.size inb_S8_S1_3)).squeeze S_ squeezes_S1_S_).sem = recvSem 3 := rfl
theorem semS4 : ((cc0_scratch3.slice (Rect.unit (s := S8) ![4] S1.size inb_S8_S1_4)).squeeze S_ squeezes_S1_S_).sem = sendSem 4 := rfl
theorem semR4 : ((cc0_scratch4.slice (Rect.unit (s := S8) ![4] S1.size inb_S8_S1_4)).squeeze S_ squeezes_S1_S_).sem = recvSem 4 := rfl
theorem semS5 : ((cc0_scratch3.slice (Rect.unit (s := S8) ![5] S1.size inb_S8_S1_5)).squeeze S_ squeezes_S1_S_).sem = sendSem 5 := rfl
theorem semR5 : ((cc0_scratch4.slice (Rect.unit (s := S8) ![5] S1.size inb_S8_S1_5)).squeeze S_ squeezes_S1_S_).sem = recvSem 5 := rfl
theorem semS6 : ((cc0_scratch3.slice (Rect.unit (s := S8) ![6] S1.size inb_S8_S1_6)).squeeze S_ squeezes_S1_S_).sem = sendSem 6 := rfl
theorem semR6 : ((cc0_scratch4.slice (Rect.unit (s := S8) ![6] S1.size inb_S8_S1_6)).squeeze S_ squeezes_S1_S_).sem = recvSem 6 := rfl
theorem semS7 : ((cc0_scratch3.slice (Rect.unit (s := S8) ![7] S1.size inb_S8_S1_7)).squeeze S_ squeezes_S1_S_).sem = sendSem 7 := rfl
theorem semR7 : ((cc0_scratch4.slice (Rect.unit (s := S8) ![7] S1.size inb_S8_S1_7)).squeeze S_ squeezes_S1_S_).sem = recvSem 7 := rfl
theorem semL : cc0_scratch5.sem = locSem := rfl

omit [FloatOps F] in
theorem bigSep_fin7 (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ

/-! ## Reading the shared records -/

section Records
variable (K : Dev nD × Fin 16 → ℕ)

theorem inv_at' (ck : Dev nD × Fin 16) :
    (bigSep Finset.univ fun ck : Dev nD × Fin 16 => (cellInv ER (rsRd m) (K ck) (kcell ck) : sProp 𝕄)) ⊢ cellInv ER (rsRd m) (K ck) (kcell ck) :=
  bigSep_elim (Finset.mem_univ ck)
omit [FloatOps F] in
theorem reached_at' (ck : Dev nD × Fin 16) :
    (bigSep Finset.univ fun ck : Dev nD × Fin 16 => (reached ER (kcell ck) 0 : sProp 𝕄)) ⊢ reached ER (kcell ck) 0 :=
  bigSep_elim (Finset.mem_univ ck)
theorem inv_at (ck : Dev nD × Fin 16) : records m K ⊢ cellInv ER (rsRd m) (K ck) (kcell ck) := by
  unfold records; iintro ⟨HI, -⟩; iapply (inv_at' m K ck); iexact HI
theorem reached_at (ck : Dev nD × Fin 16) : records m K ⊢ reached ER (kcell ck) 0 := by
  unfold records; iintro ⟨-, HR⟩; iapply (reached_at' (F := F) ck); iexact HR

theorem inv_bar (c : Dev nD) : records m K ⊢ cellInv ER (rsRd m) (K (c, 0)) (barCell c) := inv_at m K (c, 0)
theorem inv_send (c : Dev nD) (r : Fin 7) : records m K ⊢ cellInv ER (rsRd m) (K (c, jS r)) (sendCell c (off r)) := by
  have h := inv_at m K (c, jS r); unfold kcell at h; dsimp only at h; rw [csem_jS] at h; exact h
theorem inv_recv (c : Dev nD) (r : Fin 7) : records m K ⊢ cellInv ER (rsRd m) (K (c, jR r)) (recvCell c (off r)) := by
  have h := inv_at m K (c, jR r); unfold kcell at h; dsimp only at h; rw [csem_jR] at h; exact h
theorem inv_loc (c : Dev nD) : records m K ⊢ cellInv ER (rsRd m) (K (c, 15)) (locCell c) := by
  have h := inv_at m K (c, 15); unfold kcell at h; dsimp only at h; rw [csem_last] at h; exact h

theorem reached_bar (c : Dev nD) : records m K ⊢ reached ER (barCell c) 0 := reached_at m K (c, 0)
theorem reached_send (c : Dev nD) (r : Fin 7) : records m K ⊢ reached ER (sendCell c (off r)) 0 := by
  have h := reached_at m K (c, jS r); unfold kcell at h; dsimp only at h; rw [csem_jS] at h; exact h
theorem reached_recv (c : Dev nD) (r : Fin 7) : records m K ⊢ reached ER (recvCell c (off r)) 0 := by
  have h := reached_at m K (c, jR r); unfold kcell at h; dsimp only at h; rw [csem_jR] at h; exact h
theorem reached_loc (c : Dev nD) : records m K ⊢ reached ER (locCell c) 0 := by
  have h := reached_at m K (c, 15); unfold kcell at h; dsimp only at h; rw [csem_last] at h; exact h

end Records

/-! ## Whole-buffer reads and writes -/

omit [FloatOps F] in
theorem hz2 : (![0, 0] : Fin 2 → Nat) = fun _ => 0 := funext fun a => by fin_cases a <;> rfl
omit [FloatOps F] in
theorem hz3 : (![0, 0, 0] : Fin 3 → Nat) = fun _ => 0 := funext fun a => by fin_cases a <;> rfl
omit [FloatOps F] in
theorem read_x (f : (cc0_stg0_0 : Ref sig .tc).ty.Contents (Elt F)) : (xM : Memref sig .tc .vmem S1x256x2048 .f32).view.readAt (Elt F) rX.toLoadRect f = f :=
  Memref.readAt_unit_zero (Elt F) cc0_stg0_0 hz3 _ f
omit [FloatOps F] in
theorem read_a (f : (cc0_scratch2 : Ref sig .tc).ty.Contents (Elt F)) : (aM : Memref sig .tc .vmem S256x256 .f32).view.readAt (Elt F) rO.toLoadRect f = f :=
  Memref.readAt_unit_zero (Elt F) cc0_scratch2 hz2 _ f
omit [FloatOps F] in
theorem write_b (f w : (cc0_scratch0 : Ref sig .tc).ty.Contents (Elt F)) :
    ((bM : Memref sig .tc .vmem S256x2048 .bf16).access rB : View sig .tc _ _ _).write (Elt F) f w Finset.univ = w :=
  Memref.write_access_unit_zero_univ (Elt F) cc0_scratch0 hz2 _ f w
omit [FloatOps F] in
theorem write_out (f w : (cc0_stg1_0 : Ref sig .tc).ty.Contents (Elt F)) :
    ((oM : Memref sig .tc .vmem S256x256 .f32).access rO : View sig .tc _ _ _).write (Elt F) f w Finset.univ = w :=
  Memref.write_access_unit_zero_univ (Elt F) cc0_stg1_0 hz2 _ f w
omit [FloatOps F] in
/-- The local copy fills its whole destination: the own chunk, whatever was there. -/
theorem own_written (c : Dev nD) (fa : Buf (Elt F) ((aM : Memref sig .tc .vmem S256x256 .f32).view.loc (c : Thread nD τ))) :
    (aM : Memref sig .tc .vmem S256x256 .f32).view.write (Elt F) fa ((xChunk c).view.read (Elt F) (xstg m c)) Finset.univ = ownVal m c := by
  show (View.whole cc0_scratch2).write (Elt F) fa ((xChunk c).view.read (Elt F) (xstg m c)) Finset.univ = _
  exact View.write_whole_univ _ _ _

/-! ## Buffers held whole, spelt through their memrefs -/

omit [FloatOps F] in
theorem pts_x (c : Dev nD) (q : PosShare TreeShare) (f : Buf (Elt F) ((c : Thread nD τ).loc cc0_stg0_0)) :
    ((((c : Thread nD τ).loc cc0_stg0_0) ↦{q} f) : sProp 𝕄)
      = ((xM : Memref sig .tc .vmem S1x256x2048 .f32).view.loc (c : Thread nD τ) ↦[(xM : Memref sig .tc .vmem S1x256x2048 .f32).view.set]{q} f) := by
  rw [View.set_whole]
omit [FloatOps F] in
theorem pts_o (c : Dev nD) (f : Buf (Elt F) ((c : Thread nD τ).loc cc0_stg1_0)) :
    ((((c : Thread nD τ).loc cc0_stg1_0) ↦{fullShare} f) : sProp 𝕄)
      = ((oM : Memref sig .tc .vmem S256x256 .f32).view.loc (c : Thread nD τ) ↦[(oM : Memref sig .tc .vmem S256x256 .f32).view.set]{fullShare} f) := by
  rw [View.set_whole]
omit [FloatOps F] in
theorem pts_b (c : Dev nD) (f : Buf (Elt F) ((c : Thread nD τ).loc cc0_scratch0)) :
    ((((c : Thread nD τ).loc cc0_scratch0) ↦{fullShare} f) : sProp 𝕄)
      = ((bM : Memref sig .tc .vmem S256x2048 .bf16).view.loc (c : Thread nD τ) ↦[(bM : Memref sig .tc .vmem S256x2048 .bf16).view.set]{fullShare} f) := by
  rw [View.set_whole]
omit [FloatOps F] in
theorem pts_r (c : Dev nD) (f : Buf (Elt F) ((c : Thread nD τ).loc cc0_scratch1)) :
    ((((c : Thread nD τ).loc cc0_scratch1) ↦{fullShare} f) : sProp 𝕄)
      = ((rM : Memref sig .tc .vmem S8x256x256 .bf16).view.loc (c : Thread nD τ) ↦[(rM : Memref sig .tc .vmem S8x256x256 .bf16).view.set]{fullShare} f) := by
  rw [View.set_whole]
omit [FloatOps F] in
theorem pts_a (c : Dev nD) (f : Buf (Elt F) ((c : Thread nD τ).loc cc0_scratch2)) :
    ((((c : Thread nD τ).loc cc0_scratch2) ↦{fullShare} f) : sProp 𝕄)
      = ((aM : Memref sig .tc .vmem S256x256 .f32).view.loc (c : Thread nD τ) ↦[(aM : Memref sig .tc .vmem S256x256 .f32).view.set]{fullShare} f) := by
  rw [View.set_whole]

/-! ## The kernel's `device_id` chains: signal `off r` and copy `r` both name the device `off r` places on -/

theorem dev1 (c : Dev nD) : (⟨k0_dev1 c, k0_dev1_lt c⟩ : Dev nD) = shift c (off 0) := Fin.ext ((k0_dev1_eq c).trans rfl)
theorem dev2 (c : Dev nD) : (⟨k0_dev2 c, k0_dev2_lt c⟩ : Dev nD) = shift c (off 1) := Fin.ext ((k0_dev2_eq c).trans rfl)
theorem dev3 (c : Dev nD) : (⟨k0_dev3 c, k0_dev3_lt c⟩ : Dev nD) = shift c (off 2) := Fin.ext ((k0_dev3_eq c).trans rfl)
theorem dev4 (c : Dev nD) : (⟨k0_dev4 c, k0_dev4_lt c⟩ : Dev nD) = shift c (off 3) := Fin.ext ((k0_dev4_eq c).trans rfl)
theorem dev5 (c : Dev nD) : (⟨k0_dev5 c, k0_dev5_lt c⟩ : Dev nD) = shift c (off 4) := Fin.ext ((k0_dev5_eq c).trans rfl)
theorem dev6 (c : Dev nD) : (⟨k0_dev6 c, k0_dev6_lt c⟩ : Dev nD) = shift c (off 5) := Fin.ext ((k0_dev6_eq c).trans rfl)
theorem dev7 (c : Dev nD) : (⟨k0_dev7 c, k0_dev7_lt c⟩ : Dev nD) = shift c (off 6) := Fin.ext ((k0_dev7_eq c).trans rfl)
theorem dev8 (c : Dev nD) : (⟨k0_dev8 c, k0_dev8_lt c⟩ : Dev nD) = shift c (off 0) := Fin.ext ((k0_dev8_eq c).trans rfl)
theorem dev9 (c : Dev nD) : (⟨k0_dev9 c, k0_dev9_lt c⟩ : Dev nD) = shift c (off 3) := Fin.ext ((k0_dev9_eq c).trans rfl)
theorem dev10 (c : Dev nD) : (⟨k0_dev10 c, k0_dev10_lt c⟩ : Dev nD) = shift c (off 6) := Fin.ext ((k0_dev10_eq c).trans rfl)
theorem dev11 (c : Dev nD) : (⟨k0_dev11 c, k0_dev11_lt c⟩ : Dev nD) = shift c (off 1) := Fin.ext ((k0_dev11_eq c).trans rfl)
theorem dev12 (c : Dev nD) : (⟨k0_dev12 c, k0_dev12_lt c⟩ : Dev nD) = shift c (off 2) := Fin.ext ((k0_dev12_eq c).trans rfl)
theorem dev13 (c : Dev nD) : (⟨k0_dev13 c, k0_dev13_lt c⟩ : Dev nD) = shift c (off 4) := Fin.ext ((k0_dev13_eq c).trans rfl)
theorem dev14 (c : Dev nD) : (⟨k0_dev14 c, k0_dev14_lt c⟩ : Dev nD) = shift c (off 5) := Fin.ext ((k0_dev14_eq c).trans rfl)

/-- The barrier payload this device hands the device `off r` places on, resolved at this device. -/
theorem payload_bar_peer (c : Dev nD) (r : Fin 7) :
    (rsRd (F := F) m).payload (barCell (shift c (off r))) 0 (off r)
      = iprop((∃ f, slotPts c (off r) f) ∗ reached ER (recvCell c (off r)) 0) := by
  rw [payload_bar]; unfold barPay; rw [shift_opp]

/-! ## One rule per kind of step, at a symbolic peer -/

section Steps
variable (K : Dev nD × Fin 16 → ℕ)

/-- The local copy of the own chunk: the local cell's one duty paid, its credit received. -/
theorem wp_loc (c : Dev nD) (fa : Buf (Elt F) ((aM : Memref sig .tc .vmem S256x256 .f32).view.loc (c : Thread nD τ)))
    {hsrc : (xChunk c).view.WordExact} {hdst : (aM : Memref sig .tc .vmem S256x256 .f32).view.WordExact}
    {hsem : DmaTarget.Typed (nD := nD) .vmem (.dma locSem) (.here aM : DmaTarget nD τ sig (c : Thread nD τ).2 .vmem S256x256 .f32)}
    {α : Type} {Q : α → sProp 𝕄} {k : PUnit → Prog (TpuEff nD τ sig (Elt F) Λ₀ .tc) α} :
    iprop(records m K ∗ ownSrcPts m c ∗ ownDstPts c fa ∗ dutyTok ER (locCell c) 0 (0 : Fin 8))
      ⊢ iprop((cred (tallyAt (locCell c) () NL) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (xChunk c) (.here aM) (.dma locSem) hsrc hdst hsem) k) Q) := by
  unfold ownSrcPts ownDstPts
  iintro ⟨#Hrec, Hs, Hd, Ht⟩
  iapply (Rounds.wp_copy_pointsTo 𝒱₀ ER (rsRd m) (c : Thread nD τ) none (κ := K (c, 15)) (r := 0) (d := (0 : Fin 8)) (fd := fa)
      (by rw [duties_loc]; exact Finset.mem_singleton_self _) () NL rfl (amount_loc m c 0)
      (by rw [payload_loc]; unfold locPay ownDstPts ownSrcPts; rw [own_written]))
  isplitr; · iapply (inv_loc m K c); iexact Hrec
  isplitl [Hs]; · iexact Hs
  isplitl [Hd]; · iexact Hd
  isplitl [Ht]; · iexact Ht
  iapply (reached_loc m K c); iexact Hrec

/-- Signal number `off r`, to the device `n` that many places on: it pays duty `off r` of `n`'s barrier cell with this
    device's receive slot `off r` and the fact that its receive cell `off r` is at round 0. -/
theorem wp_sig (c n : Dev nD) (r : Fin 7) (hn : n = shift c (off r)) (f0 : Buf (Elt F) ((slot (off r)).view.loc (c : Thread nD τ)))
    (O : CellTallies nD τ sig Unit) (W : Waits sig Unit) {k' : ℕ} (hk' : k' = 1)
    {α : Type} {Q : α → sProp 𝕄} {k : PUnit → Prog (TpuEff nD τ sig (Elt F) Λ₀ .tc) α} :
    iprop(records m K ∗ slotPts c (off r) f0 ∗ owes (c : Thread nD τ) (O + sigTally c r) W
        ∗ dutyTok ER (barCell (shift c (off r))) 0 (off r))
      ⊢ iprop((owes (c : Thread nD τ) O W -∗ wp frame (wpE (defs₀ (F := F)) 𝒱₀ (c : Thread nD τ) none) Set.univ (k ⟨⟩) Q)
          -∗ wp frame (wpE (defs₀ (F := F)) 𝒱₀ (c : Thread nD τ) none) Set.univ
              (.op (.semSignal (n : Thread nD τ) barS k') k) Q) := by
  subst hn hk'
  iintro ⟨#Hrec, Hslot, HO, Ht⟩
  iapply (Rounds.wp_signal 𝒱₀ ER (rsRd m) (c : Thread nD τ) none (dst := (shift c (off r) : Thread nD τ)) (κ := K (shift c (off r), 0))
      (d := off r) (by rw [duties_bar]; exact Finset.mem_erase.mpr ⟨off_ne_zero r, Finset.mem_univ _⟩)
      (amount_bar m (shift c (off r)) (off r)) () O rfl) $$ [HO Ht Hslot]
  isplitr; · iapply (inv_bar m K (shift c (off r))); iexact Hrec
  isplitl [HO]; · unfold sigTally; iexact HO
  isplitl [Ht]; · iexact Ht
  isplitl [Hslot]
  · rw [payload_bar]; unfold barPay; rw [shift_opp]
    isplitl [Hslot]; · iexists f0; iexact Hslot
    iapply (reached_recv m K c r); iexact Hrec
  · iapply (reached_bar m K (shift c (off r))); iexact Hrec

/-- What the copy writes into the peer's slot does not depend, on the slot's elements, on what the buffer held:
    the schedule states it over the buffer as launched. (The geometry is `slot_write_congr`.) -/
theorem landed_pts (p : Dev nD) (s : Fin 8) (fd fd' : Buf (Elt F) ((slot s).view.loc (p : Thread nD τ))) (w : S256x256.Idx → Elt F .bf16) :
    (((slot s).view.loc (p : Thread nD τ)) ↦[(slot s).view.set]{fullShare} (slot s).view.write (Elt F) fd w Finset.univ : sProp 𝕄)
      = (((slot s).view.loc (p : Thread nD τ)) ↦[(slot s).view.set]{fullShare} (slot s).view.write (Elt F) fd' w Finset.univ) :=
  pointsTo_congr (slot_write_congr s fd fd' w)

/-- Copy number `r`: chunk `off r` places on of the image, to slot `off (rev r)` of the device `n` that many places on, on
    this device's send cell `off r` and `n`'s receive cell `off (rev r)`. -/
theorem wp_snd (c n : Dev nD) (r : Fin 7) (hn : n = shift c (off r)) (ks kr : Fin 8) (hks : ks = off r) (hkr : kr = off (rev r))
    {hsc : (slot kr : Memref sig (Dev.tc n : Thread nD τ).2.kind .vmem S256x256 .bf16).view.ref.isScScratch = false}
    {hsrc : (bChunk c r).view.WordExact} {hdst : (slot kr).view.WordExact}
    {hsem : DmaTarget.Typed .vmem (.dma (recvSem kr)) (.remote (Dev.tc n : Thread nD τ) (slot kr) (.dma (sendSem ks)) hsc)}
    (fn : Buf (Elt F) ((slot kr).view.loc (shift c (off r) : Thread nD τ))) (O : CellTallies nD τ sig Unit) (W : Waits sig Unit)
    {α : Type} {Q : α → sProp 𝕄} {k : PUnit → Prog (TpuEff nD τ sig (Elt F) Λ₀ .tc) α} :
    iprop(records m K ∗ chunkPts m c r ∗ slotPts (shift c (off r)) kr fn ∗ owes (c : Thread nD τ) (O + sndTally c r) W
        ∗ dutyTok ER (sendCell c (off r)) 0 (0 : Fin 8) ∗ dutyTok ER (recvCell (shift c (off r)) (off (rev r))) 0 (0 : Fin 8))
      ⊢ iprop(((cred (tallyAt (sendCell c (off r)) () NB) ∗ owes (c : Thread nD τ) O W)
              -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (bChunk c r) (.remote (Dev.tc n : Thread nD τ) (slot kr) (.dma (sendSem ks)) hsc) (.dma (recvSem kr)) hsrc hdst hsem) k) Q) := by
  subst hn hks hkr
  unfold chunkPts slotPts
  iintro ⟨#Hrec, Hsrc, Hdst, HO, HtS, HtR⟩
  iapply (Rounds.wp_send_pointsTo 𝒱₀ ER (rsRd m) (c : Thread nD τ) none (κ₁ := K (c, jS r)) (κ₂ := K (shift c (off r), jR (rev r)))
      (r₁ := 0) (r₂ := 0) (d₁ := (0 : Fin 8)) (d₂ := (0 : Fin 8)) (fd := fn)
      (by rw [duties_send]; exact Finset.mem_singleton_self _) (by rw [duties_recv]; exact Finset.mem_singleton_self _)
      () () NB rfl (amount_send m c r 0) (amount_recv m (shift c (off r)) (rev r) 0) O rfl (W := W)
      (by rw [payload_send]; exact BI.Entails.refl _)
      (by
        rw [payload_recv]; unfold recvPay slotPts landedBuf landVal
        rw [off_rev, shift_opp, rev_rev, ← off_rev]
        exact Entails.of_eq (landed_pts _ _ _ _ _)))
  isplitr; · iapply (inv_send m K c r); iexact Hrec
  isplitr; · iapply (inv_recv m K (shift c (off r)) (rev r)); iexact Hrec
  isplitl [Hsrc]; · iexact Hsrc
  isplitl [Hdst]; · iexact Hdst
  isplitl [HO]; · unfold sndTally; iexact HO
  isplitl [HtS]; · iexact HtS
  isplitr; · iapply (reached_send m K c r); iexact Hrec
  isplitl [HtR]; · iexact HtR
  iapply (reached_recv m K (shift c (off r)) (rev r)); iexact Hrec

/-- A wait for one of this device's DMA cells' one duty, owing nothing: the position moves to round 1 and the duty's payload comes back. -/
theorem wp_dwait (c : Dev nD) (j : Fin 16) (q : DmaSem sig) (hq : csem j = .dma q) (N : ℕ)
    (hexp : (rsRd (F := F) m).expect ((c : Thread nD τ), .dma q) 0 = N) (W : Waits sig Unit)
    {sp sp' : Space} {sh sh' : Shape} {e e' : EltTy} {κ' : Kind}
    {srcw : Memref sig (c : Thread nD τ).2.kind sp' sh' e'} {dstw : Memref sig κ' sp sh e} {hsrc : srcw.view.WordExact} {hdst : dstw.view.WordExact}
    (hN : dstw.view.dmaCredit = N)
    {α : Type} {Q : α → sProp 𝕄} {k : PUnit → Prog (TpuEff nD τ sig (Elt F) Λ₀ .tc) α} :
    iprop(records m K ∗ cred (tallyAt ((c : Thread nD τ), .dma q) () N) ∗ owes (c : Thread nD τ) 0 W ∗ atPos ER ((c : Thread nD τ), .dma q) 0 ∅ 0)
      ⊢ iprop(((owes (c : Thread nD τ) 0 (insert (SemLoc.dma q, ()) W) ∗ atPos ER ((c : Thread nD τ), .dma q) 1 ∅ 0
              ∗ bigSep ((rsRd (F := F) m).duties ((c : Thread nD τ), .dma q) 0 \ ∅) (fun d => (rsRd (F := F) m).payload ((c : Thread nD τ), .dma q) 0 d))
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 q srcw dstw hsrc hdst) k) Q) := by
  subst hN
  iintro ⟨#Hrec, Hc, HO, Hat⟩ Hk
  iapply (Rounds.wp_wait_rest_token 𝒱₀ ER (rsRd m) (c : Thread nD τ) none (κ := K (c, j))
      (wpE_waitDma2_eq 𝒱₀ (c : Thread nD τ) none Set.univ) (Set.mem_univ _) () (O := 0) (W := W) (R := 0) (m := 0) (T := ∅)
      (by rw [Nat.zero_add, hexp])) $$ [Hc HO Hat]
  · isplitr
    · have h := inv_at m K (c, j); unfold kcell at h; dsimp only at h; rw [hq] at h
      iapply h; iexact Hrec
    isplitl [Hc]; · iexact Hc
    isplitl [HO]; · iexact HO
    isplitr; · rw [MayWait_zero]; iempintro
    iexact Hat
  iintro ⟨HO, Hat, -, Hpay⟩
  iapply Hk
  isplitl [HO]; · iexact HO
  isplitl [Hat]; · iexact Hat
  iexact Hpay

/-- A used DMA cell, its one round consumed, closes: its counter at zero is the device's again. -/
theorem cell_done (c : Dev nD) (j : Fin 16) (q : DmaSem sig) (hq : csem j = .dma q) :
    iprop(records m K ∗ atPos ER ((c : Thread nD τ), SemLoc.dma q) 1 ∅ 0) ⊢ iprop(|={Set.univ}=> semVal ((c : Thread nD τ), SemLoc.dma q) 0) := by
  iintro ⟨#Hrec, Hat⟩
  iapply (Rounds.cell_close ER (rsRd m) (Set.mem_univ (K (c, j))) (fun h => h) (R := 0 + 1) (duties_later m ((c : Thread nD τ), SemLoc.dma q)))
  isplitr
  · have h := inv_at m K (c, j); unfold kcell at h; dsimp only at h; rw [hq] at h
    iapply h; iexact Hrec
  iexact Hat

end Steps

set_option maxHeartbeats 4000000 in
/-- The body, symbolically executed from `bodyPre` to `bodyPost`. -/
theorem sound_body (K : Dev nD × Fin 16 → ℕ) (c : Dev nD) (Kt : PUnit → sProp 𝕄) :
    iprop(bodyPre m ρ K c ∗ (bodyPost m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_scratch0) (Memref.isWhole_whole _) (Memref.whole cc0_scratch1) (Memref.isWhole_whole _)
            (Memref.whole cc0_scratch2) (Memref.isWhole_whole _) cc0_scratch3 cc0_scratch4 cc0_scratch5) Kt := by
  simp only [cc0_body_eq_skeleton]; unfold cc0_body_skel
  simp only [k0_part1_eq_skeleton, k0_part2_eq_skeleton, k0_part3_eq_skeleton, k0_part4_eq_skeleton, k0_part5_eq_skeleton,
    k0_part6_eq_skeleton, k0_part7_eq_skeleton, k0_part8_eq_skeleton, k0_part9_eq_skeleton]
  unfold k0_part1_skel k0_part2_skel k0_part3_skel k0_part4_skel k0_part5_skel k0_part6_skel k0_part7_skel k0_part8_skel k0_part9_skel
  simp only [semSignalWord, semWaitWord, Prog.lift, Prog.bind_op, Prog.bind_ret, Prog.pure_eq_ret, Prog.bind_assoc, wp_deviceId]
  simp only [semS1, semS2, semS3, semS4, semS5, semS6, semS7, semR1, semR2, semR3, semR4, semR5, semR6, semR7, semL]
  unfold bodyPre ghost positions payToks creds idle scr
  simp only [bigSep_fin7]
  iintro ⟨⟨⟨⟨#Hrec, ⟨HatB, ⟨HaS0, HaS1, HaS2, HaS3, HaS4, HaS5, HaS6⟩, ⟨HaR0, HaR1, HaR2, HaR3, HaR4, HaR5, HaR6⟩, HatL⟩,
      ⟨⟨HtB0, HtB1, HtB2, HtB3, HtB4, HtB5, HtB6⟩, ⟨HtR0, HtR1, HtR2, HtR3, HtR4, HtR5, HtR6⟩, ⟨HtS0, HtS1, HtS2, HtS3, HtS4, HtS5, HtS6⟩, HtL⟩⟩,
      ⟨HcB, ⟨HcR0, HcR1, HcR2, HcR3, HcR4, HcR5, HcR6⟩⟩, ⟨HiS, HiR⟩, #Hlev, ⟨⟨%fb, Hb⟩, ⟨%fr, Hr⟩, ⟨%fa, Ha⟩⟩⟩,
    Ho, ⟨%d0, %g0, %hg0, Hx⟩, ⟨%d1, %g1, %hg1, Hout⟩⟩, Hk⟩
  have hx : g0 = xstg m c := by rw [hg0]; unfold Dat.before; rw [if_pos (fetch0_0 t₀)]; rfl
  subst hx
  unfold Dat.owesAt Pipeline.owesWithin
  icases Ho with ⟨%W, %hW, HO⟩
  rw [show (dats m ρ 0 c).owed t₀.castSucc = O₀ c from rfl]
  simp only [O₀, owedG, owedS, sendOrder]
  simp only [dev1 c, dev2 c, dev3 c, dev4 c, dev5 c, dev6 c, dev7 c]
  -- the staged block: its own chunk at the left half share for the local copy, the rest of the left half, the right half for the loads
  ihave HxS := (block_carve (F := F) c _).1 $$ Hx
  icases HxS with ⟨HxC, HxLrest, HxR⟩
  ihave Ha := (Entails.of_eq (pts_a (F := F) c _)) $$ Ha
  iapply (wp_loc m K c fa) $$ [HxC Ha HtL]
  · isplitr; · iexact Hrec
    isplitl [HxC]; · unfold ownSrcPts; iexact HxC
    isplitl [Ha]; · unfold ownDstPts; iexact Ha
    iexact HtL
  iintro HcL
  -- the slot buffer carved into its seven used slots and the rest
  have hsl := (slots_carve (F := F) c fr).1
  rw [bigSep_fin7] at hsl
  ihave Hr := hsl $$ Hr
  icases Hr with ⟨⟨Hs0, Hs1, Hs2, Hs3, Hs4, Hs5, Hs6⟩, Hrrest⟩
  -- signal 1: this device's receive slot 1 goes with it
  iapply (wp_sig m K c _ 0 rfl fr (owedG c [1, 2, 3, 4, 5, 6]) W rfl) $$ [Hs0 HO HtB0]
  · isplitr; · iexact Hrec
    isplitl [Hs0]; · iexact Hs0
    isplitl [HO]; · iexact HO
    iexact HtB0
  iintro HO
  -- signal 2: this device's receive slot 2 goes with it
  iapply (wp_sig m K c _ 1 rfl fr (owedG c [2, 3, 4, 5, 6]) W rfl) $$ [Hs1 HO HtB1]
  · isplitr; · iexact Hrec
    isplitl [Hs1]; · iexact Hs1
    isplitl [HO]; · iexact HO
    iexact HtB1
  iintro HO
  -- signal 3: this device's receive slot 3 goes with it
  iapply (wp_sig m K c _ 2 rfl fr (owedG c [3, 4, 5, 6]) W rfl) $$ [Hs2 HO HtB2]
  · isplitr; · iexact Hrec
    isplitl [Hs2]; · iexact Hs2
    isplitl [HO]; · iexact HO
    iexact HtB2
  iintro HO
  -- signal 4: this device's receive slot 4 goes with it
  iapply (wp_sig m K c _ 3 rfl fr (owedG c [4, 5, 6]) W rfl) $$ [Hs3 HO HtB3]
  · isplitr; · iexact Hrec
    isplitl [Hs3]; · iexact Hs3
    isplitl [HO]; · iexact HO
    iexact HtB3
  iintro HO
  -- signal 5: this device's receive slot 5 goes with it
  iapply (wp_sig m K c _ 4 rfl fr (owedG c [5, 6]) W rfl) $$ [Hs4 HO HtB4]
  · isplitr; · iexact Hrec
    isplitl [Hs4]; · iexact Hs4
    isplitl [HO]; · iexact HO
    iexact HtB4
  iintro HO
  -- signal 6: this device's receive slot 6 goes with it
  iapply (wp_sig m K c _ 5 rfl fr (owedG c [6]) W rfl) $$ [Hs5 HO HtB5]
  · isplitr; · iexact Hrec
    isplitl [Hs5]; · iexact Hs5
    isplitl [HO]; · iexact HO
    iexact HtB5
  iintro HO
  -- signal 7: this device's receive slot 7 goes with it
  iapply (wp_sig m K c _ 6 rfl fr (owedG c []) W rfl) $$ [Hs6 HO HtB6]
  · isplitr; · iexact Hrec
    isplitl [Hs6]; · iexact Hs6
    isplitl [HO]; · iexact HO
    iexact HtB6
  iintro HO
  -- the staged block loaded whole (through the right half), the image buffer loaded and stored whole: the bf16 image
  iapply (wp_load 𝒱₀ (c : Thread nD τ) none Set.univ (m := xM) (Finset.subset_univ _)) $$ HxR; iintro HxR
  rw [read_x]
  iapply (wp_load 𝒱₀ (c : Thread nD τ) none Set.univ (m := bM) (Finset.subset_univ _)) $$ Hb; iintro Hb
  iapply (wp_store 𝒱₀ (c : Thread nD τ) none Set.univ (m := bM) (r := rB) (Mk := Finset.univ) (Finset.subset_univ _)) $$ Hb; iintro Hb
  rw [write_b]
  -- the WAIT for seven on the barrier cell, owing the seven copies' credit: the peers' slots come with it
  iapply (Rounds.wp_wait_rest_token 𝒱₀ ER (rsRd m) (c : Thread nD τ) none (κ := K (c, 0))
      (wpE_semWait_eq 𝒱₀ (c : Thread nD τ) none Set.univ) (Set.mem_univ _) () (O := owedS c sendOrder) (W := W) (R := 0) (m := 0) (T := ∅)
      (by rw [expect_bar]; decide)) $$ [HcB HO HatB]
  · isplitr; · iapply (inv_bar m K c); iexact Hrec
    isplitl [HcB]; · iexact HcB
    isplitl [HO]; · iexact HO
    isplitr; · iapply (mayWait_bar c); iexact Hlev
    iexact HatB
  iintro ⟨HO, HatB, -, Hpay⟩
  ihave Hp := (Entails.of_eq (rest_bar m c)) $$ Hpay
  unfold barPay
  icases Hp with ⟨⟨⟨%f1, Hp1⟩, -⟩, ⟨⟨%f2, Hp2⟩, -⟩, ⟨⟨%f3, Hp3⟩, -⟩, ⟨⟨%f4, Hp4⟩, -⟩, ⟨⟨%f5, Hp5⟩, -⟩, ⟨⟨%f6, Hp6⟩, -⟩, ⟨⟨%f7, Hp7⟩, -⟩⟩
  -- the image carved into the seven chunks it sends and the rest (its own chunk)
  have hb : (iprop((((bM : Memref sig .tc .vmem S256x2048 .bf16).access rB : View sig .tc _ _ _).loc (c : Thread nD τ)) ↦{fullShare} k0_pay1 (xstg m c)) : sProp 𝕄)
      ⊢ iprop(((c : Thread nD τ).loc cc0_scratch0) ↦{fullShare} xbBuf m c) := BI.Entails.refl _
  ihave Hb := hb $$ Hb
  have him := (image_carve (F := F) c (xbBuf m c)).1
  rw [bigSep_fin7] at him
  ihave Hb := him $$ Hb
  icases Hb with ⟨⟨Hch0, Hch1, Hch2, Hch3, Hch4, Hch5, Hch6⟩, Hbrest⟩
  -- copy 0 : chunk of the device 1 places on, into its slot 7
  iapply (wp_snd m K c _ 0 (dev8 c) 1 7 (by decide) (by decide) f7 (owedS c [3, 6, 1, 2, 4, 5]) (insert (SemLoc.reg barS, ()) W)) $$ [Hch0 Hp7 HO HtS0 HtR0]
  · isplitr; · iexact Hrec
    isplitl [Hch0]; · unfold chunkPts; iexact Hch0
    isplitl [Hp7]; · iexact Hp7
    isplitl [HO]; · iexact HO
    isplitl [HtS0]; · iexact HtS0
    iexact HtR0
  iintro ⟨HcS0, HO⟩
  -- copy 3 : chunk of the device 4 places on, into its slot 4
  iapply (wp_snd m K c _ 3 (dev9 c) 4 4 (by decide) (by decide) f4 (owedS c [6, 1, 2, 4, 5]) (insert (SemLoc.reg barS, ()) W)) $$ [Hch3 Hp4 HO HtS3 HtR3]
  · isplitr; · iexact Hrec
    isplitl [Hch3]; · unfold chunkPts; iexact Hch3
    isplitl [Hp4]; · iexact Hp4
    isplitl [HO]; · iexact HO
    isplitl [HtS3]; · iexact HtS3
    iexact HtR3
  iintro ⟨HcS3, HO⟩
  -- copy 6 : chunk of the device 7 places on, into its slot 1
  iapply (wp_snd m K c _ 6 (dev10 c) 7 1 (by decide) (by decide) f1 (owedS c [1, 2, 4, 5]) (insert (SemLoc.reg barS, ()) W)) $$ [Hch6 Hp1 HO HtS6 HtR6]
  · isplitr; · iexact Hrec
    isplitl [Hch6]; · unfold chunkPts; iexact Hch6
    isplitl [Hp1]; · iexact Hp1
    isplitl [HO]; · iexact HO
    isplitl [HtS6]; · iexact HtS6
    iexact HtR6
  iintro ⟨HcS6, HO⟩
  -- copy 1 : chunk of the device 2 places on, into its slot 6
  iapply (wp_snd m K c _ 1 (dev11 c) 2 6 (by decide) (by decide) f6 (owedS c [2, 4, 5]) (insert (SemLoc.reg barS, ()) W)) $$ [Hch1 Hp6 HO HtS1 HtR1]
  · isplitr; · iexact Hrec
    isplitl [Hch1]; · unfold chunkPts; iexact Hch1
    isplitl [Hp6]; · iexact Hp6
    isplitl [HO]; · iexact HO
    isplitl [HtS1]; · iexact HtS1
    iexact HtR1
  iintro ⟨HcS1, HO⟩
  -- copy 2 : chunk of the device 3 places on, into its slot 5
  iapply (wp_snd m K c _ 2 (dev12 c) 3 5 (by decide) (by decide) f5 (owedS c [4, 5]) (insert (SemLoc.reg barS, ()) W)) $$ [Hch2 Hp5 HO HtS2 HtR2]
  · isplitr; · iexact Hrec
    isplitl [Hch2]; · unfold chunkPts; iexact Hch2
    isplitl [Hp5]; · iexact Hp5
    isplitl [HO]; · iexact HO
    isplitl [HtS2]; · iexact HtS2
    iexact HtR2
  iintro ⟨HcS2, HO⟩
  -- copy 4 : chunk of the device 5 places on, into its slot 3
  iapply (wp_snd m K c _ 4 (dev13 c) 5 3 (by decide) (by decide) f3 (owedS c [5]) (insert (SemLoc.reg barS, ()) W)) $$ [Hch4 Hp3 HO HtS4 HtR4]
  · isplitr; · iexact Hrec
    isplitl [Hch4]; · unfold chunkPts; iexact Hch4
    isplitl [Hp3]; · iexact Hp3
    isplitl [HO]; · iexact HO
    isplitl [HtS4]; · iexact HtS4
    iexact HtR4
  iintro ⟨HcS4, HO⟩
  -- copy 5 : chunk of the device 6 places on, into its slot 2
  iapply (wp_snd m K c _ 5 (dev14 c) 6 2 (by decide) (by decide) f2 (owedS c []) (insert (SemLoc.reg barS, ()) W)) $$ [Hch5 Hp2 HO HtS5 HtR5]
  · isplitr; · iexact Hrec
    isplitl [Hch5]; · unfold chunkPts; iexact Hch5
    isplitl [Hp2]; · iexact Hp2
    isplitl [HO]; · iexact HO
    isplitl [HtS5]; · iexact HtS5
    iexact HtR5
  iintro ⟨HcS5, HO⟩
  -- the WAIT of the local copy: the own chunk delivered, the share of the staged block it read back
  iapply (wp_dwait m K c 15 locSem csem_last NL (expect_loc m c) _ (by rfl)) $$ [HcL HO HatL]
  · isplitr; · iexact Hrec
    isplitl [HcL]; · iexact HcL
    isplitl [HO]; · iexact HO
    iexact HatL
  iintro ⟨HO, HatL, Hpay⟩
  ihave Hp := (Entails.of_eq (rest_loc m c)) $$ Hpay
  unfold locPay
  icases Hp with ⟨Ha, HxC⟩
  unfold ownDstPts
  iapply (wp_load 𝒱₀ (c : Thread nD τ) none Set.univ (m := aM) (by rw [View.set_whole]; exact Finset.subset_univ _)) $$ Ha; iintro Ha
  rw [read_a]
  -- the wait on receive cell 1: slot 1 back, holding the chunk the device 1 places on sent
  iapply (wp_dwait m K c (jR 0) (recvSem (off 0)) (csem_jR 0) NB (expect_recv m c 0) _ (by rfl)) $$ [HcR0 HO HaR0]
  · isplitr; · iexact Hrec
    isplitl [HcR0]; · iexact HcR0
    isplitl [HO]; · iexact HO
    iexact HaR0
  iintro ⟨HO, HaR0, Hpay⟩
  ihave Hl0 := (Entails.of_eq (rest_recv m c 0)) $$ Hpay
  unfold recvPay
  iapply (wp_load_slot c (off 0) (landedBuf m c 0)) $$ Hl0; iintro Hl0
  -- the wait on receive cell 2: slot 2 back, holding the chunk the device 2 places on sent
  iapply (wp_dwait m K c (jR 1) (recvSem (off 1)) (csem_jR 1) NB (expect_recv m c 1) _ (by rfl)) $$ [HcR1 HO HaR1]
  · isplitr; · iexact Hrec
    isplitl [HcR1]; · iexact HcR1
    isplitl [HO]; · iexact HO
    iexact HaR1
  iintro ⟨HO, HaR1, Hpay⟩
  ihave Hl1 := (Entails.of_eq (rest_recv m c 1)) $$ Hpay
  unfold recvPay
  iapply (wp_load_slot c (off 1) (landedBuf m c 1)) $$ Hl1; iintro Hl1
  -- the wait on receive cell 3: slot 3 back, holding the chunk the device 3 places on sent
  iapply (wp_dwait m K c (jR 2) (recvSem (off 2)) (csem_jR 2) NB (expect_recv m c 2) _ (by rfl)) $$ [HcR2 HO HaR2]
  · isplitr; · iexact Hrec
    isplitl [HcR2]; · iexact HcR2
    isplitl [HO]; · iexact HO
    iexact HaR2
  iintro ⟨HO, HaR2, Hpay⟩
  ihave Hl2 := (Entails.of_eq (rest_recv m c 2)) $$ Hpay
  unfold recvPay
  iapply (wp_load_slot c (off 2) (landedBuf m c 2)) $$ Hl2; iintro Hl2
  -- the wait on receive cell 4: slot 4 back, holding the chunk the device 4 places on sent
  iapply (wp_dwait m K c (jR 3) (recvSem (off 3)) (csem_jR 3) NB (expect_recv m c 3) _ (by rfl)) $$ [HcR3 HO HaR3]
  · isplitr; · iexact Hrec
    isplitl [HcR3]; · iexact HcR3
    isplitl [HO]; · iexact HO
    iexact HaR3
  iintro ⟨HO, HaR3, Hpay⟩
  ihave Hl3 := (Entails.of_eq (rest_recv m c 3)) $$ Hpay
  unfold recvPay
  iapply (wp_load_slot c (off 3) (landedBuf m c 3)) $$ Hl3; iintro Hl3
  -- the wait on receive cell 5: slot 5 back, holding the chunk the device 5 places on sent
  iapply (wp_dwait m K c (jR 4) (recvSem (off 4)) (csem_jR 4) NB (expect_recv m c 4) _ (by rfl)) $$ [HcR4 HO HaR4]
  · isplitr; · iexact Hrec
    isplitl [HcR4]; · iexact HcR4
    isplitl [HO]; · iexact HO
    iexact HaR4
  iintro ⟨HO, HaR4, Hpay⟩
  ihave Hl4 := (Entails.of_eq (rest_recv m c 4)) $$ Hpay
  unfold recvPay
  iapply (wp_load_slot c (off 4) (landedBuf m c 4)) $$ Hl4; iintro Hl4
  -- the wait on receive cell 6: slot 6 back, holding the chunk the device 6 places on sent
  iapply (wp_dwait m K c (jR 5) (recvSem (off 5)) (csem_jR 5) NB (expect_recv m c 5) _ (by rfl)) $$ [HcR5 HO HaR5]
  · isplitr; · iexact Hrec
    isplitl [HcR5]; · iexact HcR5
    isplitl [HO]; · iexact HO
    iexact HaR5
  iintro ⟨HO, HaR5, Hpay⟩
  ihave Hl5 := (Entails.of_eq (rest_recv m c 5)) $$ Hpay
  unfold recvPay
  iapply (wp_load_slot c (off 5) (landedBuf m c 5)) $$ Hl5; iintro Hl5
  -- the wait on receive cell 7: slot 7 back, holding the chunk the device 7 places on sent
  iapply (wp_dwait m K c (jR 6) (recvSem (off 6)) (csem_jR 6) NB (expect_recv m c 6) _ (by rfl)) $$ [HcR6 HO HaR6]
  · isplitr; · iexact Hrec
    isplitl [HcR6]; · iexact HcR6
    isplitl [HO]; · iexact HO
    iexact HaR6
  iintro ⟨HO, HaR6, Hpay⟩
  ihave Hl6 := (Entails.of_eq (rest_recv m c 6)) $$ Hpay
  unfold recvPay
  iapply (wp_load_slot c (off 6) (landedBuf m c 6)) $$ Hl6; iintro Hl6
  -- the accumulated sum stored into the output block
  iapply (wp_load 𝒱₀ (c : Thread nD τ) none Set.univ (m := oM) (Finset.subset_univ _)) $$ Hout; iintro Hout
  iapply (wp_store 𝒱₀ (c : Thread nD τ) none Set.univ (m := oM) (r := rO) (Mk := Finset.univ) (Finset.subset_univ _)) $$ Hout; iintro Hout
  rw [write_out]
  -- the wait on send cell 1: the chunk sent with copy 0 back
  iapply (wp_dwait m K c (jS 0) (sendSem (off 0)) (csem_jS 0) NB (expect_send m c 0) _ (by rfl)) $$ [HcS0 HO HaS0]
  · isplitr; · iexact Hrec
    isplitl [HcS0]; · iexact HcS0
    isplitl [HO]; · iexact HO
    iexact HaS0
  iintro ⟨HO, HaS0, Hpay⟩
  ihave Hch0 := (Entails.of_eq (rest_send m c 0)) $$ Hpay
  unfold sendPay
  -- the wait on send cell 4: the chunk sent with copy 3 back
  iapply (wp_dwait m K c (jS 3) (sendSem (off 3)) (csem_jS 3) NB (expect_send m c 3) _ (by rfl)) $$ [HcS3 HO HaS3]
  · isplitr; · iexact Hrec
    isplitl [HcS3]; · iexact HcS3
    isplitl [HO]; · iexact HO
    iexact HaS3
  iintro ⟨HO, HaS3, Hpay⟩
  ihave Hch3 := (Entails.of_eq (rest_send m c 3)) $$ Hpay
  unfold sendPay
  -- the wait on send cell 7: the chunk sent with copy 6 back
  iapply (wp_dwait m K c (jS 6) (sendSem (off 6)) (csem_jS 6) NB (expect_send m c 6) _ (by rfl)) $$ [HcS6 HO HaS6]
  · isplitr; · iexact Hrec
    isplitl [HcS6]; · iexact HcS6
    isplitl [HO]; · iexact HO
    iexact HaS6
  iintro ⟨HO, HaS6, Hpay⟩
  ihave Hch6 := (Entails.of_eq (rest_send m c 6)) $$ Hpay
  unfold sendPay
  -- the wait on send cell 2: the chunk sent with copy 1 back
  iapply (wp_dwait m K c (jS 1) (sendSem (off 1)) (csem_jS 1) NB (expect_send m c 1) _ (by rfl)) $$ [HcS1 HO HaS1]
  · isplitr; · iexact Hrec
    isplitl [HcS1]; · iexact HcS1
    isplitl [HO]; · iexact HO
    iexact HaS1
  iintro ⟨HO, HaS1, Hpay⟩
  ihave Hch1 := (Entails.of_eq (rest_send m c 1)) $$ Hpay
  unfold sendPay
  -- the wait on send cell 3: the chunk sent with copy 2 back
  iapply (wp_dwait m K c (jS 2) (sendSem (off 2)) (csem_jS 2) NB (expect_send m c 2) _ (by rfl)) $$ [HcS2 HO HaS2]
  · isplitr; · iexact Hrec
    isplitl [HcS2]; · iexact HcS2
    isplitl [HO]; · iexact HO
    iexact HaS2
  iintro ⟨HO, HaS2, Hpay⟩
  ihave Hch2 := (Entails.of_eq (rest_send m c 2)) $$ Hpay
  unfold sendPay
  -- the wait on send cell 5: the chunk sent with copy 4 back
  iapply (wp_dwait m K c (jS 4) (sendSem (off 4)) (csem_jS 4) NB (expect_send m c 4) _ (by rfl)) $$ [HcS4 HO HaS4]
  · isplitr; · iexact Hrec
    isplitl [HcS4]; · iexact HcS4
    isplitl [HO]; · iexact HO
    iexact HaS4
  iintro ⟨HO, HaS4, Hpay⟩
  ihave Hch4 := (Entails.of_eq (rest_send m c 4)) $$ Hpay
  unfold sendPay
  -- the wait on send cell 6: the chunk sent with copy 5 back
  iapply (wp_dwait m K c (jS 5) (sendSem (off 5)) (csem_jS 5) NB (expect_send m c 5) _ (by rfl)) $$ [HcS5 HO HaS5]
  · isplitr; · iexact Hrec
    isplitl [HcS5]; · iexact HcS5
    isplitl [HO]; · iexact HO
    iexact HaS5
  iintro ⟨HO, HaS5, Hpay⟩
  ihave Hch5 := (Entails.of_eq (rest_send m c 5)) $$ Hpay
  unfold sendPay
  -- the fifteen used cells close, the carved buffers are whole again: the post
  imod (body_finish m ρ K c _ fr) $$ [HaS0 HaS1 HaS2 HaS3 HaS4 HaS5 HaS6 HaR0 HaR1 HaR2 HaR3 HaR4 HaR5 HaR6 HatL HiS HiR Hch0 Hch1 Hch2 Hch3 Hch4 Hch5 Hch6 Hbrest Hl0 Hl1 Hl2 Hl3 Hl4 Hl5 Hl6 Hrrest Ha HxC HxLrest HxR HO Hout] with Hpost
  · simp only [bigSep_fin7]
    unfold idle
    isplitr; · iexact Hrec
    isplitl [HaS0 HaS1 HaS2 HaS3 HaS4 HaS5 HaS6]
    · isplitl [HaS0]; · iexact HaS0
      isplitl [HaS1]; · iexact HaS1
      isplitl [HaS2]; · iexact HaS2
      isplitl [HaS3]; · iexact HaS3
      isplitl [HaS4]; · iexact HaS4
      isplitl [HaS5]; · iexact HaS5
      iexact HaS6
    isplitl [HaR0 HaR1 HaR2 HaR3 HaR4 HaR5 HaR6]
    · isplitl [HaR0]; · iexact HaR0
      isplitl [HaR1]; · iexact HaR1
      isplitl [HaR2]; · iexact HaR2
      isplitl [HaR3]; · iexact HaR3
      isplitl [HaR4]; · iexact HaR4
      isplitl [HaR5]; · iexact HaR5
      iexact HaR6
    isplitl [HatL]; · iexact HatL
    isplitl [HiS HiR]
    · isplitl [HiS]; · iexact HiS
      iexact HiR
    isplitl [Hch0 Hch1 Hch2 Hch3 Hch4 Hch5 Hch6]
    · isplitl [Hch0]; · iexact Hch0
      isplitl [Hch1]; · iexact Hch1
      isplitl [Hch2]; · iexact Hch2
      isplitl [Hch3]; · iexact Hch3
      isplitl [Hch4]; · iexact Hch4
      isplitl [Hch5]; · iexact Hch5
      iexact Hch6
    isplitl [Hbrest]; · iexact Hbrest
    isplitl [Hl0 Hl1 Hl2 Hl3 Hl4 Hl5 Hl6]
    · isplitl [Hl0]; · iexact Hl0
      isplitl [Hl1]; · iexact Hl1
      isplitl [Hl2]; · iexact Hl2
      isplitl [Hl3]; · iexact Hl3
      isplitl [Hl4]; · iexact Hl4
      isplitl [Hl5]; · iexact Hl5
      iexact Hl6
    isplitl [Hrrest]; · iexact Hrrest
    isplitl [Ha]; · unfold ownDstPts; iexact Ha
    isplitl [HxC]; · iexact HxC
    isplitl [HxLrest]; · iexact HxLrest
    isplitl [HxR]; · iexact HxR
    isplitl [HO]; · iexact HO
    iexact Hout
  rw [wp_ret]; imodintro
  iapply Hk
  iexact Hpost

end Cert.KernelProof

end
-- ==== Proof.KernelLaunch.lean ====
/-
  The launch of the reduce-scatter kernel on the mesh of eight devices: the body lemma handed to the pipeline's body
  obligation; the ghost state of the 128 cells funded from the launch element; the global step, in which every device's
  own and unscoped semaphores at zero become the cells' invariants, each device keeps its positions, and the duty tokens
  are dealt to the devices that pay them (a barrier cell's token for duty d to the device d places before the cell's
  owner, a receive cell's token to the device that copies into it); the launch credit summed over the eight devices;
  and the run of @main, ending in what each window's array holds.
-/
import proofs.«900588_g7700000000000589_dist_rs_v7x_i8_i_m256_n256_f32_1_alg».proof.Proof.KernelBody
import proofs.«900588_g7700000000000589_dist_rs_v7x_i8_i_m256_n256_f32_1_alg».proof.Proof.Gen.Kernel.Points

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Finite conjunctions written out -/

omit [FloatOps F] in
theorem bigSep_W (Φ : Fin cfg0.W → sProp 𝕄) : bigSep Finset.univ Φ = iprop(Φ (0 : Fin 2) ∗ Φ (1 : Fin 2)) := bigSep_W0 Φ

omit [FloatOps F] in
theorem bigSep_peers7 (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ

omit [FloatOps F] in
/-- A device's sixteen cells: the barrier's, the seven send cells, the seven receive cells, the local copy's. -/
theorem bigSep_cells16 (Φ : Fin 16 → sProp 𝕄) :
    bigSep Finset.univ Φ
      = iprop(Φ 0 ∗ (bigSep Finset.univ fun r : Fin 7 => Φ (jS r)) ∗ (bigSep Finset.univ fun r : Fin 7 => Φ (jR r)) ∗ Φ 15) := by
  rw [bigSep_univ_eq_bigSepL [0, 1, 2, 3, 4, 5, 6, 7, 8, 9, 10, 11, 12, 13, 14, 15] (by decide) (by decide) Φ,
    bigSep_peers7 (fun r : Fin 7 => Φ (jS r)), bigSep_peers7 (fun r : Fin 7 => Φ (jR r))]
  show iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15)
    = iprop(Φ 0 ∗ (Φ 1 ∗ Φ 2 ∗ Φ 3 ∗ Φ 4 ∗ Φ 5 ∗ Φ 6 ∗ Φ 7) ∗ (Φ 8 ∗ Φ 9 ∗ Φ 10 ∗ Φ 11 ∗ Φ 12 ∗ Φ 13 ∗ Φ 14) ∗ Φ 15)
  refine BI.Entails.antisymm (show _ ⊢ (_ : sProp 𝕄) from ?_) (show _ ⊢ (_ : sProp 𝕄) from ?_)
  · iintro ⟨H0, H1, H2, H3, H4, H5, H6, H7, H8, H9, H10, H11, H12, H13, H14, H15⟩
    isplitl [H0]; · iexact H0
    isplitl [H1 H2 H3 H4 H5 H6 H7]
    · isplitl [H1]; · iexact H1
      isplitl [H2]; · iexact H2
      isplitl [H3]; · iexact H3
      isplitl [H4]; · iexact H4
      isplitl [H5]; · iexact H5
      isplitl [H6]; · iexact H6
      iexact H7
    isplitl [H8 H9 H10 H11 H12 H13 H14]
    · isplitl [H8]; · iexact H8
      isplitl [H9]; · iexact H9
      isplitl [H10]; · iexact H10
      isplitl [H11]; · iexact H11
      isplitl [H12]; · iexact H12
      isplitl [H13]; · iexact H13
      iexact H14
    iexact H15
  · iintro ⟨H0, ⟨H1, H2, H3, H4, H5, H6, H7⟩, ⟨H8, H9, H10, H11, H12, H13, H14⟩, H15⟩
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iexact H15

omit [FloatOps F] in
/-- A conjunction over a finite type yields the one over any type injected into it. -/
theorem bigSep_univ_inj {I J : Type} [Fintype I] [Fintype J] [DecidableEq J] (f : I → J) (hf : Function.Injective f) (Φ : J → sProp 𝕄) :
    bigSep Finset.univ Φ ⊢ bigSep Finset.univ fun i => Φ (f i) :=
  (bigSep_subset (Finset.subset_univ ((Finset.univ : Finset I).map ⟨f, hf⟩))).trans
    (Entails.of_eq (bigSep_map (s := (Finset.univ : Finset I)) ⟨f, hf⟩ (Φ := Φ)))

theorem off_inj₀ : Function.Injective off := by decide

omit [FloatOps F] in
theorem kcell_zero (c : Dev nD) : kcell (c, 0) = barCell c := rfl
omit [FloatOps F] in
theorem kcell_jS (c : Dev nD) (r : Fin 7) : kcell (c, jS r) = sendCell c (off r) := by
  show ((c : Thread nD τ), csem (jS r)) = _; rw [csem_jS]
omit [FloatOps F] in
theorem kcell_jR (c : Dev nD) (r : Fin 7) : kcell (c, jR r) = recvCell c (off r) := by
  show ((c : Thread nD τ), csem (jR r)) = _; rw [csem_jR]
omit [FloatOps F] in
theorem kcell_last (c : Dev nD) : kcell (c, 15) = locCell c := by
  show ((c : Thread nD τ), csem 15) = _; rw [csem_last]

/-! ## The body obligation -/

theorem fetch_0 (t : Fin cfg0.N) : (cfg0.win (0 : Fin 2)).fetch t = true := fetch0_0 t

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

set_option maxRecDepth 4000 in
/-- The body's precondition as the pipeline states it: the invariant before the point, what is owed, the two staging buffers. -/
def bodyPre' (c : Dev nD) : sProp 𝕄 :=
  iprop(Φ₀ m c ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

set_option maxRecDepth 4000 in
/-- The library's body obligation on device c: the body lemma at the names the launch allocated. -/
theorem body_obligation (c : Dev nD) : BodyObligation (dats (F := F) m ρ 0 c) (defs₀ (F := F)) 𝒱₀ () Set.univ := fun t => by
  rw [fin_N t]
  rw [bigSep_W, bigSep_W]
  simp only [owns_whole_eq]
  show bodyPre' m ρ c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_scratch0) (Memref.isWhole_whole _) (Memref.whole cc0_scratch1) (Memref.isWhole_whole _)
      (Memref.whole cc0_scratch2) (Memref.isWhole_whole _) cc0_scratch3 cc0_scratch4 cc0_scratch5) (fun _ => bodyPost m ρ c)
  unfold bodyPre' Φ₀ start
  iintro ⟨⟨⟨⟨%K, Hg⟩, Hcr, Hid, Hlev⟩, Hscr⟩, Ho, Hx, Hout⟩
  iapply (sound_body m ρ K c fun _ => bodyPost m ρ c)
  unfold bodyPre
  isplitr []
  · isplitl [Hg Hcr Hid Hlev Hscr]
    · isplitl [Hg]; · iexact Hg
      isplitl [Hcr]; · iexact Hcr
      isplitl [Hid]; · iexact Hid
      isplitl [Hlev]; · iexact Hlev
      iexact Hscr
    isplitl [Ho]; · iexact Ho
    isplitl [Hx] <;> iassumption
  · iintro H; iexact H

/-! ## The kernel's own semaphores and the runtime's -/

/-- The kernel's own (scoped) semaphores as the launch indexes them: send 0 to 7, receive 0 to 7, the local copy's. -/
abbrev osem : Fin 17 → SemLoc sig := fun k =>
  if h : k.val < 8 then .dma (sendSem ⟨k.val, h⟩)
  else if h' : k.val < 16 then .dma (recvSem ⟨k.val - 8, by omega⟩)
  else .dma locSem

theorem ownSemFacts : Pipeline.OwnSemFacts cfg0.spec osem := by decide

theorem share_eq (c : Dev nD) (w : Fin cfg0.W) : (dats m ρ 0 c).share w = fullShare := by unfold Dat.share; split <;> rfl

omit [FloatOps F] in
theorem ownSems0_eq (c : Dev nD) : (Pipeline.ownSems0 (Ix := Unit) (Name := ℕ) (U := UU) (Lvl := ℕ) (Val := Elt F) (τ := τ) osem c : sProp 𝕄)
    = iprop(semVal (sendCell c 0) 0 ∗ semVal (sendCell c (off 0)) 0 ∗ semVal (sendCell c (off 1)) 0 ∗ semVal (sendCell c (off 2)) 0 ∗ semVal (sendCell c (off 3)) 0 ∗ semVal (sendCell c (off 4)) 0 ∗ semVal (sendCell c (off 5)) 0 ∗ semVal (sendCell c (off 6)) 0
        ∗ semVal (recvCell c 0) 0 ∗ semVal (recvCell c (off 0)) 0 ∗ semVal (recvCell c (off 1)) 0 ∗ semVal (recvCell c (off 2)) 0 ∗ semVal (recvCell c (off 3)) 0 ∗ semVal (recvCell c (off 4)) 0 ∗ semVal (recvCell c (off 5)) 0 ∗ semVal (recvCell c (off 6)) 0
        ∗ semVal (locCell c) 0) := by
  rw [Pipeline.ownSems0_eq_of_list c osem [0, 1, 2, 3, 4, 5, 6, 7, 8, 9, 10, 11, 12, 13, 14, 15, 16] (by decide) (by decide)]; rfl

omit [FloatOps F] in
/-- The barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
/-- Every semaphore of a device at zero: its sixteen cells' counters, and the two semaphores no copy uses. -/
theorem sems0_eq (c : Dev nD) :
    iprop(Pipeline.ownSems0 (Ix := Unit) (Name := ℕ) (U := UU) (Lvl := ℕ) (Val := Elt F) (τ := τ) osem c ∗ unscopedSems0 c)
      ⊢ (iprop((bigSep Finset.univ fun j : Fin 16 => semVal (kcell (c, j)) 0) ∗ idle c) : sProp 𝕄) := by
  rw [ownSems0_eq, unscopedSems0_eq, bigSep_cells16, bigSep_peers7, bigSep_peers7]
  simp only [kcell_zero, kcell_jS, kcell_jR, kcell_last]
  unfold idle
  iintro ⟨⟨S0, S1, S2, S3, S4, S5, S6, S7, R0, R1, R2, R3, R4, R5, R6, R7, HL⟩, HB⟩
  isplitr [S0 R0]
  · isplitl [HB]; · iexact HB
    isplitl [S1 S2 S3 S4 S5 S6 S7]
    · isplitl [S1]; · iexact S1
      isplitl [S2]; · iexact S2
      isplitl [S3]; · iexact S3
      isplitl [S4]; · iexact S4
      isplitl [S5]; · iexact S5
      isplitl [S6]; · iexact S6
      iexact S7
    isplitl [R1 R2 R3 R4 R5 R6 R7]
    · isplitl [R1]; · iexact R1
      isplitl [R2]; · iexact R2
      isplitl [R3]; · iexact R3
      isplitl [R4]; · iexact R4
      isplitl [R5]; · iexact R5
      isplitl [R6]; · iexact R6
      iexact R7
    iexact HL
  · isplitl [S0] <;> iassumption

/-! ## The cells and the tokens the launch element holds -/

theorem csem_injective : Function.Injective csem := by decide

theorem kcell_injective : Function.Injective (kcell : Dev nD × Fin 16 → GSem nD τ sig) := by
  rintro ⟨c, j⟩ ⟨c', j'⟩ h
  have h1 : c = c' := by have := congrArg (fun g : GSem nD τ sig => g.1.1) h; exact this
  subst h1
  have h2 : csem j = csem j' := congrArg Prod.snd h
  rw [csem_injective h2]

/-- The 128 cells of the protocol. -/
def protoCells : Finset (GSem nD τ sig) := Finset.univ.map ⟨kcell, kcell_injective⟩

/-- One token per cell and duty name; the schedule's duties are among them. -/
abbrev tokOf (x : (Dev nD × Fin 16) × Fin 8) : GSem nD τ sig × ℕ × Fin 8 := (kcell x.1, 0, x.2)
theorem tokOf_injective : Function.Injective tokOf := by
  rintro ⟨ck, d⟩ ⟨ck', d'⟩ h
  have h1 : ck = ck' := kcell_injective (congrArg (fun x : GSem nD τ sig × ℕ × Fin 8 => x.1) h)
  have h2 : d = d' := congrArg (fun x : GSem nD τ sig × ℕ × Fin 8 => x.2.2) h
  rw [h1, h2]
def protoToks : Finset (GSem nD τ sig × ℕ × Fin 8) := Finset.univ.map ⟨tokOf, tokOf_injective⟩

def u₀ : UU :=
  (initOf (Pipeline.cells cfgs cellOf_inj) (Pipeline.launchToks cfgs cellOf_inj), initOf protoCells protoToks)

/-- The duty tokens of device c's own cells: its barrier's seven, each receive cell's, each send cell's, the local copy's. -/
def toks (c : Dev nD) : sProp 𝕄 :=
  iprop((bigSep Finset.univ fun r : Fin 7 => dutyTok ER (barCell c) 0 (off r))
    ∗ (bigSep Finset.univ fun r : Fin 7 => dutyTok ER (recvCell c (off r)) 0 (0 : Fin 8))
    ∗ (bigSep Finset.univ fun r : Fin 7 => dutyTok ER (sendCell c (off r)) 0 (0 : Fin 8))
    ∗ dutyTok ER (locCell c) 0 (0 : Fin 8))

/-- What the launch element deals device c (the theorem's G). -/
def G (c : Dev nD) : sProp 𝕄 :=
  iprop((bigSep Finset.univ fun j : Fin 16 => roundState ER (rsRd m) (kcell (c, j)) 0)
    ∗ (bigSep Finset.univ fun j : Fin 16 => iprop(atPos ER (kcell (c, j)) 0 ∅ 0 ∗ reached ER (kcell (c, j)) 0)) ∗ toks c)

/-- What the global step makes of it (G'). -/
def G' (c : Dev nD) : sProp 𝕄 := iprop((∃ K, ghost m K c) ∗ idle c)

omit [FloatOps F] in
theorem toks_of_all (c : Dev nD) :
    (bigSep Finset.univ fun j : Fin 16 => bigSep Finset.univ fun d : Fin 8 => (dutyTok ER (kcell (c, j)) 0 d : sProp 𝕄)) ⊢ toks c := by
  rw [bigSep_cells16]
  simp only [kcell_zero, kcell_jS, kcell_jR, kcell_last]
  unfold toks
  have hR : (bigSep Finset.univ fun r : Fin 7 => bigSep Finset.univ fun d : Fin 8 => (dutyTok ER (recvCell c (off r)) 0 d : sProp 𝕄))
      ⊢ bigSep Finset.univ fun r : Fin 7 => (dutyTok ER (recvCell c (off r)) 0 (0 : Fin 8) : sProp 𝕄) :=
    bigSep_mono fun r _ => bigSep_elim (Finset.mem_univ (0 : Fin 8))
  have hS : (bigSep Finset.univ fun r : Fin 7 => bigSep Finset.univ fun d : Fin 8 => (dutyTok ER (sendCell c (off r)) 0 d : sProp 𝕄))
      ⊢ bigSep Finset.univ fun r : Fin 7 => (dutyTok ER (sendCell c (off r)) 0 (0 : Fin 8) : sProp 𝕄) :=
    bigSep_mono fun r _ => bigSep_elim (Finset.mem_univ (0 : Fin 8))
  have hL : (bigSep Finset.univ fun d : Fin 8 => (dutyTok ER (locCell c) 0 d : sProp 𝕄)) ⊢ (dutyTok ER (locCell c) 0 (0 : Fin 8) : sProp 𝕄) :=
    bigSep_elim (Finset.mem_univ (0 : Fin 8))
  iintro ⟨HB, HS, HR, HL⟩
  isplitl [HB]
  · iapply (bigSep_univ_inj off off_inj₀ fun d : Fin 8 => (dutyTok ER (barCell c) 0 d : sProp 𝕄)); iexact HB
  isplitl [HR]
  · iapply hR; iexact HR
  isplitl [HS]
  · iapply hS; iexact HS
  iapply hL; iexact HL

theorem fund_proto : BI.own (ER (initOf protoCells protoToks)) ⊢ (|==> bigSep Finset.univ (G m) : sProp 𝕄) := by
  have hX (Φ : GSem nD τ sig → sProp 𝕄) : bigSep protoCells Φ = bigSep Finset.univ fun c : Dev nD => bigSep Finset.univ fun j : Fin 16 => Φ (kcell (c, j)) := by
    unfold protoCells; rw [bigSep_map, bigSep_univ_prod]; rfl
  have hT : bigSep protoToks (fun x => (dutyTok ER x.1 x.2.1 x.2.2 : sProp 𝕄)) ⊢ bigSep Finset.univ fun c : Dev nD => toks c := by
    unfold protoToks; rw [bigSep_map, bigSep_univ_prod, bigSep_univ_prod]
    exact bigSep_mono fun c _ => toks_of_all c
  iintro HX
  imod (Rounds.fund ER (rsRd m) protoCells protoToks) $$ HX with ⟨Hst, Hr, Hat, Htok⟩
  imodintro
  ihave Hst' := (Entails.of_eq (hX fun g => roundState ER (rsRd m) g 0)) $$ Hst
  ihave Hat' := (Entails.of_eq (hX fun g => atPos ER g 0 ∅ 0)) $$ Hat
  ihave Hr' := (Entails.of_eq (hX fun g => reached ER g 0)) $$ Hr
  ihave Htok' := hT $$ Htok
  unfold G; simp only [bigSep_sep']
  isplitl [Hst']; · iexact Hst'
  isplitl [Hat' Hr']
  · isplitl [Hat'] <;> iassumption
  iexact Htok'

/-! ## The global step -/

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun j : Fin 16 => iprop(∃ κ : ℕ, cellInv ER (rsRd m) κ (kcell (c, j))))
          ∗ (bigSep Finset.univ fun j : Fin 16 => iprop(atPos ER (kcell (c, j)) 0 ∅ 0 ∗ reached ER (kcell (c, j)) 0)) ∗ toks c ∗ idle c) := by
  unfold G
  iintro ⟨Hos, Hus, Hst, Hat, Htok⟩
  ihave Hv := (sems0_eq (F := F) c) $$ [Hos Hus]
  · isplitl [Hos] <;> iassumption
  icases Hv with ⟨Hv, Hidle⟩
  imod (show iprop((bigSep Finset.univ fun j : Fin 16 => semVal (kcell (c, j)) 0) ∗ bigSep Finset.univ fun j : Fin 16 => roundState ER (rsRd m) (kcell (c, j)) 0)
      ⊢ (|={Set.univ}=> bigSep Finset.univ fun j : Fin 16 => iprop(∃ κ : ℕ, cellInv ER (rsRd m) κ (kcell (c, j))) : sProp 𝕄) from by
        rw [← bigSep_sep']
        exact (bigSep_mono fun j _ => (Rounds.body_intro ER (rsRd m) (kcell (c, j))).trans inv_alloc).trans (bigSep_fupd _ _)) $$ [Hv Hst] with Hinv
  · isplitl [Hv] <;> iassumption
  imodintro
  isplitl [Hinv]; · iexact Hinv
  isplitl [Hat]; · iexact Hat
  isplitl [Htok]; · iexact Htok
  iexact Hidle

theorem ghost_intro (K : Dev nD × Fin 16 → ℕ) (c : Dev nD) : iprop(records m K ∗ positions c ∗ payToks c ∗ idle c) ⊢ G' m c := by
  unfold G' ghost
  iintro ⟨#HR, Hp, Ht, Hi⟩
  isplitr [Hi]
  · iexists K
    isplitr; · iexact HR
    isplitl [Hp] <;> iassumption
  · iexact Hi

/-- The device k places after c, as a bijection of the devices; the reversal of the peer table. -/
def shiftE (k : Fin 8) : Dev nD ≃ Dev nD := ⟨fun c => shift c k, fun c => shift c (opp k), fun c => shift_opp c k, fun c => shift_opp' c k⟩
def revE : Fin 7 ≃ Fin 7 := ⟨rev, rev, rev_rev, rev_rev⟩

omit [FloatOps F] in
/-- The tokens dealt around: a barrier cell's token for duty off r goes to the device off r places before the cell's owner,
    a receive cell's token to the device that copies into it; send and local-copy tokens stay. -/
theorem toks_around : (bigSep Finset.univ fun c : Dev nD => (toks c : sProp 𝕄)) ⊢ bigSep Finset.univ fun c : Dev nD => payToks c := by
  have h1 : (bigSep Finset.univ fun c : Dev nD => bigSep Finset.univ fun r : Fin 7 => (dutyTok ER (barCell c) 0 (off r) : sProp 𝕄))
      = bigSep Finset.univ fun c : Dev nD => bigSep Finset.univ fun r : Fin 7 => dutyTok ER (barCell (shift c (off r))) 0 (off r) :=
    (bigSep_univ_comm (fun (c : Dev nD) (r : Fin 7) => (dutyTok ER (barCell c) 0 (off r) : sProp 𝕄))).trans <|
    (bigSep_congr fun (r : Fin 7) _ => bigSep_univ_equiv (shiftE (off r)) (fun c : Dev nD => (dutyTok ER (barCell c) 0 (off r) : sProp 𝕄))).trans <|
    (bigSep_univ_comm (fun (r : Fin 7) (c : Dev nD) => (dutyTok ER (barCell (shift c (off r))) 0 (off r) : sProp 𝕄)))
  have h2 : (bigSep Finset.univ fun c : Dev nD => bigSep Finset.univ fun r : Fin 7 => (dutyTok ER (recvCell c (off r)) 0 (0 : Fin 8) : sProp 𝕄))
      = bigSep Finset.univ fun c : Dev nD => bigSep Finset.univ fun r : Fin 7 => dutyTok ER (recvCell (shift c (off r)) (off (rev r))) 0 (0 : Fin 8) :=
    (bigSep_congr fun (c : Dev nD) _ => bigSep_univ_equiv revE (fun r : Fin 7 => (dutyTok ER (recvCell c (off r)) 0 (0 : Fin 8) : sProp 𝕄))).trans <|
    (bigSep_univ_comm (fun (c : Dev nD) (r : Fin 7) => (dutyTok ER (recvCell c (off (rev r))) 0 (0 : Fin 8) : sProp 𝕄))).trans <|
    (bigSep_congr fun (r : Fin 7) _ => bigSep_univ_equiv (shiftE (off r)) (fun c : Dev nD => (dutyTok ER (recvCell c (off (rev r))) 0 (0 : Fin 8) : sProp 𝕄))).trans <|
    (bigSep_univ_comm (fun (r : Fin 7) (c : Dev nD) => (dutyTok ER (recvCell (shift c (off r)) (off (rev r))) 0 (0 : Fin 8) : sProp 𝕄)))
  refine Entails.of_eq ?_
  unfold toks payToks
  rw [bigSep_sep', bigSep_sep', bigSep_sep', bigSep_sep', bigSep_sep', bigSep_sep', h1, h2]

omit [FloatOps F] in
/-- A device's positions, from those of its sixteen cells listed. -/
theorem positions_intro (c : Dev nD) :
    (bigSep Finset.univ fun j : Fin 16 => (atPos ER (kcell (c, j)) 0 ∅ 0 : sProp 𝕄)) ⊢ positions c := by
  refine Entails.of_eq ?_
  rw [bigSep_cells16]; simp only [kcell_zero, kcell_jS, kcell_jR, kcell_last]; rfl

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun j : Fin 16 => iprop(∃ κ : ℕ, cellInv ER (rsRd m) κ (kcell (c, j))))
          ∗ (bigSep Finset.univ fun j : Fin 16 => iprop(atPos ER (kcell (c, j)) 0 ∅ 0 ∗ reached ER (kcell (c, j)) 0)) ∗ toks c ∗ idle c) : sProp 𝕄)
      ⊢ bigSep Finset.univ (G' m) := by
  rw [bigSep_sep', bigSep_sep', bigSep_sep', ← bigSep_univ_prod (fun ck : Dev nD × Fin 16 => iprop(∃ κ : ℕ, cellInv ER (rsRd m) κ (kcell ck))),
    bigSep_congr (s := Finset.univ) (fun (c : Dev nD) _ => bigSep_sep' Finset.univ (fun j : Fin 16 => (atPos ER (kcell (c, j)) 0 ∅ 0 : sProp 𝕄)) (fun j => reached ER (kcell (c, j)) 0)),
    bigSep_sep', ← bigSep_univ_prod (fun ck : Dev nD × Fin 16 => (reached ER (kcell ck) 0 : sProp 𝕄))]
  have hpos : (bigSep Finset.univ fun c : Dev nD => bigSep Finset.univ fun j : Fin 16 => (atPos ER (kcell (c, j)) 0 ∅ 0 : sProp 𝕄))
      ⊢ bigSep Finset.univ fun c : Dev nD => (positions c : sProp 𝕄) :=
    bigSep_mono fun c _ => positions_intro c
  iintro ⟨HI, ⟨Hat, #HR⟩, Htok, Hidle⟩
  ihave HK := (BI.bigSep_exists_pi Finset.univ (fun (ck : Dev nD × Fin 16) (κ : ℕ) => (cellInv ER (rsRd m) κ (kcell ck) : sProp 𝕄))) $$ HI
  icases HK with ⟨%K, #HI⟩
  ihave Htk := (toks_around (F := F)) $$ Htok
  iapply (bigSep_with_persistent (R := records m K) fun c _ => ghost_intro m K c)
  isplitr
  · unfold records; isplitl; · iexact HI
    iexact HR
  · rw [bigSep_sep', bigSep_sep']
    isplitl [Hat]
    · iapply hpos; iexact Hat
    isplitl [Htk]; · iexact Htk
    iexact Hidle

/-- The global step: own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

omit [FloatOps F] in
/-- The devices' signals number off r, summed, are one unit on every barrier cell. -/
theorem sig_cred (c : Dev nD) (r : Fin 7) :
    (Pipeline.launchCred (fun d => sigTally d r) c : sProp 𝕄) ⊢ cred (tallyAt (barCell c) () 1) :=
  Pipeline.launchCred_tallyAt (.reg barS) (fun d => shift d (off r)) (fun d => shift d (opp (off r)))
    (fun d => shift_opp' d (off r)) (fun d => shift_opp d (off r)) () 1 c

omit [FloatOps F] in
/-- The devices' copies number r, summed, are one copy's credit on every receive cell off s, s the reversal of r. -/
theorem snd_cred (c : Dev nD) (r s : Fin 7) (h : rev r = s) :
    (Pipeline.launchCred (fun d => sndTally d r) c : sProp 𝕄) ⊢ cred (tallyAt (recvCell c (off s)) () NB) :=
  h ▸ Pipeline.launchCred_tallyAt (.dma (recvSem (off (rev r)))) (fun d => shift d (off r)) (fun d => shift d (opp (off r)))
    (fun d => shift_opp' d (off r)) (fun d => shift_opp d (off r)) () NB c

omit [FloatOps F] in
theorem cred_tallyAt_add (g : GSem nD τ sig) (a b n : ℕ) (h : a + b = n) :
    iprop(cred (tallyAt g () a) ∗ cred (tallyAt g () b)) ⊢ (cred (tallyAt g () n) : sProp 𝕄) := by
  subst h; rw [← tallyAt_add]; exact (cred_add _ _).2

omit [FloatOps F] in
theorem creds_intro (c : Dev nD) : (Pipeline.launchCred O₀ c : sProp 𝕄) ⊢ creds c := by
  have hO : (O₀ : Dev nD → CellTallies nD τ sig Unit) = fun d =>
      0 + sndTally d 5 + sndTally d 4 + sndTally d 2 + sndTally d 1 + sndTally d 6 + sndTally d 3 + sndTally d 0
        + sigTally d 6 + sigTally d 5 + sigTally d 4 + sigTally d 3 + sigTally d 2 + sigTally d 1 + sigTally d 0 := rfl
  rw [hO]
  simp only [Pipeline.launchCred_add, Pipeline.launchCred_zero]
  iintro ⟨⟨⟨⟨⟨⟨⟨⟨⟨⟨⟨⟨⟨⟨-, V5⟩, V4⟩, V2⟩, V1⟩, V6⟩, V3⟩, V0⟩, G6⟩, G5⟩, G4⟩, G3⟩, G2⟩, G1⟩, G0⟩
  ihave B0 := (sig_cred (F := F) c 0) $$ G0
  ihave B1 := (sig_cred (F := F) c 1) $$ G1
  ihave B2 := (sig_cred (F := F) c 2) $$ G2
  ihave B3 := (sig_cred (F := F) c 3) $$ G3
  ihave B4 := (sig_cred (F := F) c 4) $$ G4
  ihave B5 := (sig_cred (F := F) c 5) $$ G5
  ihave B6 := (sig_cred (F := F) c 6) $$ G6
  ihave B01 := (cred_tallyAt_add (F := F) (barCell c) 1 1 2 rfl) $$ [B0 B1]
  · isplitl [B0] <;> iassumption
  ihave B02 := (cred_tallyAt_add (F := F) (barCell c) 2 1 3 rfl) $$ [B01 B2]
  · isplitl [B01] <;> iassumption
  ihave B03 := (cred_tallyAt_add (F := F) (barCell c) 3 1 4 rfl) $$ [B02 B3]
  · isplitl [B02] <;> iassumption
  ihave B04 := (cred_tallyAt_add (F := F) (barCell c) 4 1 5 rfl) $$ [B03 B4]
  · isplitl [B03] <;> iassumption
  ihave B05 := (cred_tallyAt_add (F := F) (barCell c) 5 1 6 rfl) $$ [B04 B5]
  · isplitl [B04] <;> iassumption
  ihave B06 := (cred_tallyAt_add (F := F) (barCell c) 6 1 7 rfl) $$ [B05 B6]
  · isplitl [B05] <;> iassumption
  ihave W0 := (snd_cred (F := F) c 6 0 rfl) $$ V6
  ihave W1 := (snd_cred (F := F) c 5 1 rfl) $$ V5
  ihave W2 := (snd_cred (F := F) c 4 2 rfl) $$ V4
  ihave W3 := (snd_cred (F := F) c 3 3 rfl) $$ V3
  ihave W4 := (snd_cred (F := F) c 2 4 rfl) $$ V2
  ihave W5 := (snd_cred (F := F) c 1 5 rfl) $$ V1
  ihave W6 := (snd_cred (F := F) c 0 6 rfl) $$ V0
  unfold creds
  rw [bigSep_peers7]
  isplitl [B06]; · iexact B06
  isplitl [W0]; · iexact W0
  isplitl [W1]; · iexact W1
  isplitl [W2]; · iexact W2
  isplitl [W3]; · iexact W3
  isplitl [W4]; · iexact W4
  isplitl [W5]; · iexact W5
  iexact W6

/-! ## The launch theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds_intro (F := F) c) $$ Hcr
  unfold G'
  icases HG with ⟨HG, Hidle⟩
  imodintro
  unfold start
  isplitl
  · isplitl [HG]; · iexact HG
    isplitl [Hc]; · iexact Hc
    isplitl [Hidle]; · iexact Hidle
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ scr
  iintro ⟨Hs, -, Hr⟩
  isplitl [Hs]; · iexact Hs
  iexact Hr

theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₁ c from rfl, scopedRest0_eq, ownSems0_eq]
  unfold Φ₁ scr ownZero idle
  rw [bigSep_peers7, bigSep_peers7]
  iintro ⟨Hr, ⟨S0, R0⟩, ⟨S1, S2, S3, S4, S5, S6, S7⟩, ⟨R1, R2, R3, R4, R5, R6, R7⟩, HL⟩
  isplitr; · iempintro
  isplitr [Hr]
  · isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    isplitl [R0]; · iexact R0
    isplitl [R1]; · iexact R1
    isplitl [R2]; · iexact R2
    isplitl [R3]; · iexact R3
    isplitl [R4]; · iexact R4
    isplitl [R5]; · iexact R5
    isplitl [R6]; · iexact R6
    isplitl [R7]; · iexact R7
    iexact HL
  · iexact Hr

theorem waits (c : Dev nD) : (levAts L lv : sProp 𝕄) ⊢ Pipeline.cellsWaits cfgs (dats m ρ) () 0 c :=
  Pipeline.cellsWaits_intro cfgs (dats m ρ) () 0 c fun w s t => by
    rcases t with ⟨_ | _, ht⟩
    · exact mayWait_low c _ (by fin_cases w <;> fin_cases s <;> rfl) [0, 1, 2, 3, 4, 5, 6]
    · show _ ⊢ MayWait _ _ _ 0
      rw [MayWait_zero]; iintro -; iempintro

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- At the compiled mesh of eight devices, for any float values, from any memory with zero counters: every weakly fair
    execution of @main terminates, and every final state has each device's arrays at the computed contents. -/
theorem run_main : θ_run defs (onTc (τ := τ) (main (F := F))) (s₀ m ρ) (QC m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_proto m) $$ HX with HG
      imodintro
      isplitl [HP] <;> iassumption)
    (hglob := glob m)
    (hA := fun _ _ => rfl) (hpf := fun _ k => k.elim0)
    (X := start m) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro
      isplitr; · ipureintro; trivial
      iexact HSI)
    (hQ := fun _ h c w => (h c).1 w)

/-- The x array after the run holds what it held. -/
theorem finalA_x (c : Dev nD) : finalA m ρ c (0 : Fin 2) = (s₀ m ρ).mem (win0_0.arr.view.loc (c : Thread nD τ)) :=
  (dats (F := F) m ρ 0 c).arrAt_in (0 : Fin 2) rfl _

/-- The result array after the run holds the accumulated sum: the one write-back writes the whole array. -/
theorem finalA_out (c : Dev nD) : finalA m ρ c (1 : Fin 2) = outAt m c := by
  have h := (dats (F := F) m ρ 0 c).arrAt_succ (1 : Fin 2) t₀
  rw [flush0_1 t₀, if_pos rfl] at h
  refine (show finalA m ρ c (1 : Fin 2) = (dats m ρ 0 c).arrAt (1 : Fin 2) (t₀.val + 1) from rfl).trans (h.trans ?_)
  exact Memref.write_access_unit_zero_univ (Elt F) main_v1 (funext fun a => Nat.zero_mul _) _ _ _

/-- info: 'Cert.KernelProof.run_main' depends on axioms: [propext, Classical.choice, Quot.sound] -/
#guard_msgs in #print axioms run_main

end Cert.KernelProof

end
-- ==== Proof.lean ====
/-
  The certificate of the reduce-scatter over eight devices. Each device holds one slab `x[c]` of a `8 × 256 × 2048` array
  and ends holding columns `[256 c, 256 c + 256)` of the sum of the eight slabs: it keeps its own chunk of its slab, sends
  chunk `p` of it to every other device `p`, and adds the seven chunks it receives to its own, one after another. The
  one-device reference sums the eight slabs entry by entry.
  The three frames: every fair execution of each program terminates, nothing faults, and the argument arrays end as they
  began. For the two kernel programs this is the run of the launch (modules `KernelLaunch`, `KernelIdealLaunch`) read at
  the argument's window; for the reference it is its run with the result dropped (`Value.ref_frame`). The idealization
  rewrote no operation, so there is nothing to preserve. The algebraic claim: the idealized kernel's run leaves on device `c`
  the accumulated sum `outAt m c` (`finalA_out`), which is block `c` along the columns of the reference's result when each
  device's slab is its block of the reference's argument (`Value.result_block`: a sum of extended reals taken in another
  order), and the reference's run leaves that result (`Value.ref_run`).
-/
import proofs.«900588_g7700000000000589_dist_rs_v7x_i8_i_m256_n256_f32_1_alg».proof.Defs
import proofs.«900588_g7700000000000589_dist_rs_v7x_i8_i_m256_n256_f32_1_alg».proof.Proof.Gen.Kernel
import proofs.«900588_g7700000000000589_dist_rs_v7x_i8_i_m256_n256_f32_1_alg».proof.Proof.Gen.KernelIdeal
import proofs.«900588_g7700000000000589_dist_rs_v7x_i8_i_m256_n256_f32_1_alg».proof.Proof.Gen.ReferenceIdeal
import proofs.«900588_g7700000000000589_dist_rs_v7x_i8_i_m256_n256_f32_1_alg».proof.Proof.Gen.Pre_finite_inputs_Kernel
import proofs.«900588_g7700000000000589_dist_rs_v7x_i8_i_m256_n256_f32_1_alg».proof.Proof.Gen.Pre_finite_inputs_ReferenceIdeal
import proofs.«900588_g7700000000000589_dist_rs_v7x_i8_i_m256_n256_f32_1_alg».proof.Proof.Value
import proofs.«900588_g7700000000000589_dist_rs_v7x_i8_i_m256_n256_f32_1_alg».proof.Proof.KernelIdealLaunch
import proofs.«900588_g7700000000000589_dist_rs_v7x_i8_i_m256_n256_f32_1_alg».proof.Proof.KernelLaunch

noncomputable section

namespace Cert.Proof

open Idealize.ShloMosaic Idealize.ShloMosaic.TcCoe Idealize.SL.Sem

/-- The word-level kernel runs to the end and leaves `x` as it was: the launch's run, read at the argument's window. -/
theorem frameK : Cert.frame_Kernel := fun m ρ _ =>
  (θ_run (Cert.Kernel.defs (F := Bits)) _ _).mono
    (fun _ h c => (h c (0 : Fin 2)).trans (Cert.KernelProof.finalA_x m ρ c))
    (Cert.KernelProof.run_main (F := Bits) m ρ)

/-- The idealized kernel likewise. -/
theorem frameKI : Cert.frame_KernelIdeal := fun m ρ _ =>
  (θ_run (Cert.KernelIdeal.defs (F := Ideal)) _ _).mono
    (fun _ h c => (h c (0 : Fin 2)).trans (Cert.KernelIdealProof.finalA_x m ρ c))
    (Cert.KernelIdealProof.run_main (F := Ideal) m ρ)

/-- The idealized kernel's result on device `c` is block `c` of the reference's: both are, entry by entry, the sum of the
    eight slabs. -/
theorem algebraic : Cert.algebraic_KernelIdeal_ReferenceIdeal := fun m ρ m' ρ' _ hagree =>
  ⟨Cert.KernelIdealProof.Value.refVal m',
    (θ_run (Cert.KernelIdeal.defs (F := Ideal)) _ _).mono
      (fun _ h c =>
        ⟨((h c (1 : Fin 2)).trans (Cert.KernelIdealProof.finalA_out m ρ c)).trans
            (Cert.KernelIdealProof.Value.result_block m m' hagree c),
          (h c (0 : Fin 2)).trans (Cert.KernelIdealProof.finalA_x m ρ c)⟩)
      (Cert.KernelIdealProof.run_main (F := Ideal) m ρ),
    Cert.KernelIdealProof.Value.ref_run m' ρ'⟩

theorem claim : Cert.Claim :=
  ⟨Cert.Kernel.Gen.facts, Cert.KernelIdeal.Gen.facts, Cert.ReferenceIdeal.Gen.facts, Cert.Pre_finite_inputs_Kernel.Gen.facts,
    Cert.Pre_finite_inputs_ReferenceIdeal.Gen.facts,
    frameK, frameKI, Cert.KernelIdealProof.Value.ref_frame, trivial, algebraic⟩

end Cert.Proof

end
